-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x80 : Shape := ⟨2, ![262144, 80]⟩
abbrev S_ : Shape := ⟨0, ![]⟩

class Facts : Prop where
  bcast_S_S262144x80 : S_.BroadcastsInDim S262144x80 (![] : Fin 0 → Fin S262144x80.rank)
  reducesTo_S262144x80_S_d0_1 : S262144x80.ReducesTo [0, 1] S_
  h_S_ : 0 < S_.numel

variable [Facts]

def fn {F : FTy → Type} [FloatOps F] (main_arg0 : FVec F S262144x80 .f32) (main_arg1 : FVec F S262144x80 .f32) (main_arg2 : FVec F S262144x80 .f32) : IVec S_ 1 :=
  let main_v0 : FVec F S262144x80 .f32 := Host.absf main_arg0
  let main_cst : FVec F S_ .f32 := constant S_ .f32 0x7F800000#32
  let main_v1 : FVec F S262144x80 .f32 := broadcastInDim S262144x80 ![] bcast_S_S262144x80 main_cst
  let main_v2 : IVec S262144x80 1 := cmpf .olt main_v0 main_v1
  let main_c : IVec S_ 1 := constantI S_ 1 1#1
  let main_v3 : IVec S_ 1 := (fun x v => Host.reduce IntOp.andi x v reducesTo_S262144x80_S_d0_1 h_S_) main_v2 main_c
  let main_v4 : FVec F S262144x80 .f32 := Host.absf main_arg1
  let main_cst_0 : FVec F S_ .f32 := constant S_ .f32 0x7F800000#32
  let main_v5 : FVec F S262144x80 .f32 := broadcastInDim S262144x80 ![] bcast_S_S262144x80 main_cst_0
  let main_v6 : IVec S262144x80 1 := cmpf .olt main_v4 main_v5
  let main_c_1 : IVec S_ 1 := constantI S_ 1 1#1
  let main_v7 : IVec S_ 1 := (fun x v => Host.reduce IntOp.andi x v reducesTo_S262144x80_S_d0_1 h_S_) main_v6 main_c_1
  let main_v8 : IVec S_ 1 := andi main_v3 main_v7
  let main_v9 : FVec F S262144x80 .f32 := Host.absf main_arg2
  let main_cst_2 : FVec F S_ .f32 := constant S_ .f32 0x7F800000#32
  let main_v10 : FVec F S262144x80 .f32 := broadcastInDim S262144x80 ![] bcast_S_S262144x80 main_cst_2
  let main_v11 : IVec S262144x80 1 := cmpf .olt main_v9 main_v10
  let main_c_3 : IVec S_ 1 := constantI S_ 1 1#1
  let main_v12 : IVec S_ 1 := (fun x v => Host.reduce IntOp.andi x v reducesTo_S262144x80_S_d0_1 h_S_) main_v11 main_c_3
  let main_v13 : IVec S_ 1 := andi main_v8 main_v12
  main_v13
-- ==== Kernel.lean ====
abbrev S262144x80 : Shape := ⟨2, ![262144, 80]⟩
abbrev S1x10 : Shape := ⟨2, ![1, 10]⟩
abbrev S8192x80 : Shape := ⟨2, ![8192, 80]⟩
abbrev S1x8192x80 : Shape := ⟨3, ![1, 8192, 80]⟩
abbrev S1 : Shape := ⟨1, ![1]⟩
abbrev S1x1x1 : Shape := ⟨3, ![1, 1, 1]⟩
abbrev S1x1 : Shape := ⟨2, ![1, 1]⟩
abbrev S10 : Shape := ⟨1, ![10]⟩
abbrev S_ : Shape := ⟨0, ![]⟩

abbrev nBuf : Space → Nat
  | .hbm => 39
  | .vmem => 17
  | .smem => 0
  | _ => 0

abbrev bufTy : (tb : Table) → Fin (tcTables nBuf tb) → BufTy
  | .hbm, ⟨0, _⟩ => ⟨S262144x80, .f32⟩
  | .hbm, ⟨1, _⟩ => ⟨S262144x80, .f32⟩
  | .hbm, ⟨2, _⟩ => ⟨S262144x80, .f32⟩
  | .hbm, ⟨3, _⟩ => ⟨S1x10, .f32⟩
  | .hbm, ⟨4, _⟩ => ⟨S10, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S10, .f32⟩
  | .hbm, ⟨11, _⟩ => ⟨S10, .i1⟩
  | .hbm, ⟨12, _⟩ => ⟨S10, .i32⟩
  | .hbm, ⟨13, _⟩ => ⟨S_, .i32⟩
  | .hbm, ⟨14, _⟩ => ⟨S_, .i32⟩
  | .hbm, ⟨15, _⟩ => ⟨S_, .f32⟩
  | .hbm, ⟨16, _⟩ => ⟨S_, .f32⟩
  | .hbm, ⟨17, _⟩ => ⟨S10, .f32⟩
  | .hbm, ⟨18, _⟩ => ⟨S10, .i1⟩
  | .hbm, ⟨19, _⟩ => ⟨S_, .f32⟩
  | .hbm, ⟨20, _⟩ => ⟨S10, .f32⟩
  | .hbm, ⟨21, _⟩ => ⟨S10, .f32⟩
  | .hbm, ⟨22, _⟩ => ⟨S10, .f32⟩
  | .hbm, ⟨23, _⟩ => ⟨S10, .f32⟩
  | .hbm, ⟨24, _⟩ => ⟨S_, .f32⟩
  | .hbm, ⟨25, _⟩ => ⟨S_, .f32⟩
  | .hbm, ⟨26, _⟩ => ⟨S10, .f32⟩
  | .hbm, ⟨27, _⟩ => ⟨S10, .f32⟩
  | .hbm, ⟨28, _⟩ => ⟨S_, .f32⟩
  | .hbm, ⟨29, _⟩ => ⟨S_, .i1⟩
  | .hbm, ⟨30, _⟩ => ⟨S10, .f32⟩
  | .hbm, ⟨31, _⟩ => ⟨S10, .f32⟩
  | .hbm, ⟨32, _⟩ => ⟨S10, .f32⟩
  | .hbm, ⟨33, _⟩ => ⟨S1x10, .f32⟩
  | .hbm, ⟨34, _⟩ => ⟨S1x1, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S8192x80, .f32⟩
  | .local _ .vmem, ⟨1, _⟩ => ⟨S8192x80, .f32⟩
  | .local _ .vmem, ⟨2, _⟩ => ⟨S8192x80, .f32⟩
  | .local _ .vmem, ⟨3, _⟩ => ⟨S8192x80, .f32⟩
  | .local _ .vmem, ⟨4, _⟩ => ⟨S8192x80, .f32⟩
  | .local _ .vmem, ⟨5, _⟩ => ⟨S8192x80, .f32⟩
  | .local _ .vmem, ⟨6, _⟩ => ⟨S1x10, .f32⟩
  | .local _ .vmem, ⟨7, _⟩ => ⟨S1x10, .f32⟩
  | .local _ .vmem, ⟨8, _⟩ => ⟨S8192x80, .f32⟩
  | .local _ .vmem, ⟨9, _⟩ => ⟨S8192x80, .f32⟩
  | .local _ .vmem, ⟨10, _⟩ => ⟨S8192x80, .f32⟩
  | .local _ .vmem, ⟨11, _⟩ => ⟨S8192x80, .f32⟩
  | .local _ .vmem, ⟨12, _⟩ => ⟨S8192x80, .f32⟩
  | .local _ .vmem, ⟨13, _⟩ => ⟨S8192x80, .f32⟩
  | .local _ .vmem, ⟨14, _⟩ => ⟨S1x10, .f32⟩
  | .local _ .vmem, ⟨15, _⟩ => ⟨S1x1, .f32⟩
  | .local _ .vmem, ⟨16, _⟩ => ⟨S1x1, .f32⟩
  | _, _ => ⟨S262144x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v157 : BitVec 1 := Scalar.cmpi .eq arg0 c31_i32
  let v158 : BitVec 32 := Scalar.extui v157
  let c0_i32_24 : BitVec 32 := 0#32
  let v159 : BitVec 1 := Scalar.cmpi .ne v158 c0_i32_24
  v159

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![32], ![false]⟩

def k1_cond2 (i : grid1.Coords) : BitVec 1 :=
  let arg0 : BitVec 32 := BitVec.ofNat 32 (i 0).val
  let c31_i32 : BitVec 32 := 31#32
  let v112 : BitVec 1 := Scalar.cmpi .eq arg0 c31_i32
  let v113 : BitVec 32 := Scalar.extui v112
  let c0_i32_20 : BitVec 32 := 0#32
  let v114 : BitVec 1 := Scalar.cmpi .ne v113 c0_i32_20
  v114

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8192x80 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x80 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x80 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  inb_S1x10_S1x10_0_0 : ∀ a, (![0, 0] : Fin 2 → Nat) a + S1x10.size a ≤ S1x10.size a
  h_S1x10 : 0 < S1x10.numel
  shapeCasts_S1x10_S1x10 : S1x10.ShapeCasts S1x10
  inb_S8192x80_S8192x80_0_0 : ∀ a, (![0, 0] : Fin 2 → Nat) a + S8192x80.size a ≤ S8192x80.size a
  h_S8192x80 : 0 < S8192x80.numel
  natLt_1_32 : 1 < 32
  shapeCasts_S8192x80_S1x8192x80 : S8192x80.ShapeCasts S1x8192x80
  reduces_S1x8192x80_S1 : S1x8192x80.Reduces [1, 2] S1
  shapeCasts_S1_S1x1x1 : S1.ShapeCasts S1x1x1
  inpos_S1x1x1_p0_0_0 : ∀ a, (![0, 0, 0] : Fin 3 → Nat) a < S1x1x1.size a
  slices_S1x10_o0_0_S1x1 : S1x10.Slices ![0, 0] S1x1
  inpos_S1x1_p0_0 : ∀ a, (![0, 0] : Fin 2 → Nat) a < S1x1.size a
  slices_S1x10_o0_1_S1x1 : S1x10.Slices ![0, 1] S1x1
  slices_S1x10_o0_2_S1x1 : S1x10.Slices ![0, 2] S1x1
  slices_S1x10_o0_3_S1x1 : S1x10.Slices ![0, 3] S1x1
  slices_S1x10_o0_4_S1x1 : S1x10.Slices ![0, 4] S1x1
  slices_S1x10_o0_5_S1x1 : S1x10.Slices ![0, 5] S1x1
  slices_S1x10_o0_6_S1x1 : S1x10.Slices ![0, 6] S1x1
  slices_S1x10_o0_7_S1x1 : S1x10.Slices ![0, 7] S1x1
  slices_S1x10_o0_8_S1x1 : S1x10.Slices ![0, 8] S1x1
  slices_S1x10_o0_9_S1x1 : S1x10.Slices ![0, 9] S1x1
  concatenates_S1_S1_S1_S1_S1_S1_S1_S1_S1_S1_S10_d0 : Shape.Concatenates [S1, S1, S1, S1, S1, S1, S1, S1, S1, S1] S10 0
  shapeCasts_S10_S1x10 : S10.ShapeCasts S1x10
  shapeCasts_S1x10_S10 : S1x10.ShapeCasts S10
  reducesTo_S10_S_d0 : S10.ReducesTo [0] S_
  h_S_ : 0 < S_.numel
  bcast_S_S10 : S_.BroadcastsInDim S10 (![] : Fin 0 → Fin S10.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x80.size a ≤ S262144x80.size a
  hwx0_0 : ∀ i : grid0.Coords, EltTy.bits .f32 = 32 ∨ (Rect.block (s := S262144x80) S8192x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x80.size a ≤ S262144x80.size a
  hwx0_1 : ∀ i : grid0.Coords, EltTy.bits .f32 = 32 ∨ (Rect.block (s := S262144x80) S8192x80.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x80.size a ≤ S262144x80.size a
  hwx0_2 : ∀ i : grid0.Coords, EltTy.bits .f32 = 32 ∨ (Rect.block (s := S262144x80) S8192x80.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x10.size a ≤ S1x10.size a
  hwx0_3 : ∀ i : grid0.Coords, EltTy.bits .f32 = 32 ∨ (Rect.block (s := S1x10) S1x10.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x80.size a ≤ S262144x80.size a
  hwx1_0 : ∀ i : grid1.Coords, EltTy.bits .f32 = 32 ∨ (Rect.block (s := S262144x80) S8192x80.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x80.size a ≤ S262144x80.size a
  hwx1_1 : ∀ i : grid1.Coords, EltTy.bits .f32 = 32 ∨ (Rect.block (s := S262144x80) S8192x80.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x80.size a ≤ S262144x80.size a
  hwx1_2 : ∀ i : grid1.Coords, EltTy.bits .f32 = 32 ∨ (Rect.block (s := S262144x80) S8192x80.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x10.size a ≤ S1x10.size a
  hwx1_3 : ∀ i : grid1.Coords, EltTy.bits .f32 = 32 ∨ (Rect.block (s := S1x10) S1x10.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

abbrev win0_0 : Pipeline.Window sig grid0 :=
  Pipeline.Window.ofSpec (Memref.whole main_arg0) S8192x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x80.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x80.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x10.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S8192x80.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8192x80.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S8192x80.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S262144x80 : Shape := ⟨2, ![262144, 80]⟩
abbrev S_ : Shape := ⟨0, ![]⟩
abbrev S20971520 : Shape := ⟨1, ![20971520]⟩
abbrev S10 : Shape := ⟨1, ![10]⟩
abbrev S20971520x1 : Shape := ⟨2, ![20971520, 1]⟩
abbrev S262144x80x1 : Shape := ⟨3, ![262144, 80, 1]⟩

abbrev nBuf : Space → Nat
  | .hbm => 96
  | .vmem => 0
  | .smem => 0
  | _ => 0

abbrev bufTy : (tb : Table) → Fin (tcTables nBuf tb) → BufTy
  | .hbm, ⟨0, _⟩ => ⟨S262144x80, .f32⟩
  | .hbm, ⟨1, _⟩ => ⟨S262144x80, .f32⟩
  | .hbm, ⟨2, _⟩ => ⟨S262144x80, .f32⟩
  | .hbm, ⟨3, _⟩ => ⟨S_, .f32⟩
  | .hbm, ⟨4, _⟩ => ⟨S262144x80, .f32⟩
  | .hbm, ⟨5, _⟩ => ⟨S262144x80, .i1⟩
  | .hbm, ⟨6, _⟩ => ⟨S262144x80, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S262144x80, .f32⟩
  | .hbm, ⟨12, _⟩ => ⟨S262144x80, .f32⟩
  | .hbm, ⟨13, _⟩ => ⟨S_, .f32⟩
  | .hbm, ⟨14, _⟩ => ⟨S262144x80, .f32⟩
  | .hbm, ⟨15, _⟩ => ⟨S262144x80, .f32⟩
  | .hbm, ⟨16, _⟩ => ⟨S_, .f32⟩
  | .hbm, ⟨17, _⟩ => ⟨S262144x80, .f32⟩
  | .hbm, ⟨18, _⟩ => ⟨S262144x80, .f32⟩
  | .hbm, ⟨19, _⟩ => ⟨S262144x80, .f32⟩
  | .hbm, ⟨20, _⟩ => ⟨S262144x80, .f32⟩
  | .hbm, ⟨21, _⟩ => ⟨S_, .f32⟩
  | .hbm, ⟨22, _⟩ => ⟨S262144x80, .f32⟩
  | .hbm, ⟨23, _⟩ => ⟨S262144x80, .f32⟩
  | .hbm, ⟨24, _⟩ => ⟨S262144x80, .f32⟩
  | .hbm, ⟨25, _⟩ => ⟨S262144x80, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S262144x80, .i32⟩
  | .hbm, ⟨30, _⟩ => ⟨S262144x80, .i32⟩
  | .hbm, ⟨31, _⟩ => ⟨S_, .i32⟩
  | .hbm, ⟨32, _⟩ => ⟨S262144x80, .i32⟩
  | .hbm, ⟨33, _⟩ => ⟨S262144x80, .i32⟩
  | .hbm, ⟨34, _⟩ => ⟨S20971520, .f32⟩
  | .hbm, ⟨35, _⟩ => ⟨S20971520, .i32⟩
  | .hbm, ⟨36, _⟩ => ⟨S_, .f32⟩
  | .hbm, ⟨37, _⟩ => ⟨S10, .f32⟩
  | .hbm, ⟨38, _⟩ => ⟨S20971520x1, .i32⟩
  | .hbm, ⟨39, _⟩ => ⟨S10, .f32⟩
  | .hbm, ⟨40, _⟩ => ⟨S_, .f32⟩
  | .hbm, ⟨41, _⟩ => ⟨S10, .f32⟩
  | .hbm, ⟨42, _⟩ => ⟨S10, .i1⟩
  | .hbm, ⟨43, _⟩ => ⟨S10, .i32⟩
  | .hbm, ⟨44, _⟩ => ⟨S_, .i32⟩
  | .hbm, ⟨45, _⟩ => ⟨S_, .i32⟩
  | .hbm, ⟨46, _⟩ => ⟨S_, .f32⟩
  | .hbm, ⟨47, _⟩ => ⟨S_, .f32⟩
  | .hbm, ⟨48, _⟩ => ⟨S10, .f32⟩
  | .hbm, ⟨49, _⟩ => ⟨S10, .i1⟩
  | .hbm, ⟨50, _⟩ => ⟨S_, .f32⟩
  | .hbm, ⟨51, _⟩ => ⟨S10, .f32⟩
  | .hbm, ⟨52, _⟩ => ⟨S10, .f32⟩
  | .hbm, ⟨53, _⟩ => ⟨S10, .f32⟩
  | .hbm, ⟨54, _⟩ => ⟨S10, .f32⟩
  | .hbm, ⟨55, _⟩ => ⟨S_, .f32⟩
  | .hbm, ⟨56, _⟩ => ⟨S_, .f32⟩
  | .hbm, ⟨57, _⟩ => ⟨S10, .f32⟩
  | .hbm, ⟨58, _⟩ => ⟨S10, .f32⟩
  | .hbm, ⟨59, _⟩ => ⟨S_, .i32⟩
  | .hbm, ⟨60, _⟩ => ⟨S262144x80, .i32⟩
  | .hbm, ⟨61, _⟩ => ⟨S262144x80, .i1⟩
  | .hbm, ⟨62, _⟩ => ⟨S_, .i32⟩
  | .hbm, ⟨63, _⟩ => ⟨S262144x80, .i32⟩
  | .hbm, ⟨64, _⟩ => ⟨S262144x80, .i32⟩
  | .hbm, ⟨65, _⟩ => ⟨S262144x80, .i32⟩
  | .hbm, ⟨66, _⟩ => ⟨S262144x80x1, .i32⟩
  | .hbm, ⟨67, _⟩ => ⟨S262144x80, .f32⟩
  | .hbm, ⟨68, _⟩ => ⟨S262144x80, .f32⟩
  | .hbm, ⟨69, _⟩ => ⟨S_, .f32⟩
  | .hbm, ⟨70, _⟩ => ⟨S_, .i1⟩
  | .hbm, ⟨71, _⟩ => ⟨S262144x80, .f32⟩
  | .hbm, ⟨72, _⟩ => ⟨S262144x80, .f32⟩
  | .hbm, ⟨73, _⟩ => ⟨S262144x80, .f32⟩
  | .hbm, ⟨74, _⟩ => ⟨S_, .f32⟩
  | .hbm, ⟨75, _⟩ => ⟨S262144x80, .f32⟩
  | .hbm, ⟨76, _⟩ => ⟨S262144x80, .f32⟩
  | .hbm, ⟨77, _⟩ => ⟨S262144x80, .f32⟩
  | .hbm, ⟨78, _⟩ => ⟨S262144x80, .f32⟩
  | .hbm, ⟨79, _⟩ => ⟨S262144x80, .i1⟩
  | .hbm, ⟨80, _⟩ => ⟨S262144x80, .f32⟩
  | .hbm, ⟨81, _⟩ => ⟨S262144x80, .f32⟩
  | .hbm, ⟨82, _⟩ => ⟨S262144x80, .f32⟩
  | .hbm, ⟨83, _⟩ => ⟨S262144x80, .f32⟩
  | .hbm, ⟨84, _⟩ => ⟨S262144x80, .f32⟩
  | .hbm, ⟨85, _⟩ => ⟨S262144x80, .f32⟩
  | .hbm, ⟨86, _⟩ => ⟨S262144x80, .f32⟩
  | .hbm, ⟨87, _⟩ => ⟨S262144x80, .f32⟩
  | .hbm, ⟨88, _⟩ => ⟨S262144x80, .f32⟩
  | .hbm, ⟨89, _⟩ => ⟨S262144x80, .f32⟩
  | .hbm, ⟨90, _⟩ => ⟨S262144x80, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | _, _ => ⟨S262144x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_c_5 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_8 : Ref sig .tc := ⟨.hbm, 44, rfl⟩
abbrev main_v26 : Ref sig .tc := ⟨.hbm, 45, rfl⟩
abbrev main_v27 : Ref sig .tc := ⟨.hbm, 46, rfl⟩
abbrev main_cst_9 : Ref sig .tc := ⟨.hbm, 47, rfl⟩
abbrev main_v28 : Ref sig .tc := ⟨.hbm, 48, rfl⟩
abbrev main_v29 : Ref sig .tc := ⟨.hbm, 49, rfl⟩
abbrev main_cst_10 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_11 : Ref sig .tc := ⟨.hbm, 55, rfl⟩
abbrev main_call1_v0 : Ref sig .tc := ⟨.hbm, 56, rfl⟩
abbrev main_call1_v1 : Ref sig .tc := ⟨.hbm, 57, rfl⟩
abbrev main_v34 : Ref sig .tc := ⟨.hbm, 58, rfl⟩
abbrev main_c_12 : Ref sig .tc := ⟨.hbm, 59, rfl⟩
abbrev main_v35 : Ref sig .tc := ⟨.hbm, 60, rfl⟩
abbrev main_v36 : Ref sig .tc := ⟨.hbm, 61, rfl⟩
abbrev main_c_13 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_14 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call3_cst : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_v5 : Ref sig .tc := ⟨.hbm, 80, rfl⟩
abbrev main_call3_v6 : Ref sig .tc := ⟨.hbm, 81, rfl⟩
abbrev main_call3_v7 : Ref sig .tc := ⟨.hbm, 82, rfl⟩
abbrev main_call3_v8 : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_15 : Ref sig .tc := ⟨.hbm, 91, rfl⟩
abbrev main_v51 : Ref sig .tc := ⟨.hbm, 92, rfl⟩
abbrev main_v52 : Ref sig .tc := ⟨.hbm, 93, rfl⟩
abbrev main_cst_16 : Ref sig .tc := ⟨.hbm, 94, rfl⟩
abbrev main_v53 : Ref sig .tc := ⟨.hbm, 95, rfl⟩

abbrev nD : Nat := 1
abbrev τ : Topo := Topo.v7x

variable {F : FTy → Type} [FloatOps F]

class Facts₀ : Prop where
  bcast_S_S262144x80 : S_.BroadcastsInDim S262144x80 (![] : Fin 0 → Fin S262144x80.rank)
  reducesTo_S262144x80_S_d0_1 : S262144x80.ReducesTo [0, 1] S_
  h_S_ : 0 < S_.numel
  shapeCasts_S262144x80_S20971520 : S262144x80.ShapeCasts S20971520
  bcast_S_S10 : S_.BroadcastsInDim S10 (![] : Fin 0 → Fin S10.rank)
  bcast_S20971520_S20971520x1_0 : S20971520.BroadcastsInDim S20971520x1 (![0] : Fin 1 → Fin S20971520x1.rank)
  natLt_1_32 : 1 < 32
  reducesTo_S10_S_d0 : S10.ReducesTo [0] S_
  bcast_S262144x80_S262144x80x1_0_1 : S262144x80.BroadcastsInDim S262144x80x1 (![0, 1] : Fin 2 → Fin S262144x80x1.rank)
  scatter_S10_S20971520x1_S20971520_n_0_0_1_wf : ScatterDims.WF S10 S20971520x1 S20971520 [] [0] [0] 1
  gather_S10_S262144x80x1_S262144x80_n_0_n_n_0_2_1_wf : GatherDims.WF S10 S262144x80x1 S262144x80 [] [0] [] [0] [] 2 ![1]

variable [Facts₀]

def scatter_S10_S20971520x1_S20971520_n_0_0_1 : ScatterDims S10 S20971520x1 S20971520 where
  updateWindowDims := []
  insertedWindowDims := [0]
  scatterDimsToOperandDims := [0]
  indexVectorDim := 1
  wf := scatter_S10_S20971520x1_S20971520_n_0_0_1_wf
def gather_S10_S262144x80x1_S262144x80_n_0_n_n_0_2_1 : GatherDims S10 S262144x80x1 S262144x80 where
  offsetDims := []
  collapsedSliceDims := [0]
  operandBatchingDims := []
  startIndicesBatchingDims := []
  startIndexMap := [0]
  indexVectorDim := 2
  sliceSizes := ![1]
  wf := gather_S10_S262144x80x1_S262144x80_n_0_n_n_0_2_1_wf

class Facts : Prop extends Facts₀ where

variable [Facts]
-- ==== Proof.HistRuns.lean ====
/- The histogram kernel (the first of the two launches) on one grid point: its body run on whole staging
   buffers, in each of the three situations the grid meets — the first point (the ten running counts are reset,
   then updated), a middle point (updated), the last point (updated, then copied to the output block). What each
   buffer ends with is found by the run itself, as the list of stores into it. -/
import proofs.«130534_j1580547966503_1_alg».proof.Proof.Gen.KernelIdeal.Launch
import proofs.«130534_j1580547966503_1_alg».proof.Proof.Gen.KernelIdeal.Skeleton
import proofs.«130534_j1580547966503_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions of the body, decided over the grid -/

/-- "This is the first grid point" as the body computes it from the grid coordinate. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- "This is the last grid point". -/
abbrev isLast (i : grid0.Coords) : Prop := k0_cond2 i = 1#1
theorem isLast_iff : ∀ t : Fin cfg0.N, isLast (grid0.coords t) ↔ t.val = 31 :=
  (by decide +kernel : ∀ t : Fin grid0.N, isLast (grid0.coords t) ↔ t.val = 31)

/-! ## The body's run, case by case -/

set_option maxHeartbeats 2000000 in
/-- First point: the counts' scratch at anything, the output block untouched. -/
noncomputable def runFirst (c : Dev nD) (i : grid0.Coords) (arg1 : Memref sig .tc .vmem S8192x80 .f32) (harg1 : arg1.IsWhole) (arg2 : Memref sig .tc .vmem S8192x80 .f32) (harg2 : arg2.IsWhole) (arg3 : Memref sig .tc .vmem S8192x80 .f32) (harg3 : arg3.IsWhole) (arg4 : Memref sig .tc .vmem S1x10 .f32) (harg4 : arg4.IsWhole) (arg5 : Memref sig .tc .vmem S1x10 .f32) (harg5 : arg5.IsWhole) (hc0 : isFirst i) (hc1 : ¬isLast i)
    (x0 x1 x2 : Vec F S8192x80 .f32) :
    { LS : List (View.Piece (Elt F) S1x10 .f32) //
      ∀ (xo : Vec F S1x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__hist_kernel i arg1 harg1 arg2 harg2 arg3 harg3 arg4 harg4 arg5 harg5) K } := by
  refine ⟨?_, fun xo E K => ?run⟩
  case run =>
    simp only [cc0__hist_kernel_eq_skeleton]; unfold cc0__hist_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS

set_option maxHeartbeats 2000000 in
/-- A middle point: the counts' scratch at what the point before left, the output block untouched. -/
noncomputable def runMid (c : Dev nD) (i : grid0.Coords) (arg1 : Memref sig .tc .vmem S8192x80 .f32) (harg1 : arg1.IsWhole) (arg2 : Memref sig .tc .vmem S8192x80 .f32) (harg2 : arg2.IsWhole) (arg3 : Memref sig .tc .vmem S8192x80 .f32) (harg3 : arg3.IsWhole) (arg4 : Memref sig .tc .vmem S1x10 .f32) (harg4 : arg4.IsWhole) (arg5 : Memref sig .tc .vmem S1x10 .f32) (harg5 : arg5.IsWhole) (hc0 : ¬isFirst i) (hc1 : ¬isLast i)
    (x0 x1 x2 : Vec F S8192x80 .f32) (xs : Vec F S1x10 .f32) :
    { LS : List (View.Piece (Elt F) S1x10 .f32) //
      ∀ (xo : Vec F S1x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo ∗ owns (c : Thread nD τ) arg5 fullShare xs
            ∗ (iprop(owns (c : Thread nD τ) arg1 fullShare x0 ∗ owns (c : Thread nD τ) arg2 fullShare x1 ∗ owns (c : Thread nD τ) arg3 fullShare x2 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__hist_kernel i arg1 harg1 arg2 harg2 arg3 harg3 arg4 harg4 arg5 harg5) K } := by
  refine ⟨?_, fun xo E K => ?run⟩
  case run =>
    simp only [cc0__hist_kernel_eq_skeleton]; unfold cc0__hist_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS

set_option maxHeartbeats 2000000 in
/-- The last point: the counts' scratch at what the point before left, the output block at anything. -/
noncomputable def runLast (c : Dev nD) (i : grid0.Coords) (arg1 : Memref sig .tc .vmem S8192x80 .f32) (harg1 : arg1.IsWhole) (arg2 : Memref sig .tc .vmem S8192x80 .f32) (harg2 : arg2.IsWhole) (arg3 : Memref sig .tc .vmem S8192x80 .f32) (harg3 : arg3.IsWhole) (arg4 : Memref sig .tc .vmem S1x10 .f32) (harg4 : arg4.IsWhole) (arg5 : Memref sig .tc .vmem S1x10 .f32) (harg5 : arg5.IsWhole) (hc0 : ¬isFirst i) (hc1 : isLast i)
    (x0 x1 x2 : Vec F S8192x80 .f32) (xs : Vec F S1x10 .f32) :
    Σ' (LO : List (View.Piece (Elt F) S1x10 .f32)), { LS : List (View.Piece (Elt F) S1x10 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__hist_kernel i arg1 harg1 arg2 harg2 arg3 harg3 arg4 harg4 arg5 harg5) K } := by
  refine ⟨?_, ?_, fun E K => ?run⟩
  case run =>
    simp only [cc0__hist_kernel_eq_skeleton]; unfold cc0__hist_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg1.eq_unread hf0; obtain rfl := harg2.eq_unread hf1; obtain rfl := harg3.eq_unread hf2; obtain rfl := harg5.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS

end Cert.KernelIdeal.Hist

end
-- ==== Proof.HistRegion.lean ====
/- The histogram launch as one pipeline region, at the contents `V` the region is entered from: what the ten running
   counts (a scratch carried from grid point to grid point) hold after each point, the proof data of the pipeline, the
   body obligation at every point, and the invariant's two ends. -/
import proofs.«130534_j1580547966503_1_alg».proof.Proof.HistRuns

set_option maxRecDepth 16384

noncomputable section

namespace Cert.KernelIdeal.Hist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and staging buffers -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before_in0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev ms0 (t : Fin cfg0.N) : Memref sig .tc .vmem S8192x80 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x80 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8192x80 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x10 .f32 := win0_3.stage (cfg0.slots t 3)
abbrev hs3 (t : Fin cfg0.N) : (ms3 t).IsWhole := hstage0_3 ((cfg0.slots t 3).cast nbuf0_3)
/-- The scratch the kernel carries from point to point. -/
abbrev scM : Memref sig .tc .vmem S1x10 .f32 := Memref.whole cc0_scratch0

theorem notLast (t : Fin cfg0.N) (h : t.val ≠ 31) : ¬isLast (grid0.coords t) := fun hh => h ((isLast_iff t).mp hh)
theorem notFirst (t : Fin cfg0.N) (h : t.val ≠ 0) : ¬isFirst (grid0.coords t) := fun hh => h ((isFirst_iff t).mp hh)
theorem ne31_of_zero (t : Fin cfg0.N) (h : t.val = 0) : t.val ≠ 31 := by omega
theorem ne0_of_31 (t : Fin cfg0.N) (h : t.val = 31) : t.val ≠ 0 := by omega

/-! ## What each kind of point leaves in the scratch and in the output block -/

/-- The scratch after the first point. -/
def scrFirst (c : Dev nD) (t : Fin cfg0.N) (h0 : t.val = 0) : Vec F S1x10 .f32 :=
  View.canon (runFirst c (grid0.coords t) (ms0 t) (hs0 t) (ms1 t) (hs1 t) (ms2 t) (hs2 t) (ms3 t) (hs3 t) scM (Memref.isWhole_whole _) ((isFirst_iff t).mpr h0) (notLast t (ne31_of_zero t h0)) (iblk V c 0 t) (iblk V c 1 t) (iblk V c 2 t)).1
theorem coverFirst (c : Dev nD) (t : Fin cfg0.N) (h0 : t.val = 0) (y : S1x10.Idx) :
    ∃ pc ∈ (runFirst c (grid0.coords t) (ms0 t) (hs0 t) (ms1 t) (hs1 t) (ms2 t) (hs2 t) (ms3 t) (hs3 t) scM (Memref.isWhole_whole _) ((isFirst_iff t).mpr h0) (notLast t (ne31_of_zero t h0)) (iblk V c 0 t) (iblk V c 1 t) (iblk V c 2 t)).1, y ∈ pc.1.set :=
  View.cover_of_tiledL _ S1x10.size (by sl_kernel_rfl) y

/-- The scratch after a middle point, over what the point before left. -/
def scrMid (c : Dev nD) (t : Fin cfg0.N) (h0 : t.val ≠ 0) (h1 : t.val ≠ 31) (xs : Vec F S1x10 .f32) : Vec F S1x10 .f32 :=
  View.canon (runMid c (grid0.coords t) (ms0 t) (hs0 t) (ms1 t) (hs1 t) (ms2 t) (hs2 t) (ms3 t) (hs3 t) scM (Memref.isWhole_whole _) (notFirst t h0) (notLast t h1) (iblk V c 0 t) (iblk V c 1 t) (iblk V c 2 t) xs).1
theorem coverMid (c : Dev nD) (t : Fin cfg0.N) (h0 : t.val ≠ 0) (h1 : t.val ≠ 31) (xs : Vec F S1x10 .f32) (y : S1x10.Idx) :
    ∃ pc ∈ (runMid c (grid0.coords t) (ms0 t) (hs0 t) (ms1 t) (hs1 t) (ms2 t) (hs2 t) (ms3 t) (hs3 t) scM (Memref.isWhole_whole _) (notFirst t h0) (notLast t h1) (iblk V c 0 t) (iblk V c 1 t) (iblk V c 2 t) xs).1, y ∈ pc.1.set :=
  View.cover_of_tiledL _ S1x10.size (by sl_kernel_rfl) y

/-- The scratch after the last point, over what the point before left. -/
def scrLast (c : Dev nD) (t : Fin cfg0.N) (h1 : t.val = 31) (xs : Vec F S1x10 .f32) : Vec F S1x10 .f32 :=
  View.canon (runLast c (grid0.coords t) (ms0 t) (hs0 t) (ms1 t) (hs1 t) (ms2 t) (hs2 t) (ms3 t) (hs3 t) scM (Memref.isWhole_whole _) (notFirst t (ne0_of_31 t h1)) ((isLast_iff t).mpr h1) (iblk V c 0 t) (iblk V c 1 t) (iblk V c 2 t) xs).2.1
theorem coverLastS (c : Dev nD) (t : Fin cfg0.N) (h1 : t.val = 31) (xs : Vec F S1x10 .f32) (y : S1x10.Idx) :
    ∃ pc ∈ (runLast c (grid0.coords t) (ms0 t) (hs0 t) (ms1 t) (hs1 t) (ms2 t) (hs2 t) (ms3 t) (hs3 t) scM (Memref.isWhole_whole _) (notFirst t (ne0_of_31 t h1)) ((isLast_iff t).mpr h1) (iblk V c 0 t) (iblk V c 1 t) (iblk V c 2 t) xs).2.1, y ∈ pc.1.set :=
  View.cover_of_tiledL _ S1x10.size (by sl_kernel_rfl) y

/-- The output block after the last point. -/
def outLast (c : Dev nD) (t : Fin cfg0.N) (h1 : t.val = 31) (xs : Vec F S1x10 .f32) : Vec F S1x10 .f32 :=
  View.canon (runLast c (grid0.coords t) (ms0 t) (hs0 t) (ms1 t) (hs1 t) (ms2 t) (hs2 t) (ms3 t) (hs3 t) scM (Memref.isWhole_whole _) (notFirst t (ne0_of_31 t h1)) ((isLast_iff t).mpr h1) (iblk V c 0 t) (iblk V c 1 t) (iblk V c 2 t) xs).1
theorem coverLastO (c : Dev nD) (t : Fin cfg0.N) (h1 : t.val = 31) (xs : Vec F S1x10 .f32) (y : S1x10.Idx) :
    ∃ pc ∈ (runLast c (grid0.coords t) (ms0 t) (hs0 t) (ms1 t) (hs1 t) (ms2 t) (hs2 t) (ms3 t) (hs3 t) scM (Memref.isWhole_whole _) (notFirst t (ne0_of_31 t h1)) ((isLast_iff t).mpr h1) (iblk V c 0 t) (iblk V c 1 t) (iblk V c 2 t) xs).1, y ∈ pc.1.set :=
  View.cover_of_tiledL _ S1x10.size (by sl_kernel_rfl) y

/-! ## The scratch point by point -/

/-- What the scratch holds after the body at position `n`: the first point's contents, then each later point's over
    what the point before left. -/
def scrAt (c : Dev nD) : (n : ℕ) → n < cfg0.N → Vec F S1x10 .f32
  | 0, hn => scrFirst V c ⟨0, hn⟩ rfl
  | n + 1, hn =>
    if h : n + 1 = 31 then scrLast V c ⟨n + 1, hn⟩ h (scrAt c n (Nat.lt_of_succ_lt hn))
    else scrMid V c ⟨n + 1, hn⟩ (Nat.succ_ne_zero n) h (scrAt c n (Nat.lt_of_succ_lt hn))

theorem scrAt_first (c : Dev nD) (t : Fin cfg0.N) (h0 : t.val = 0) : scrAt V c t.val t.isLt = scrFirst V c t h0 := by
  obtain ⟨n, hn⟩ := t
  cases n with
  | zero => rfl
  | succ n => exact absurd h0 (Nat.succ_ne_zero n)

theorem scrAt_mid (c : Dev nD) (t : Fin cfg0.N) (h0 : t.val ≠ 0) (h1 : t.val ≠ 31) :
    scrAt V c t.val t.isLt = scrMid V c t h0 h1 (scrAt V c (t.val - 1) (Nat.lt_of_le_of_lt (Nat.sub_le _ _) t.isLt)) := by
  obtain ⟨n, hn⟩ := t
  cases n with
  | zero => exact absurd rfl h0
  | succ n => exact (dif_neg h1).trans rfl

theorem scrAt_last (c : Dev nD) (t : Fin cfg0.N) (h1 : t.val = 31) :
    scrAt V c t.val t.isLt = scrLast V c t h1 (scrAt V c (t.val - 1) (Nat.lt_of_le_of_lt (Nat.sub_le _ _) t.isLt)) := by
  obtain ⟨n, hn⟩ := t
  cases n with
  | zero => exact absurd (show (0 : ℕ) = 31 from h1) (by decide)
  | succ n => exact (dif_pos h1).trans rfl

/-- What the output's staging buffer holds after the body at point `t`: the last point's store; at the other points
    the window is idle and nothing reads this. -/
def outAt (c : Dev nD) (t : Fin cfg0.N) : Vec F S1x10 .f32 :=
  if h : t.val = 31 then outLast V c t h (scrAt V c (t.val - 1) (Nat.lt_of_le_of_lt (Nat.sub_le _ _) t.isLt)) else View.canon []

theorem outAt_last (c : Dev nD) (t : Fin cfg0.N) (h : t.val = 31) :
    outAt V c t = outLast V c t h (scrAt V c (t.val - 1) (Nat.lt_of_le_of_lt (Nat.sub_le _ _) t.isLt)) := dif_pos h

/-! ## The region's invariant -/

/-- The core's scoped buffers this kernel never touches, each whole at some contents. -/
def Rest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_scratch0), ((c : Thread nD τ).loc cc1_scratch0) ↦{fullShare} f))

/-- What the launch hands the body: the scratch at some contents, the untouched scoped buffers, the generator register. -/
theorem PhiA_eq (c : Dev nD) :
    (Pipeline.ΦA spec0 c : sProp 𝕄)
      = iprop(((∃ d, owns (c : Thread nD τ) scM fullShare d) ∗ Rest (F := F) c) ∗ (∃ r, prngReg c r)) := by
  unfold Pipeline.ΦA Rest; rw [scopedRest0_eq]; simp only [scM, owns_whole]; try rfl

/-- Before the first point what the launch hands over; before every later point the scratch at what the point before left. -/
def PhiS (c : Dev nD) : (n : ℕ) → n ≤ cfg0.N → sProp 𝕄
  | 0, _ => Pipeline.ΦA spec0 c
  | n + 1, hn => iprop((owns (c : Thread nD τ) scM fullShare (scrAt V c n hn) ∗ Rest (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) scM fullShare (scrAt V c n hn) ∗ Rest (F := F) c) ∗ (∃ r, prngReg c r)) := rfl
theorem PhiS_pos (c : Dev nD) (n : ℕ) (h : n ≤ cfg0.N) (hz : n ≠ 0) :
    PhiS V c n h = iprop((owns (c : Thread nD τ) scM fullShare (scrAt V c (n - 1) (by omega)) ∗ Rest (F := F) c) ∗ (∃ r, prngReg c r)) := by
  cases n with
  | zero => exact absurd rfl hz
  | succ n => rfl

/-! ## The proof data -/

/-- The pipeline's proof data on core `c`: the arrays as the region finds them; after the body each input's buffer at
    its block, the output's at `outAt`; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem Phi_castSucc (c : Dev nD) (t : Fin cfg0.N) :
    (dat V c).Φ t.castSucc = PhiS V c t.val (Nat.le_of_lt t.isLt) := by
  dsimp only [dat]; simp only [Fin.coe_castSucc]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = outAt V c t := by dsimp only [dat]
theorem before0 (c : Dev nD) (t : Fin cfg0.N) (d) : (dat V c).before 0 t d = iblk V c 0 t :=
  before_in0 V (dat V c) (A_eq V c 0) (after0 V c) t d
theorem before1 (c : Dev nD) (t : Fin cfg0.N) (d) : (dat V c).before 1 t d = iblk V c 1 t :=
  before_in1 V (dat V c) (A_eq V c 1) (after1 V c) t d
theorem before2 (c : Dev nD) (t : Fin cfg0.N) (d) : (dat V c).before 2 t d = iblk V c 2 t :=
  before_in2 V (dat V c) (A_eq V c 2) (after2 V c) t d

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idleOut : ∀ t : Fin cfg0.N, t.val ≠ 31 → cfg0.idle 3 (grid0.coords t) = true := by decide +kernel
theorem noFlushOut : ∀ t : Fin cfg0.N, t.val ≠ 31 → (cfg0.win 3).flush t = false := by decide +kernel
theorem liveOut : ∀ t : Fin cfg0.N, t.val = 31 → cfg0.idle 3 (grid0.coords t) = false := by decide +kernel

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point: each input's buffer holds its block; the point's position says which of the three runs
    applies; the invariant hands the body the scratch (at anything at the first point, else at what the point before
    left) and takes it back at this point's contents; the output's buffer is written at the last point only. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  by_cases h0 : t.val = 0
  · have h1 : t.val ≠ 31 := ne31_of_zero t h0
    rw [Dat.leavesExact_idle (dat V c) 3 t (idleOut t h1) (noFlushOut t h1)]
    rw [scrAt_first V c t h0]
    unfold scrFirst
    rw [Phi_castSucc V c t, PhiS_zero V c _ _ h0, PhiA_eq]
    iintro ⟨⟨⟨HS, HR⟩, Hg⟩, Ho, ⟨%d0, H0⟩, ⟨%d1, H1⟩, ⟨%d2, H2⟩, ⟨%d3, H3⟩⟩
    iapply ((runFirst c (grid0.coords t) _ _ _ _ _ _ _ _ _ _ ((isFirst_iff t).mpr h0) (notLast t h1) (iblk V c 0 t) (iblk V c 1 t) (iblk V c 2 t)).2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS HR Hg]
    · isplitl [HS HR]
      · isplitl [HS]
        · unfold owns; iexists _; isplitr
          swap; · iexact HS
          ipureintro; exact View.read_writes_eq_canon _ _ _ (coverFirst V c t h0)
        iexact HR
      iexact Hg
    isplitl [Ho]; · iexact Ho
    isplitl [H0]; · iexact H0
    isplitl [H1]; · iexact H1
    isplitl [H2]; · iexact H2
    iexists _; iexact H3
  · by_cases h1 : t.val = 31
    · rw [show (dat V c).leavesExact 3 t = owns (c : Thread nD τ) (ms3 t) fullShare ((dat V c).after 3 t) from by
        unfold Dat.leavesExact; rw [liveOut t h1], after3]
      rw [outAt_last V c t h1, scrAt_last V c t h1]
      unfold outLast scrLast
      rw [Phi_castSucc V c t, PhiS_pos V c _ _ h0]
      iintro ⟨⟨⟨HS, HR⟩, Hg⟩, Ho, ⟨%d0, H0⟩, ⟨%d1, H1⟩, ⟨%d2, H2⟩, ⟨%d3, H3⟩⟩
      iapply ((runLast c (grid0.coords t) _ _ _ _ _ _ _ _ _ _ (notFirst t h0) ((isLast_iff t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS HR Hg]
      · isplitl [HS HR]
        · isplitl [HS]
          · unfold owns; iexists _; isplitr
            swap; · iexact HS
            ipureintro; exact View.read_writes_eq_canon _ _ _ (coverLastS V c t h1 _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (coverLastO V c t h1 _)
    · rw [Dat.leavesExact_idle (dat V c) 3 t (idleOut t h1) (noFlushOut t h1)]
      rw [scrAt_mid V c t h0 h1]
      unfold scrMid
      rw [Phi_castSucc V c t, PhiS_pos V c _ _ h0]
      iintro ⟨⟨⟨HS, HR⟩, Hg⟩, Ho, ⟨%d0, H0⟩, ⟨%d1, H1⟩, ⟨%d2, H2⟩, ⟨%d3, H3⟩⟩
      iapply ((runMid c (grid0.coords t) _ _ _ _ _ _ _ _ _ _ (notFirst t h0) (notLast t h1) (iblk V c 0 t) (iblk V c 1 t) (iblk V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_eq_canon _ _ _ (coverMid V c t h0 h1 _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives back what the launch handed over: the scratch's contents are forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA_eq]
  iintro ⟨⟨HS, HR⟩, Hg⟩
  isplitl [HS HR]
  · isplitl [HS]
    · iexists _; iexact HS
    iexact HR
  iexact Hg

end Cert.KernelIdeal.Hist

end
-- ==== Proof.LossRuns.lean ====
/- The loss kernel (the second of the two launches) on one grid point: its body run on whole staging buffers, in
   each of the three situations the grid meets — the first point (the running sum is reset, then added to), a middle
   point (added to), the last point (added to, then copied to the output block). What each buffer ends with is found
   by the run itself, as the list of stores into it. -/
import proofs.«130534_j1580547966503_1_alg».proof.Proof.Gen.KernelIdeal.Launch
import proofs.«130534_j1580547966503_1_alg».proof.Proof.Gen.KernelIdeal.Skeleton
import proofs.«130534_j1580547966503_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions of the body, decided over the grid -/

/-- "This is the first grid point" as the body computes it from the grid coordinate. -/
abbrev isFirst (i : grid1.Coords) : Prop := (Scalar.cmpi .ne (Scalar.extui (Scalar.cmpi .eq (BitVec.ofNat 32 (i 0).val) 0#32)) 0#32) = 1#1
theorem isFirst_iff : ∀ t : Fin cfg1.N, isFirst (grid1.coords t) ↔ t.val = 0 :=
  (by decide +kernel : ∀ t : Fin grid1.N, isFirst (grid1.coords t) ↔ t.val = 0)

/-- "This is the last grid point". -/
abbrev isLast (i : grid1.Coords) : Prop := k1_cond2 i = 1#1
theorem isLast_iff : ∀ t : Fin cfg1.N, isLast (grid1.coords t) ↔ t.val = 31 :=
  (by decide +kernel : ∀ t : Fin grid1.N, isLast (grid1.coords t) ↔ t.val = 31)

/-! ## The body's run, case by case -/

set_option maxHeartbeats 2000000 in
/-- First point: the running sum's scratch at anything, the output block untouched. -/
noncomputable def runFirst (c : Dev nD) (i : grid1.Coords) (arg1 : Memref sig .tc .vmem S8192x80 .f32) (harg1 : arg1.IsWhole) (arg2 : Memref sig .tc .vmem S8192x80 .f32) (harg2 : arg2.IsWhole) (arg3 : Memref sig .tc .vmem S8192x80 .f32) (harg3 : arg3.IsWhole) (arg4 : Memref sig .tc .vmem S1x10 .f32) (harg4 : arg4.IsWhole) (arg5 : Memref sig .tc .vmem S1x1 .f32) (harg5 : arg5.IsWhole) (arg6 : Memref sig .tc .vmem S1x1 .f32) (harg6 : arg6.IsWhole) (hc0 : isFirst i) (hc1 : ¬isLast i)
    (x0 x1 x2 : Vec F S8192x80 .f32) (x3 : Vec F S1x10 .f32) :
    { LS : List (View.Piece (Elt F) S1x1 .f32) //
      ∀ (xo : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc1__loss_kernel i arg1 harg1 arg2 harg2 arg3 harg3 arg4 harg4 arg5 harg5 arg6 harg6) K } := by
  refine ⟨?_, fun xo E K => ?run⟩
  case run =>
    simp only [cc1__loss_kernel_eq_skeleton]; unfold cc1__loss_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

set_option maxHeartbeats 2000000 in
/-- A middle point: the running sum's scratch at what the point before left, the output block untouched. -/
noncomputable def runMid (c : Dev nD) (i : grid1.Coords) (arg1 : Memref sig .tc .vmem S8192x80 .f32) (harg1 : arg1.IsWhole) (arg2 : Memref sig .tc .vmem S8192x80 .f32) (harg2 : arg2.IsWhole) (arg3 : Memref sig .tc .vmem S8192x80 .f32) (harg3 : arg3.IsWhole) (arg4 : Memref sig .tc .vmem S1x10 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : ¬isLast i)
    (x0 x1 x2 : Vec F S8192x80 .f32) (x3 : Vec F S1x10 .f32) (xs : Vec F S1x1 .f32) :
    { LS : List (View.Piece (Elt F) S1x1 .f32) //
      ∀ (xo : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc1__loss_kernel i arg1 harg1 arg2 harg2 arg3 harg3 arg4 harg4 arg5 harg5 arg6 harg6) K } := by
  refine ⟨?_, fun xo E K => ?run⟩
  case run =>
    simp only [cc1__loss_kernel_eq_skeleton]; unfold cc1__loss_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

set_option maxHeartbeats 2000000 in
/-- The last point: the running sum's scratch at what the point before left, the output block at anything. -/
noncomputable def runLast (c : Dev nD) (i : grid1.Coords) (arg1 : Memref sig .tc .vmem S8192x80 .f32) (harg1 : arg1.IsWhole) (arg2 : Memref sig .tc .vmem S8192x80 .f32) (harg2 : arg2.IsWhole) (arg3 : Memref sig .tc .vmem S8192x80 .f32) (harg3 : arg3.IsWhole) (arg4 : Memref sig .tc .vmem S1x10 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i)
    (x0 x1 x2 : Vec F S8192x80 .f32) (x3 : Vec F S1x10 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc1__loss_kernel i arg1 harg1 arg2 harg2 arg3 harg3 arg4 harg4 arg5 harg5 arg6 harg6) K } := by
  refine ⟨?_, ?_, fun E K => ?run⟩
  case run =>
    simp only [cc1__loss_kernel_eq_skeleton]; unfold cc1__loss_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2; obtain rfl := harg4.eq_unread hf3; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

end Cert.KernelIdeal.Loss

end
-- ==== Proof.LossRegion.lean ====
/- The loss launch as one pipeline region, at the contents `V` the region is entered from: what the running sum (a
   scratch carried from grid point to grid point) holds after each point, the proof data of the pipeline, the body
   obligation at every point, and the invariant's two ends. -/
import proofs.«130534_j1580547966503_1_alg».proof.Proof.LossRuns

set_option maxRecDepth 16384

noncomputable section

namespace Cert.KernelIdeal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and staging buffers -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_in0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

abbrev ms0 (t : Fin cfg1.N) : Memref sig .tc .vmem S8192x80 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S8192x80 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S8192x80 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x10 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x1 .f32 := win1_4.stage (cfg1.slots t 4)
abbrev hs4 (t : Fin cfg1.N) : (ms4 t).IsWhole := hstage1_4 ((cfg1.slots t 4).cast nbuf1_4)
/-- The scratch the kernel carries from point to point. -/
abbrev scM : Memref sig .tc .vmem S1x1 .f32 := Memref.whole cc1_scratch0

theorem notLast (t : Fin cfg1.N) (h : t.val ≠ 31) : ¬isLast (grid1.coords t) := fun hh => h ((isLast_iff t).mp hh)
theorem notFirst (t : Fin cfg1.N) (h : t.val ≠ 0) : ¬isFirst (grid1.coords t) := fun hh => h ((isFirst_iff t).mp hh)
theorem ne31_of_zero (t : Fin cfg1.N) (h : t.val = 0) : t.val ≠ 31 := by omega
theorem ne0_of_31 (t : Fin cfg1.N) (h : t.val = 31) : t.val ≠ 0 := by omega

/-! ## What each kind of point leaves in the scratch and in the output block -/

/-- The scratch after the first point. -/
def scrFirst (c : Dev nD) (t : Fin cfg1.N) (h0 : t.val = 0) : Vec F S1x1 .f32 :=
  View.canon (runFirst c (grid1.coords t) (ms0 t) (hs0 t) (ms1 t) (hs1 t) (ms2 t) (hs2 t) (ms3 t) (hs3 t) (ms4 t) (hs4 t) scM (Memref.isWhole_whole _) ((isFirst_iff t).mpr h0) (notLast t (ne31_of_zero t h0)) (iblk V c 0 t) (iblk V c 1 t) (iblk V c 2 t) (iblk V c 3 t)).1
theorem coverFirst (c : Dev nD) (t : Fin cfg1.N) (h0 : t.val = 0) (y : S1x1.Idx) :
    ∃ pc ∈ (runFirst c (grid1.coords t) (ms0 t) (hs0 t) (ms1 t) (hs1 t) (ms2 t) (hs2 t) (ms3 t) (hs3 t) (ms4 t) (hs4 t) scM (Memref.isWhole_whole _) ((isFirst_iff t).mpr h0) (notLast t (ne31_of_zero t h0)) (iblk V c 0 t) (iblk V c 1 t) (iblk V c 2 t) (iblk V c 3 t)).1, y ∈ pc.1.set :=
  View.cover_of_tiledL _ S1x1.size (by sl_kernel_rfl) y

/-- The scratch after a middle point, over what the point before left. -/
def scrMid (c : Dev nD) (t : Fin cfg1.N) (h0 : t.val ≠ 0) (h1 : t.val ≠ 31) (xs : Vec F S1x1 .f32) : Vec F S1x1 .f32 :=
  View.canon (runMid c (grid1.coords t) (ms0 t) (hs0 t) (ms1 t) (hs1 t) (ms2 t) (hs2 t) (ms3 t) (hs3 t) (ms4 t) (hs4 t) scM (Memref.isWhole_whole _) (notFirst t h0) (notLast t h1) (iblk V c 0 t) (iblk V c 1 t) (iblk V c 2 t) (iblk V c 3 t) xs).1
theorem coverMid (c : Dev nD) (t : Fin cfg1.N) (h0 : t.val ≠ 0) (h1 : t.val ≠ 31) (xs : Vec F S1x1 .f32) (y : S1x1.Idx) :
    ∃ pc ∈ (runMid c (grid1.coords t) (ms0 t) (hs0 t) (ms1 t) (hs1 t) (ms2 t) (hs2 t) (ms3 t) (hs3 t) (ms4 t) (hs4 t) scM (Memref.isWhole_whole _) (notFirst t h0) (notLast t h1) (iblk V c 0 t) (iblk V c 1 t) (iblk V c 2 t) (iblk V c 3 t) xs).1, y ∈ pc.1.set :=
  View.cover_of_tiledL _ S1x1.size (by sl_kernel_rfl) y

/-- The scratch after the last point, over what the point before left. -/
def scrLast (c : Dev nD) (t : Fin cfg1.N) (h1 : t.val = 31) (xs : Vec F S1x1 .f32) : Vec F S1x1 .f32 :=
  View.canon (runLast c (grid1.coords t) (ms0 t) (hs0 t) (ms1 t) (hs1 t) (ms2 t) (hs2 t) (ms3 t) (hs3 t) (ms4 t) (hs4 t) scM (Memref.isWhole_whole _) (notFirst t (ne0_of_31 t h1)) ((isLast_iff t).mpr h1) (iblk V c 0 t) (iblk V c 1 t) (iblk V c 2 t) (iblk V c 3 t) xs).2.1
theorem coverLastS (c : Dev nD) (t : Fin cfg1.N) (h1 : t.val = 31) (xs : Vec F S1x1 .f32) (y : S1x1.Idx) :
    ∃ pc ∈ (runLast c (grid1.coords t) (ms0 t) (hs0 t) (ms1 t) (hs1 t) (ms2 t) (hs2 t) (ms3 t) (hs3 t) (ms4 t) (hs4 t) scM (Memref.isWhole_whole _) (notFirst t (ne0_of_31 t h1)) ((isLast_iff t).mpr h1) (iblk V c 0 t) (iblk V c 1 t) (iblk V c 2 t) (iblk V c 3 t) xs).2.1, y ∈ pc.1.set :=
  View.cover_of_tiledL _ S1x1.size (by sl_kernel_rfl) y

/-- The output block after the last point. -/
def outLast (c : Dev nD) (t : Fin cfg1.N) (h1 : t.val = 31) (xs : Vec F S1x1 .f32) : Vec F S1x1 .f32 :=
  View.canon (runLast c (grid1.coords t) (ms0 t) (hs0 t) (ms1 t) (hs1 t) (ms2 t) (hs2 t) (ms3 t) (hs3 t) (ms4 t) (hs4 t) scM (Memref.isWhole_whole _) (notFirst t (ne0_of_31 t h1)) ((isLast_iff t).mpr h1) (iblk V c 0 t) (iblk V c 1 t) (iblk V c 2 t) (iblk V c 3 t) xs).1
theorem coverLastO (c : Dev nD) (t : Fin cfg1.N) (h1 : t.val = 31) (xs : Vec F S1x1 .f32) (y : S1x1.Idx) :
    ∃ pc ∈ (runLast c (grid1.coords t) (ms0 t) (hs0 t) (ms1 t) (hs1 t) (ms2 t) (hs2 t) (ms3 t) (hs3 t) (ms4 t) (hs4 t) scM (Memref.isWhole_whole _) (notFirst t (ne0_of_31 t h1)) ((isLast_iff t).mpr h1) (iblk V c 0 t) (iblk V c 1 t) (iblk V c 2 t) (iblk V c 3 t) xs).1, y ∈ pc.1.set :=
  View.cover_of_tiledL _ S1x1.size (by sl_kernel_rfl) y

/-! ## The scratch point by point -/

/-- What the scratch holds after the body at position `n`: the first point's contents, then each later point's over
    what the point before left. -/
def scrAt (c : Dev nD) : (n : ℕ) → n < cfg1.N → Vec F S1x1 .f32
  | 0, hn => scrFirst V c ⟨0, hn⟩ rfl
  | n + 1, hn =>
    if h : n + 1 = 31 then scrLast V c ⟨n + 1, hn⟩ h (scrAt c n (Nat.lt_of_succ_lt hn))
    else scrMid V c ⟨n + 1, hn⟩ (Nat.succ_ne_zero n) h (scrAt c n (Nat.lt_of_succ_lt hn))

theorem scrAt_first (c : Dev nD) (t : Fin cfg1.N) (h0 : t.val = 0) : scrAt V c t.val t.isLt = scrFirst V c t h0 := by
  obtain ⟨n, hn⟩ := t
  cases n with
  | zero => rfl
  | succ n => exact absurd h0 (Nat.succ_ne_zero n)

theorem scrAt_mid (c : Dev nD) (t : Fin cfg1.N) (h0 : t.val ≠ 0) (h1 : t.val ≠ 31) :
    scrAt V c t.val t.isLt = scrMid V c t h0 h1 (scrAt V c (t.val - 1) (Nat.lt_of_le_of_lt (Nat.sub_le _ _) t.isLt)) := by
  obtain ⟨n, hn⟩ := t
  cases n with
  | zero => exact absurd rfl h0
  | succ n => exact (dif_neg h1).trans rfl

theorem scrAt_last (c : Dev nD) (t : Fin cfg1.N) (h1 : t.val = 31) :
    scrAt V c t.val t.isLt = scrLast V c t h1 (scrAt V c (t.val - 1) (Nat.lt_of_le_of_lt (Nat.sub_le _ _) t.isLt)) := by
  obtain ⟨n, hn⟩ := t
  cases n with
  | zero => exact absurd (show (0 : ℕ) = 31 from h1) (by decide)
  | succ n => exact (dif_pos h1).trans rfl

/-- What the output's staging buffer holds after the body at point `t`: the last point's store; at the other points
    the window is idle and nothing reads this. -/
def outAt (c : Dev nD) (t : Fin cfg1.N) : Vec F S1x1 .f32 :=
  if h : t.val = 31 then outLast V c t h (scrAt V c (t.val - 1) (Nat.lt_of_le_of_lt (Nat.sub_le _ _) t.isLt)) else View.canon []

theorem outAt_last (c : Dev nD) (t : Fin cfg1.N) (h : t.val = 31) :
    outAt V c t = outLast V c t h (scrAt V c (t.val - 1) (Nat.lt_of_le_of_lt (Nat.sub_le _ _) t.isLt)) := dif_pos h

/-! ## The region's invariant -/

/-- The core's scoped buffers this kernel never touches, each whole at some contents. -/
def Rest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_scratch0), ((c : Thread nD τ).loc cc0_scratch0) ↦{fullShare} f))

/-- What the launch hands the body, sorted: the scratch at some contents, the untouched scoped buffers, the generator register. -/
theorem PhiA_split (c : Dev nD) :
    (Pipeline.ΦA spec1 c : sProp 𝕄)
      ⊢ iprop(((∃ d, owns (c : Thread nD τ) scM fullShare d) ∗ Rest (F := F) c) ∗ (∃ r, prngReg c r)) := by
  unfold Pipeline.ΦA Rest; rw [scopedRest1_eq]; simp only [scM, owns_whole]
  iintro ⟨⟨H1, H2, H3, H4, H5, H6, H7, H8, HS⟩, Hg⟩
  isplitl [H1 H2 H3 H4 H5 H6 H7 H8 HS]
  · isplitl [HS]; · iexact HS
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

/-- And back. -/
theorem PhiA_join (c : Dev nD) :
    (iprop(((∃ d, owns (c : Thread nD τ) scM fullShare d) ∗ Rest (F := F) c) ∗ (∃ r, prngReg c r)) : sProp 𝕄)
      ⊢ Pipeline.ΦA spec1 c := by
  unfold Pipeline.ΦA Rest; rw [scopedRest1_eq]; simp only [scM, owns_whole]
  iintro ⟨⟨HS, H1, H2, H3, H4, H5, H6, H7, H8⟩, Hg⟩
  isplitl [H1 H2 H3 H4 H5 H6 H7 H8 HS]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HS
  iexact Hg

/-- Before the first point what the launch hands over; before every later point the scratch at what the point before left. -/
def PhiS (c : Dev nD) : (n : ℕ) → n ≤ cfg1.N → sProp 𝕄
  | 0, _ => Pipeline.ΦA spec1 c
  | n + 1, hn => iprop((owns (c : Thread nD τ) scM fullShare (scrAt V c n hn) ∗ Rest (F := F) c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop((owns (c : Thread nD τ) scM fullShare (scrAt V c n hn) ∗ Rest (F := F) c) ∗ (∃ r, prngReg c r)) := rfl
theorem PhiS_pos (c : Dev nD) (n : ℕ) (h : n ≤ cfg1.N) (hz : n ≠ 0) :
    PhiS V c n h = iprop((owns (c : Thread nD τ) scM fullShare (scrAt V c (n - 1) (by omega)) ∗ Rest (F := F) c) ∗ (∃ r, prngReg c r)) := by
  cases n with
  | zero => exact absurd rfl hz
  | succ n => rfl

/-! ## The proof data -/

/-- The pipeline's proof data on core `c`: the arrays as the region finds them; after the body each input's buffer at
    its block, the output's at `outAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem Phi_castSucc (c : Dev nD) (t : Fin cfg1.N) :
    (dat V c).Φ t.castSucc = PhiS V c t.val (Nat.le_of_lt t.isLt) := by
  dsimp only [dat]; simp only [Fin.coe_castSucc]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = outAt V c t := by dsimp only [dat]
theorem before0 (c : Dev nD) (t : Fin cfg1.N) (d) : (dat V c).before 0 t d = iblk V c 0 t :=
  before_in0 V (dat V c) (A_eq V c 0) (after0 V c) t d
theorem before1 (c : Dev nD) (t : Fin cfg1.N) (d) : (dat V c).before 1 t d = iblk V c 1 t :=
  before_in1 V (dat V c) (A_eq V c 1) (after1 V c) t d
theorem before2 (c : Dev nD) (t : Fin cfg1.N) (d) : (dat V c).before 2 t d = iblk V c 2 t :=
  before_in2 V (dat V c) (A_eq V c 2) (after2 V c) t d
theorem before3 (c : Dev nD) (t : Fin cfg1.N) (d) : (dat V c).before 3 t d = iblk V c 3 t :=
  before_in3 V (dat V c) (A_eq V c 3) (after3 V c) t d

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
theorem idleOut : ∀ t : Fin cfg1.N, t.val ≠ 31 → cfg1.idle 4 (grid1.coords t) = true := by decide +kernel
theorem noFlushOut : ∀ t : Fin cfg1.N, t.val ≠ 31 → (cfg1.win 4).flush t = false := by decide +kernel
theorem liveOut : ∀ t : Fin cfg1.N, t.val = 31 → cfg1.idle 4 (grid1.coords t) = false := by decide +kernel

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point: each input's buffer holds its block; the point's position says which of the three runs
    applies; the invariant hands the body the scratch (at anything at the first point, else at what the point before
    left) and takes it back at this point's contents; the output's buffer is written at the last point only. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  rw [show (dat V c).leavesExact 3 t = owns (c : Thread nD τ) (ms3 t) fullShare ((dat V c).after 3 t) from by
    unfold Dat.leavesExact; rw [live3 t], after3]
  by_cases h0 : t.val = 0
  · have h1 : t.val ≠ 31 := ne31_of_zero t h0
    rw [Dat.leavesExact_idle (dat V c) 4 t (idleOut t h1) (noFlushOut t h1)]
    rw [scrAt_first V c t h0]
    unfold scrFirst
    rw [Phi_castSucc V c t, PhiS_zero V c _ _ h0]
    iintro ⟨HP, Ho, ⟨%d0, H0⟩, ⟨%d1, H1⟩, ⟨%d2, H2⟩, ⟨%d3, H3⟩, ⟨%d4, H4⟩⟩
    ihave HP2 := PhiA_split (F := F) c $$ HP
    icases HP2 with ⟨⟨HS, HR⟩, Hg⟩
    iapply ((runFirst c (grid1.coords t) _ _ _ _ _ _ _ _ _ _ _ _ ((isFirst_iff t).mpr h0) (notLast t h1) (iblk V c 0 t) (iblk V c 1 t) (iblk V c 2 t) (iblk V c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS HR Hg]
    · isplitl [HS HR]
      · isplitl [HS]
        · unfold owns; iexists _; isplitr
          swap; · iexact HS
          ipureintro; exact View.read_writes_eq_canon _ _ _ (coverFirst V c t h0)
        iexact HR
      iexact Hg
    isplitl [Ho]; · iexact Ho
    isplitl [H0]; · iexact H0
    isplitl [H1]; · iexact H1
    isplitl [H2]; · iexact H2
    isplitl [H3]; · iexact H3
    iexists _; iexact H4
  · by_cases h1 : t.val = 31
    · rw [show (dat V c).leavesExact 4 t = owns (c : Thread nD τ) (ms4 t) fullShare ((dat V c).after 4 t) from by
        unfold Dat.leavesExact; rw [liveOut t h1], after4]
      rw [outAt_last V c t h1, scrAt_last V c t h1]
      unfold outLast scrLast
      rw [Phi_castSucc V c t, PhiS_pos V c _ _ h0]
      iintro ⟨⟨⟨HS, HR⟩, Hg⟩, Ho, ⟨%d0, H0⟩, ⟨%d1, H1⟩, ⟨%d2, H2⟩, ⟨%d3, H3⟩, ⟨%d4, H4⟩⟩
      iapply ((runLast c (grid1.coords t) _ _ _ _ _ _ _ _ _ _ _ _ (notFirst t h0) ((isLast_iff t).mpr h1) (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%eo, H4⟩, ⟨%es, HS⟩⟩
      isplitl [HS HR Hg]
      · isplitl [HS HR]
        · isplitl [HS]
          · unfold owns; iexists _; isplitr
            swap; · iexact HS
            ipureintro; exact View.read_writes_eq_canon _ _ _ (coverLastS V c t h1 _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_eq_canon _ _ _ (coverLastO V c t h1 _)
    · rw [Dat.leavesExact_idle (dat V c) 4 t (idleOut t h1) (noFlushOut t h1)]
      rw [scrAt_mid V c t h0 h1]
      unfold scrMid
      rw [Phi_castSucc V c t, PhiS_pos V c _ _ h0]
      iintro ⟨⟨⟨HS, HR⟩, Hg⟩, Ho, ⟨%d0, H0⟩, ⟨%d1, H1⟩, ⟨%d2, H2⟩, ⟨%d3, H3⟩, ⟨%d4, H4⟩⟩
      iapply ((runMid c (grid1.coords t) _ _ _ _ _ _ _ _ _ _ _ _ (notFirst t h0) (notLast t h1) (iblk V c 0 t) (iblk V c 1 t) (iblk V c 2 t) (iblk V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_eq_canon _ _ _ (coverMid V c t h0 h1 _)
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives back what the launch handed over: the scratch's contents are forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 32 := N_1; omega)]
  iintro ⟨⟨HS, HR⟩, Hg⟩
  iapply PhiA_join (F := F) c
  isplitl [HS HR]
  · isplitl [HS]
    · iexists _; iexact HS
    iexact HR
  iexact Hg

end Cert.KernelIdeal.Loss

end
-- ==== Proof.WholeDefs.lean ====
/- The contents of the core's unscoped buffers at each boundary between the items of the program (the histogram launch, five
   stretches of host operations, the loss launch, a last stretch of host operations): a fold from the launch memory. A
   launch leaves its windows' arrays at what the pipeline's write-backs make of them and every other buffer as entered;
   a stretch of host operations leaves what its operations compute. -/
import proofs.«130534_j1580547966503_1_alg».proof.Proof.HistRegion
import proofs.«130534_j1580547966503_1_alg».proof.Proof.LossRegion
import Idealize.ShloMosaic.Lib.Pipeline.RegionsLoop

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- At launch. -/
abbrev W0 (c : Dev nD) : Valuation τ sig (Elt F) := fun b => m (c, b)
/-- The same read at the TensorCore's references: what the histogram launch's proof data take. -/
abbrev Ve0 : (c : Dev nD) → (b : Ref sig .tc) → Buf (Elt F) ((c : Thread nD τ).loc b) := fun c b => W0 m c b

/-- After the histogram launch: its arrays at what the pipeline leaves, the rest as entered. -/
def W1 (c : Dev nD) : Valuation τ sig (Elt F) :=
  Pipeline.withArrays spec0 c (W0 m c) fun w => (Hist.dat (Ve0 m) c).arrAt w cfg0.N
theorem W1_arr (c : Dev nD) (w : Fin cfg0.W) :
    W1 m c (Proc.devRef .tc (Pipeline.arrRef spec0 w)) = (Hist.dat (Ve0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb

/-- After each of the five stretches of host operations between the launches. -/
abbrev W2 (c : Dev nD) : Valuation τ sig (Elt F) := StableHlo.after hostOps1 (W1 m c)
abbrev W3 (c : Dev nD) : Valuation τ sig (Elt F) := StableHlo.after hostOps1_1 (W2 m c)
abbrev W4 (c : Dev nD) : Valuation τ sig (Elt F) := StableHlo.after hostOps1_2 (W3 m c)
abbrev W5 (c : Dev nD) : Valuation τ sig (Elt F) := StableHlo.after hostOps1_3 (W4 m c)
abbrev W6 (c : Dev nD) : Valuation τ sig (Elt F) := StableHlo.after hostOps1_4 (W5 m c)
/-- The same read at the TensorCore's references: what the loss launch's proof data take. -/
abbrev Ve1 : (c : Dev nD) → (b : Ref sig .tc) → Buf (Elt F) ((c : Thread nD τ).loc b) := fun c b => W6 m c b

/-- After the loss launch. -/
def W7 (c : Dev nD) : Valuation τ sig (Elt F) :=
  Pipeline.withArrays spec1 c (W6 m c) fun w => (Loss.dat (Ve1 m) c).arrAt w cfg1.N
theorem W7_arr (c : Dev nD) (w : Fin cfg1.W) :
    W7 m c (Proc.devRef .tc (Pipeline.arrRef spec1 w)) = (Loss.dat (Ve1 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb

/-- After the last stretch of host operations: the program's end. -/
abbrev W8 (c : Dev nD) : Valuation τ sig (Elt F) := StableHlo.after hostOps2 (W7 m c)

end Cert.KernelIdeal.Whole

end
-- ==== Proof.Whole.lean ====
/- The launch of the whole program: the histogram launch, five stretches of host operations, the loss launch and a last
   stretch of host operations, run in order from the launch memory. Each launch is one pipeline region, entered from the
   core's unscoped buffers at the contents the item before it left and left with its windows' arrays at what the
   pipeline's write-backs make of them; each stretch of host operations runs over the unscoped buffers. At the end every
   unscoped buffer holds the last valuation of the fold, and the three argument arrays hold what they were launched with. -/
import proofs.«130534_j1580547966503_1_alg».proof.Proof.WholeDefs
import proofs.«130534_j1580547966503_1_alg».proof.Proof.Gen.KernelIdeal.Regions
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each launch's exit, read at the TensorCore's references -/

/-- The contents the histogram launch leaves, read at the TensorCore's references. -/
abbrev Vx0 : (c : Dev nD) → (b : Ref sig .tc) → Buf (Elt F) ((c : Thread nD τ).loc b) := fun c b => W1 m c b
/-- The contents the loss launch leaves, read at the TensorCore's references. -/
abbrev Vx1 : (c : Dev nD) → (b : Ref sig .tc) → Buf (Elt F) ((c : Thread nD τ).loc b) := fun c b => W7 m c b

/-- At the histogram launch's exit each of its arrays holds what the pipeline leaves, -/
theorem hF0 (c : Dev nD) (w : Fin cfg0.W) : (Hist.dat (Ve0 m) c).arrAt w cfg0.N = Vx0 m c (Pipeline.arrRef spec0 w) :=
  (W1_arr m c w).symm
/-- and every other buffer what it held at entry. -/
theorem hrest0 (c : Dev nD) : ∀ b, b ∉ Finset.univ.image (Pipeline.arrRef spec0) → Vx0 m c b = Ve0 m c b :=
  fun b hb => W1_of_ne m c b fun w e => hb (Finset.mem_image.mpr ⟨w, Finset.mem_univ _, e⟩)
/-- The same two facts at the loss launch's exit. -/
theorem hF1 (c : Dev nD) (w : Fin cfg1.W) : (Loss.dat (Ve1 m) c).arrAt w cfg1.N = Vx1 m c (Pipeline.arrRef spec1 w) :=
  (W7_arr m c w).symm
theorem hrest1 (c : Dev nD) : ∀ b, b ∉ Finset.univ.image (Pipeline.arrRef spec1) → Vx1 m c b = Ve1 m c b :=
  fun b hb => W7_of_ne m c b fun w e => hb (Finset.mem_image.mpr ⟨w, Finset.mem_univ _, e⟩)

/-! ## The proof data of both pipelines and the thread state between items -/

/-- Both pipelines' proof data, each at the contents its launch is entered from. -/
def pdats : (p : Fin 2) → (c : Dev nD) → Dat τ (Elt F) Unit ℕ (UR sig nD τ) ℕ (Pipeline.pin (pcfgs (F := F)) adm p) c
  | ⟨0, _⟩ => fun c => Hist.dat (Ve0 m) c
  | ⟨1, _⟩ => fun c => Loss.dat (Ve1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and what the core
    owes, which is nothing. -/
abbrev R (c : Dev nD) : sProp 𝕄 := iprop((∃ r, prngReg c r) ∗ ∃ W, owes (c : Thread nD τ) (0 : CellTallies nD τ sig Unit) W)
/-- A stretch of host operations as a segment: over the unscoped references from the contents `W`, `R` riding along; it
    leaves those references at what the operations compute from `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator register
    at some state. -/
abbrev Tₙ (c : Dev nD) : sProp 𝕄 := iprop(StableHlo.held (c : Thread nD τ) (Pipeline.ucRefs τ sig) (W8 m c) ∗ ∃ r, prngReg c r)

/-! ## The two launches as segments -/

set_option backward.isDefEq.respectTransparency.types false in
/-- The histogram launch over the thread state: entered from every unscoped buffer at the launch contents, left at
    `W1`. Its arrays are split out of the unscoped buffers at entry and put back at the exit contents; the generator
    register goes into the region's invariant and comes back; nothing is owed; the kernel has no semaphore of its own.
    The invariant's two ends are the region's own: what the launch hands over is its first point's, and its last
    point's gives that back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Hist.body_obligation (Ve0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Hist.hin (Ve0 m) c)
    unfold Pipeline.ΦA
    iintro ⟨Hp, -, Hr⟩
    isplitl [Hr]; · iexact Hr
    iexact Hp
  hout c := by
    refine BIBase.Entails.trans (Hist.hout (Ve0 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Vx0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The loss launch over the thread state: entered from every unscoped buffer at `W6`, what the fifth stretch of host
    operations left, and left at `W7`. As the histogram launch's record, at the second pipeline. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Loss.body_obligation (Ve1 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Loss.hin (Ve1 m) c)
    unfold Pipeline.ΦA
    iintro ⟨Hp, -, Hr⟩
    isplitl [Hr]; · iexact Hr
    iexact Hp
  hout c := by
    refine BIBase.Entails.trans (Loss.hout (Ve1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Vx1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's eight items in order: a region per launch, a host segment per stretch from the contents it is
    entered at. -/
abbrev psegs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .host (hseg hostOps1_3 hostOps1_3_sub hostOps1_3_fresh (W4 m)),
    .host (hseg hostOps1_4 hostOps1_4_sub hostOps1_4_fresh (W5 m)),
    .region (reg1 m),
    .host (hseg hostOps2 hostOps2_sub hostOps2_fresh (W7 m)) ]
/-- The program is the run of its segments: it is the chain of its items, and so is the segments' run. -/
theorem main_run (c : Dev nD) : main (F := F) c = Pipeline.Seg.run (psegs m) := (main_chain c).trans (by chain_rfl)

set_option backward.isDefEq.respectTransparency.types false in
/-- From any memory with zero counters every weakly fair execution of the program on the TensorCores terminates,
    nothing faulting, and in every final state each unscoped buffer holds the last valuation of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (psegs m)
    (fun c Q => by rw [main_run m c])
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun c => by
        show (iprop(StableHlo.held (c : Thread nD τ) (Pipeline.ucRefs τ sig) (W8 m c) ∗ R c) : sProp 𝕄)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-! ## The arguments end as launched

No stretch of host operations writes an argument array, and each launch reads it through an input window, whose array the
pipeline leaves as it found it: the fold at an argument's buffer walks back to the launch memory. -/

theorem W8_main_arg0 (c : Dev nD) : W8 m c (Proc.devRef .tc main_arg0) = m ((c : Thread nD τ).loc main_arg0) :=
  calc W8 m c (Proc.devRef .tc main_arg0)
    _ = W7 m c (Proc.devRef .tc main_arg0) := StableHlo.after_of_writes_sub hostOps2 _ hostOps2_writes (by decide)
    _ = W6 m c (Proc.devRef .tc main_arg0) := (W7_arr m c 0).trans (((Loss.dat (Ve1 m) c).arrAt_in 0 rfl _).trans (Loss.A_eq (Ve1 m) c 0))
    _ = W5 m c (Proc.devRef .tc main_arg0) := StableHlo.after_of_writes_sub hostOps1_4 _ hostOps1_4_writes (by decide)
    _ = W4 m c (Proc.devRef .tc main_arg0) := StableHlo.after_of_writes_sub hostOps1_3 _ hostOps1_3_writes (by decide)
    _ = W3 m c (Proc.devRef .tc main_arg0) := StableHlo.after_of_writes_sub hostOps1_2 _ hostOps1_2_writes (by decide)
    _ = W2 m c (Proc.devRef .tc main_arg0) := StableHlo.after_of_writes_sub hostOps1_1 _ hostOps1_1_writes (by decide)
    _ = W1 m c (Proc.devRef .tc main_arg0) := StableHlo.after_of_writes_sub hostOps1 _ hostOps1_writes (by decide)
    _ = W0 m c (Proc.devRef .tc main_arg0) := (W1_arr m c 0).trans (((Hist.dat (Ve0 m) c).arrAt_in 0 rfl _).trans (Hist.A_eq (Ve0 m) c 0))
    _ = m ((c : Thread nD τ).loc main_arg0) := rfl

theorem W8_main_arg1 (c : Dev nD) : W8 m c (Proc.devRef .tc main_arg1) = m ((c : Thread nD τ).loc main_arg1) :=
  calc W8 m c (Proc.devRef .tc main_arg1)
    _ = W7 m c (Proc.devRef .tc main_arg1) := StableHlo.after_of_writes_sub hostOps2 _ hostOps2_writes (by decide)
    _ = W6 m c (Proc.devRef .tc main_arg1) := (W7_arr m c 1).trans (((Loss.dat (Ve1 m) c).arrAt_in 1 rfl _).trans (Loss.A_eq (Ve1 m) c 1))
    _ = W5 m c (Proc.devRef .tc main_arg1) := StableHlo.after_of_writes_sub hostOps1_4 _ hostOps1_4_writes (by decide)
    _ = W4 m c (Proc.devRef .tc main_arg1) := StableHlo.after_of_writes_sub hostOps1_3 _ hostOps1_3_writes (by decide)
    _ = W3 m c (Proc.devRef .tc main_arg1) := StableHlo.after_of_writes_sub hostOps1_2 _ hostOps1_2_writes (by decide)
    _ = W2 m c (Proc.devRef .tc main_arg1) := StableHlo.after_of_writes_sub hostOps1_1 _ hostOps1_1_writes (by decide)
    _ = W1 m c (Proc.devRef .tc main_arg1) := StableHlo.after_of_writes_sub hostOps1 _ hostOps1_writes (by decide)
    _ = W0 m c (Proc.devRef .tc main_arg1) := (W1_arr m c 1).trans (((Hist.dat (Ve0 m) c).arrAt_in 1 rfl _).trans (Hist.A_eq (Ve0 m) c 1))
    _ = m ((c : Thread nD τ).loc main_arg1) := rfl

theorem W8_main_arg2 (c : Dev nD) : W8 m c (Proc.devRef .tc main_arg2) = m ((c : Thread nD τ).loc main_arg2) :=
  calc W8 m c (Proc.devRef .tc main_arg2)
    _ = W7 m c (Proc.devRef .tc main_arg2) := StableHlo.after_of_writes_sub hostOps2 _ hostOps2_writes (by decide)
    _ = W6 m c (Proc.devRef .tc main_arg2) := (W7_arr m c 2).trans (((Loss.dat (Ve1 m) c).arrAt_in 2 rfl _).trans (Loss.A_eq (Ve1 m) c 2))
    _ = W5 m c (Proc.devRef .tc main_arg2) := StableHlo.after_of_writes_sub hostOps1_4 _ hostOps1_4_writes (by decide)
    _ = W4 m c (Proc.devRef .tc main_arg2) := StableHlo.after_of_writes_sub hostOps1_3 _ hostOps1_3_writes (by decide)
    _ = W3 m c (Proc.devRef .tc main_arg2) := StableHlo.after_of_writes_sub hostOps1_2 _ hostOps1_2_writes (by decide)
    _ = W2 m c (Proc.devRef .tc main_arg2) := StableHlo.after_of_writes_sub hostOps1_1 _ hostOps1_1_writes (by decide)
    _ = W1 m c (Proc.devRef .tc main_arg2) := StableHlo.after_of_writes_sub hostOps1 _ hostOps1_writes (by decide)
    _ = W0 m c (Proc.devRef .tc main_arg2) := (W1_arr m c 2).trans (((Hist.dat (Ve0 m) c).arrAt_in 2 rfl _).trans (Hist.A_eq (Ve0 m) c 2))
    _ = m ((c : Thread nD τ).loc main_arg2) := rfl

/-! ## The frame and the value's buffer -/

/-- Every final state has the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c)⟩) (run_all m ρ)

/-- Every final state has the result's buffer at the last valuation of the fold, and the three argument arrays as
    launched. -/
theorem run_value : θ_run defs (onTc (τ := τ) (main (F := F))) ⟨m, fun _ => 0, ρ⟩ (fun r => ∀ c : Dev nD,
      r.2.mem ((c.tc : Thread nD τ).loc main_v24) = W8 m c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v24 (by decide)),
     (h c _ (mem_uc main_arg0 (by decide))).trans (W8_main_arg0 m c),
     (h c _ (mem_uc main_arg1 (by decide))).trans (W8_main_arg1 m c),
     (h c _ (mem_uc main_arg2 (by decide))).trans (W8_main_arg2 m c)⟩) (run_all m ρ)

end Cert.KernelIdeal.Whole

end
-- ==== Proof.BitsHistRuns.lean ====
/- The histogram kernel (the first of the two launches) on one grid point: its body run on whole staging
   buffers, in each of the three situations the grid meets — the first point (the ten running counts are reset,
   then updated), a middle point (updated), the last point (updated, then copied to the output block). What each
   buffer ends with is found by the run itself, as the list of stores into it. -/
import proofs.«130534_j1580547966503_1_alg».proof.Proof.Gen.Kernel.Launch
import proofs.«130534_j1580547966503_1_alg».proof.Proof.Gen.Kernel.Skeleton
import proofs.«130534_j1580547966503_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions of the body, decided over the grid -/

/-- "This is the first grid point" as the body computes it from the grid coordinate. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- "This is the last grid point". -/
abbrev isLast (i : grid0.Coords) : Prop := k0_cond2 i = 1#1
theorem isLast_iff : ∀ t : Fin cfg0.N, isLast (grid0.coords t) ↔ t.val = 31 :=
  (by decide +kernel : ∀ t : Fin grid0.N, isLast (grid0.coords t) ↔ t.val = 31)

/-! ## The body's run, case by case -/

set_option maxHeartbeats 2000000 in
/-- First point: the counts' scratch at anything, the output block untouched. -/
noncomputable def runFirst (c : Dev nD) (i : grid0.Coords) (arg1 : Memref sig .tc .vmem S8192x80 .f32) (harg1 : arg1.IsWhole) (arg2 : Memref sig .tc .vmem S8192x80 .f32) (harg2 : arg2.IsWhole) (arg3 : Memref sig .tc .vmem S8192x80 .f32) (harg3 : arg3.IsWhole) (arg4 : Memref sig .tc .vmem S1x10 .f32) (harg4 : arg4.IsWhole) (arg5 : Memref sig .tc .vmem S1x10 .f32) (harg5 : arg5.IsWhole) (hc0 : isFirst i) (hc1 : ¬isLast i)
    (x0 x1 x2 : Vec F S8192x80 .f32) :
    { LS : List (View.Piece (Elt F) S1x10 .f32) //
      ∀ (xo : Vec F S1x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__hist_kernel i arg1 harg1 arg2 harg2 arg3 harg3 arg4 harg4 arg5 harg5) K } := by
  refine ⟨?_, fun xo E K => ?run⟩
  case run =>
    simp only [cc0__hist_kernel_eq_skeleton]; unfold cc0__hist_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS

set_option maxHeartbeats 2000000 in
/-- A middle point: the counts' scratch at what the point before left, the output block untouched. -/
noncomputable def runMid (c : Dev nD) (i : grid0.Coords) (arg1 : Memref sig .tc .vmem S8192x80 .f32) (harg1 : arg1.IsWhole) (arg2 : Memref sig .tc .vmem S8192x80 .f32) (harg2 : arg2.IsWhole) (arg3 : Memref sig .tc .vmem S8192x80 .f32) (harg3 : arg3.IsWhole) (arg4 : Memref sig .tc .vmem S1x10 .f32) (harg4 : arg4.IsWhole) (arg5 : Memref sig .tc .vmem S1x10 .f32) (harg5 : arg5.IsWhole) (hc0 : ¬isFirst i) (hc1 : ¬isLast i)
    (x0 x1 x2 : Vec F S8192x80 .f32) (xs : Vec F S1x10 .f32) :
    { LS : List (View.Piece (Elt F) S1x10 .f32) //
      ∀ (xo : Vec F S1x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo ∗ owns (c : Thread nD τ) arg5 fullShare xs
            ∗ (iprop(owns (c : Thread nD τ) arg1 fullShare x0 ∗ owns (c : Thread nD τ) arg2 fullShare x1 ∗ owns (c : Thread nD τ) arg3 fullShare x2 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__hist_kernel i arg1 harg1 arg2 harg2 arg3 harg3 arg4 harg4 arg5 harg5) K } := by
  refine ⟨?_, fun xo E K => ?run⟩
  case run =>
    simp only [cc0__hist_kernel_eq_skeleton]; unfold cc0__hist_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS

set_option maxHeartbeats 2000000 in
/-- The last point: the counts' scratch at what the point before left, the output block at anything. -/
noncomputable def runLast (c : Dev nD) (i : grid0.Coords) (arg1 : Memref sig .tc .vmem S8192x80 .f32) (harg1 : arg1.IsWhole) (arg2 : Memref sig .tc .vmem S8192x80 .f32) (harg2 : arg2.IsWhole) (arg3 : Memref sig .tc .vmem S8192x80 .f32) (harg3 : arg3.IsWhole) (arg4 : Memref sig .tc .vmem S1x10 .f32) (harg4 : arg4.IsWhole) (arg5 : Memref sig .tc .vmem S1x10 .f32) (harg5 : arg5.IsWhole) (hc0 : ¬isFirst i) (hc1 : isLast i)
    (x0 x1 x2 : Vec F S8192x80 .f32) (xs : Vec F S1x10 .f32) :
    Σ' (LO : List (View.Piece (Elt F) S1x10 .f32)), { LS : List (View.Piece (Elt F) S1x10 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__hist_kernel i arg1 harg1 arg2 harg2 arg3 harg3 arg4 harg4 arg5 harg5) K } := by
  refine ⟨?_, ?_, fun E K => ?run⟩
  case run =>
    simp only [cc0__hist_kernel_eq_skeleton]; unfold cc0__hist_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg1.eq_unread hf0; obtain rfl := harg2.eq_unread hf1; obtain rfl := harg3.eq_unread hf2; obtain rfl := harg5.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS

end Cert.Kernel.Hist

end
-- ==== Proof.BitsHistRegion.lean ====
/- The histogram launch as one pipeline region, at the contents `V` the region is entered from: what the ten running
   counts (a scratch carried from grid point to grid point) hold after each point, the proof data of the pipeline, the
   body obligation at every point, and the invariant's two ends. -/
import proofs.«130534_j1580547966503_1_alg».proof.Proof.BitsHistRuns

set_option maxRecDepth 16384

noncomputable section

namespace Cert.Kernel.Hist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and staging buffers -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before_in0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev ms0 (t : Fin cfg0.N) : Memref sig .tc .vmem S8192x80 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x80 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8192x80 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x10 .f32 := win0_3.stage (cfg0.slots t 3)
abbrev hs3 (t : Fin cfg0.N) : (ms3 t).IsWhole := hstage0_3 ((cfg0.slots t 3).cast nbuf0_3)
/-- The scratch the kernel carries from point to point. -/
abbrev scM : Memref sig .tc .vmem S1x10 .f32 := Memref.whole cc0_scratch0

theorem notLast (t : Fin cfg0.N) (h : t.val ≠ 31) : ¬isLast (grid0.coords t) := fun hh => h ((isLast_iff t).mp hh)
theorem notFirst (t : Fin cfg0.N) (h : t.val ≠ 0) : ¬isFirst (grid0.coords t) := fun hh => h ((isFirst_iff t).mp hh)
theorem ne31_of_zero (t : Fin cfg0.N) (h : t.val = 0) : t.val ≠ 31 := by omega
theorem ne0_of_31 (t : Fin cfg0.N) (h : t.val = 31) : t.val ≠ 0 := by omega

/-! ## What each kind of point leaves in the scratch and in the output block -/

/-- The scratch after the first point. -/
def scrFirst (c : Dev nD) (t : Fin cfg0.N) (h0 : t.val = 0) : Vec F S1x10 .f32 :=
  View.canon (runFirst c (grid0.coords t) (ms0 t) (hs0 t) (ms1 t) (hs1 t) (ms2 t) (hs2 t) (ms3 t) (hs3 t) scM (Memref.isWhole_whole _) ((isFirst_iff t).mpr h0) (notLast t (ne31_of_zero t h0)) (iblk V c 0 t) (iblk V c 1 t) (iblk V c 2 t)).1
theorem coverFirst (c : Dev nD) (t : Fin cfg0.N) (h0 : t.val = 0) (y : S1x10.Idx) :
    ∃ pc ∈ (runFirst c (grid0.coords t) (ms0 t) (hs0 t) (ms1 t) (hs1 t) (ms2 t) (hs2 t) (ms3 t) (hs3 t) scM (Memref.isWhole_whole _) ((isFirst_iff t).mpr h0) (notLast t (ne31_of_zero t h0)) (iblk V c 0 t) (iblk V c 1 t) (iblk V c 2 t)).1, y ∈ pc.1.set :=
  View.cover_of_tiledL _ S1x10.size (by sl_kernel_rfl) y

/-- The scratch after a middle point, over what the point before left. -/
def scrMid (c : Dev nD) (t : Fin cfg0.N) (h0 : t.val ≠ 0) (h1 : t.val ≠ 31) (xs : Vec F S1x10 .f32) : Vec F S1x10 .f32 :=
  View.canon (runMid c (grid0.coords t) (ms0 t) (hs0 t) (ms1 t) (hs1 t) (ms2 t) (hs2 t) (ms3 t) (hs3 t) scM (Memref.isWhole_whole _) (notFirst t h0) (notLast t h1) (iblk V c 0 t) (iblk V c 1 t) (iblk V c 2 t) xs).1
theorem coverMid (c : Dev nD) (t : Fin cfg0.N) (h0 : t.val ≠ 0) (h1 : t.val ≠ 31) (xs : Vec F S1x10 .f32) (y : S1x10.Idx) :
    ∃ pc ∈ (runMid c (grid0.coords t) (ms0 t) (hs0 t) (ms1 t) (hs1 t) (ms2 t) (hs2 t) (ms3 t) (hs3 t) scM (Memref.isWhole_whole _) (notFirst t h0) (notLast t h1) (iblk V c 0 t) (iblk V c 1 t) (iblk V c 2 t) xs).1, y ∈ pc.1.set :=
  View.cover_of_tiledL _ S1x10.size (by sl_kernel_rfl) y

/-- The scratch after the last point, over what the point before left. -/
def scrLast (c : Dev nD) (t : Fin cfg0.N) (h1 : t.val = 31) (xs : Vec F S1x10 .f32) : Vec F S1x10 .f32 :=
  View.canon (runLast c (grid0.coords t) (ms0 t) (hs0 t) (ms1 t) (hs1 t) (ms2 t) (hs2 t) (ms3 t) (hs3 t) scM (Memref.isWhole_whole _) (notFirst t (ne0_of_31 t h1)) ((isLast_iff t).mpr h1) (iblk V c 0 t) (iblk V c 1 t) (iblk V c 2 t) xs).2.1
theorem coverLastS (c : Dev nD) (t : Fin cfg0.N) (h1 : t.val = 31) (xs : Vec F S1x10 .f32) (y : S1x10.Idx) :
    ∃ pc ∈ (runLast c (grid0.coords t) (ms0 t) (hs0 t) (ms1 t) (hs1 t) (ms2 t) (hs2 t) (ms3 t) (hs3 t) scM (Memref.isWhole_whole _) (notFirst t (ne0_of_31 t h1)) ((isLast_iff t).mpr h1) (iblk V c 0 t) (iblk V c 1 t) (iblk V c 2 t) xs).2.1, y ∈ pc.1.set :=
  View.cover_of_tiledL _ S1x10.size (by sl_kernel_rfl) y

/-- The output block after the last point. -/
def outLast (c : Dev nD) (t : Fin cfg0.N) (h1 : t.val = 31) (xs : Vec F S1x10 .f32) : Vec F S1x10 .f32 :=
  View.canon (runLast c (grid0.coords t) (ms0 t) (hs0 t) (ms1 t) (hs1 t) (ms2 t) (hs2 t) (ms3 t) (hs3 t) scM (Memref.isWhole_whole _) (notFirst t (ne0_of_31 t h1)) ((isLast_iff t).mpr h1) (iblk V c 0 t) (iblk V c 1 t) (iblk V c 2 t) xs).1
theorem coverLastO (c : Dev nD) (t : Fin cfg0.N) (h1 : t.val = 31) (xs : Vec F S1x10 .f32) (y : S1x10.Idx) :
    ∃ pc ∈ (runLast c (grid0.coords t) (ms0 t) (hs0 t) (ms1 t) (hs1 t) (ms2 t) (hs2 t) (ms3 t) (hs3 t) scM (Memref.isWhole_whole _) (notFirst t (ne0_of_31 t h1)) ((isLast_iff t).mpr h1) (iblk V c 0 t) (iblk V c 1 t) (iblk V c 2 t) xs).1, y ∈ pc.1.set :=
  View.cover_of_tiledL _ S1x10.size (by sl_kernel_rfl) y

/-! ## The scratch point by point -/

/-- What the scratch holds after the body at position `n`: the first point's contents, then each later point's over
    what the point before left. -/
def scrAt (c : Dev nD) : (n : ℕ) → n < cfg0.N → Vec F S1x10 .f32
  | 0, hn => scrFirst V c ⟨0, hn⟩ rfl
  | n + 1, hn =>
    if h : n + 1 = 31 then scrLast V c ⟨n + 1, hn⟩ h (scrAt c n (Nat.lt_of_succ_lt hn))
    else scrMid V c ⟨n + 1, hn⟩ (Nat.succ_ne_zero n) h (scrAt c n (Nat.lt_of_succ_lt hn))

theorem scrAt_first (c : Dev nD) (t : Fin cfg0.N) (h0 : t.val = 0) : scrAt V c t.val t.isLt = scrFirst V c t h0 := by
  obtain ⟨n, hn⟩ := t
  cases n with
  | zero => rfl
  | succ n => exact absurd h0 (Nat.succ_ne_zero n)

theorem scrAt_mid (c : Dev nD) (t : Fin cfg0.N) (h0 : t.val ≠ 0) (h1 : t.val ≠ 31) :
    scrAt V c t.val t.isLt = scrMid V c t h0 h1 (scrAt V c (t.val - 1) (Nat.lt_of_le_of_lt (Nat.sub_le _ _) t.isLt)) := by
  obtain ⟨n, hn⟩ := t
  cases n with
  | zero => exact absurd rfl h0
  | succ n => exact (dif_neg h1).trans rfl

theorem scrAt_last (c : Dev nD) (t : Fin cfg0.N) (h1 : t.val = 31) :
    scrAt V c t.val t.isLt = scrLast V c t h1 (scrAt V c (t.val - 1) (Nat.lt_of_le_of_lt (Nat.sub_le _ _) t.isLt)) := by
  obtain ⟨n, hn⟩ := t
  cases n with
  | zero => exact absurd (show (0 : ℕ) = 31 from h1) (by decide)
  | succ n => exact (dif_pos h1).trans rfl

/-- What the output's staging buffer holds after the body at point `t`: the last point's store; at the other points
    the window is idle and nothing reads this. -/
def outAt (c : Dev nD) (t : Fin cfg0.N) : Vec F S1x10 .f32 :=
  if h : t.val = 31 then outLast V c t h (scrAt V c (t.val - 1) (Nat.lt_of_le_of_lt (Nat.sub_le _ _) t.isLt)) else View.canon []

theorem outAt_last (c : Dev nD) (t : Fin cfg0.N) (h : t.val = 31) :
    outAt V c t = outLast V c t h (scrAt V c (t.val - 1) (Nat.lt_of_le_of_lt (Nat.sub_le _ _) t.isLt)) := dif_pos h

/-! ## The region's invariant -/

/-- The core's scoped buffers this kernel never touches, each whole at some contents. -/
def Rest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_scratch0), ((c : Thread nD τ).loc cc1_scratch0) ↦{fullShare} f))

/-- What the launch hands the body: the scratch at some contents, the untouched scoped buffers, the generator register. -/
theorem PhiA_eq (c : Dev nD) :
    (Pipeline.ΦA spec0 c : sProp 𝕄)
      = iprop(((∃ d, owns (c : Thread nD τ) scM fullShare d) ∗ Rest (F := F) c) ∗ (∃ r, prngReg c r)) := by
  unfold Pipeline.ΦA Rest; rw [scopedRest0_eq]; simp only [scM, owns_whole]; try rfl

/-- Before the first point what the launch hands over; before every later point the scratch at what the point before left. -/
def PhiS (c : Dev nD) : (n : ℕ) → n ≤ cfg0.N → sProp 𝕄
  | 0, _ => Pipeline.ΦA spec0 c
  | n + 1, hn => iprop((owns (c : Thread nD τ) scM fullShare (scrAt V c n hn) ∗ Rest (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) scM fullShare (scrAt V c n hn) ∗ Rest (F := F) c) ∗ (∃ r, prngReg c r)) := rfl
theorem PhiS_pos (c : Dev nD) (n : ℕ) (h : n ≤ cfg0.N) (hz : n ≠ 0) :
    PhiS V c n h = iprop((owns (c : Thread nD τ) scM fullShare (scrAt V c (n - 1) (by omega)) ∗ Rest (F := F) c) ∗ (∃ r, prngReg c r)) := by
  cases n with
  | zero => exact absurd rfl hz
  | succ n => rfl

/-! ## The proof data -/

/-- The pipeline's proof data on core `c`: the arrays as the region finds them; after the body each input's buffer at
    its block, the output's at `outAt`; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem Phi_castSucc (c : Dev nD) (t : Fin cfg0.N) :
    (dat V c).Φ t.castSucc = PhiS V c t.val (Nat.le_of_lt t.isLt) := by
  dsimp only [dat]; simp only [Fin.coe_castSucc]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = outAt V c t := by dsimp only [dat]
theorem before0 (c : Dev nD) (t : Fin cfg0.N) (d) : (dat V c).before 0 t d = iblk V c 0 t :=
  before_in0 V (dat V c) (A_eq V c 0) (after0 V c) t d
theorem before1 (c : Dev nD) (t : Fin cfg0.N) (d) : (dat V c).before 1 t d = iblk V c 1 t :=
  before_in1 V (dat V c) (A_eq V c 1) (after1 V c) t d
theorem before2 (c : Dev nD) (t : Fin cfg0.N) (d) : (dat V c).before 2 t d = iblk V c 2 t :=
  before_in2 V (dat V c) (A_eq V c 2) (after2 V c) t d

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idleOut : ∀ t : Fin cfg0.N, t.val ≠ 31 → cfg0.idle 3 (grid0.coords t) = true := by decide +kernel
theorem noFlushOut : ∀ t : Fin cfg0.N, t.val ≠ 31 → (cfg0.win 3).flush t = false := by decide +kernel
theorem liveOut : ∀ t : Fin cfg0.N, t.val = 31 → cfg0.idle 3 (grid0.coords t) = false := by decide +kernel

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point: each input's buffer holds its block; the point's position says which of the three runs
    applies; the invariant hands the body the scratch (at anything at the first point, else at what the point before
    left) and takes it back at this point's contents; the output's buffer is written at the last point only. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  by_cases h0 : t.val = 0
  · have h1 : t.val ≠ 31 := ne31_of_zero t h0
    rw [Dat.leavesExact_idle (dat V c) 3 t (idleOut t h1) (noFlushOut t h1)]
    rw [scrAt_first V c t h0]
    unfold scrFirst
    rw [Phi_castSucc V c t, PhiS_zero V c _ _ h0, PhiA_eq]
    iintro ⟨⟨⟨HS, HR⟩, Hg⟩, Ho, ⟨%d0, H0⟩, ⟨%d1, H1⟩, ⟨%d2, H2⟩, ⟨%d3, H3⟩⟩
    iapply ((runFirst c (grid0.coords t) _ _ _ _ _ _ _ _ _ _ ((isFirst_iff t).mpr h0) (notLast t h1) (iblk V c 0 t) (iblk V c 1 t) (iblk V c 2 t)).2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS HR Hg]
    · isplitl [HS HR]
      · isplitl [HS]
        · unfold owns; iexists _; isplitr
          swap; · iexact HS
          ipureintro; exact View.read_writes_eq_canon _ _ _ (coverFirst V c t h0)
        iexact HR
      iexact Hg
    isplitl [Ho]; · iexact Ho
    isplitl [H0]; · iexact H0
    isplitl [H1]; · iexact H1
    isplitl [H2]; · iexact H2
    iexists _; iexact H3
  · by_cases h1 : t.val = 31
    · rw [show (dat V c).leavesExact 3 t = owns (c : Thread nD τ) (ms3 t) fullShare ((dat V c).after 3 t) from by
        unfold Dat.leavesExact; rw [liveOut t h1], after3]
      rw [outAt_last V c t h1, scrAt_last V c t h1]
      unfold outLast scrLast
      rw [Phi_castSucc V c t, PhiS_pos V c _ _ h0]
      iintro ⟨⟨⟨HS, HR⟩, Hg⟩, Ho, ⟨%d0, H0⟩, ⟨%d1, H1⟩, ⟨%d2, H2⟩, ⟨%d3, H3⟩⟩
      iapply ((runLast c (grid0.coords t) _ _ _ _ _ _ _ _ _ _ (notFirst t h0) ((isLast_iff t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS HR Hg]
      · isplitl [HS HR]
        · isplitl [HS]
          · unfold owns; iexists _; isplitr
            swap; · iexact HS
            ipureintro; exact View.read_writes_eq_canon _ _ _ (coverLastS V c t h1 _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (coverLastO V c t h1 _)
    · rw [Dat.leavesExact_idle (dat V c) 3 t (idleOut t h1) (noFlushOut t h1)]
      rw [scrAt_mid V c t h0 h1]
      unfold scrMid
      rw [Phi_castSucc V c t, PhiS_pos V c _ _ h0]
      iintro ⟨⟨⟨HS, HR⟩, Hg⟩, Ho, ⟨%d0, H0⟩, ⟨%d1, H1⟩, ⟨%d2, H2⟩, ⟨%d3, H3⟩⟩
      iapply ((runMid c (grid0.coords t) _ _ _ _ _ _ _ _ _ _ (notFirst t h0) (notLast t h1) (iblk V c 0 t) (iblk V c 1 t) (iblk V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_eq_canon _ _ _ (coverMid V c t h0 h1 _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives back what the launch handed over: the scratch's contents are forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA_eq]
  iintro ⟨⟨HS, HR⟩, Hg⟩
  isplitl [HS HR]
  · isplitl [HS]
    · iexists _; iexact HS
    iexact HR
  iexact Hg

end Cert.Kernel.Hist

end
-- ==== Proof.BitsLossRuns.lean ====
/- The loss kernel (the second of the two launches) on one grid point: its body run on whole staging buffers, in
   each of the three situations the grid meets — the first point (the running sum is reset, then added to), a middle
   point (added to), the last point (added to, then copied to the output block). What each buffer ends with is found
   by the run itself, as the list of stores into it. -/
import proofs.«130534_j1580547966503_1_alg».proof.Proof.Gen.Kernel.Launch
import proofs.«130534_j1580547966503_1_alg».proof.Proof.Gen.Kernel.Skeleton
import proofs.«130534_j1580547966503_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions of the body, decided over the grid -/

/-- "This is the first grid point" as the body computes it from the grid coordinate. -/
abbrev isFirst (i : grid1.Coords) : Prop := (Scalar.cmpi .ne (Scalar.extui (Scalar.cmpi .eq (BitVec.ofNat 32 (i 0).val) 0#32)) 0#32) = 1#1
theorem isFirst_iff : ∀ t : Fin cfg1.N, isFirst (grid1.coords t) ↔ t.val = 0 :=
  (by decide +kernel : ∀ t : Fin grid1.N, isFirst (grid1.coords t) ↔ t.val = 0)

/-- "This is the last grid point". -/
abbrev isLast (i : grid1.Coords) : Prop := k1_cond2 i = 1#1
theorem isLast_iff : ∀ t : Fin cfg1.N, isLast (grid1.coords t) ↔ t.val = 31 :=
  (by decide +kernel : ∀ t : Fin grid1.N, isLast (grid1.coords t) ↔ t.val = 31)

/-! ## The body's run, case by case -/

set_option maxHeartbeats 2000000 in
/-- First point: the running sum's scratch at anything, the output block untouched. -/
noncomputable def runFirst (c : Dev nD) (i : grid1.Coords) (arg1 : Memref sig .tc .vmem S8192x80 .f32) (harg1 : arg1.IsWhole) (arg2 : Memref sig .tc .vmem S8192x80 .f32) (harg2 : arg2.IsWhole) (arg3 : Memref sig .tc .vmem S8192x80 .f32) (harg3 : arg3.IsWhole) (arg4 : Memref sig .tc .vmem S1x10 .f32) (harg4 : arg4.IsWhole) (arg5 : Memref sig .tc .vmem S1x1 .f32) (harg5 : arg5.IsWhole) (arg6 : Memref sig .tc .vmem S1x1 .f32) (harg6 : arg6.IsWhole) (hc0 : isFirst i) (hc1 : ¬isLast i)
    (x0 x1 x2 : Vec F S8192x80 .f32) (x3 : Vec F S1x10 .f32) :
    { LS : List (View.Piece (Elt F) S1x1 .f32) //
      ∀ (xo : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc1__loss_kernel i arg1 harg1 arg2 harg2 arg3 harg3 arg4 harg4 arg5 harg5 arg6 harg6) K } := by
  refine ⟨?_, fun xo E K => ?run⟩
  case run =>
    simp only [cc1__loss_kernel_eq_skeleton]; unfold cc1__loss_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

set_option maxHeartbeats 2000000 in
/-- A middle point: the running sum's scratch at what the point before left, the output block untouched. -/
noncomputable def runMid (c : Dev nD) (i : grid1.Coords) (arg1 : Memref sig .tc .vmem S8192x80 .f32) (harg1 : arg1.IsWhole) (arg2 : Memref sig .tc .vmem S8192x80 .f32) (harg2 : arg2.IsWhole) (arg3 : Memref sig .tc .vmem S8192x80 .f32) (harg3 : arg3.IsWhole) (arg4 : Memref sig .tc .vmem S1x10 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : ¬isLast i)
    (x0 x1 x2 : Vec F S8192x80 .f32) (x3 : Vec F S1x10 .f32) (xs : Vec F S1x1 .f32) :
    { LS : List (View.Piece (Elt F) S1x1 .f32) //
      ∀ (xo : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc1__loss_kernel i arg1 harg1 arg2 harg2 arg3 harg3 arg4 harg4 arg5 harg5 arg6 harg6) K } := by
  refine ⟨?_, fun xo E K => ?run⟩
  case run =>
    simp only [cc1__loss_kernel_eq_skeleton]; unfold cc1__loss_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

set_option maxHeartbeats 2000000 in
/-- The last point: the running sum's scratch at what the point before left, the output block at anything. -/
noncomputable def runLast (c : Dev nD) (i : grid1.Coords) (arg1 : Memref sig .tc .vmem S8192x80 .f32) (harg1 : arg1.IsWhole) (arg2 : Memref sig .tc .vmem S8192x80 .f32) (harg2 : arg2.IsWhole) (arg3 : Memref sig .tc .vmem S8192x80 .f32) (harg3 : arg3.IsWhole) (arg4 : Memref sig .tc .vmem S1x10 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i)
    (x0 x1 x2 : Vec F S8192x80 .f32) (x3 : Vec F S1x10 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc1__loss_kernel i arg1 harg1 arg2 harg2 arg3 harg3 arg4 harg4 arg5 harg5 arg6 harg6) K } := by
  refine ⟨?_, ?_, fun E K => ?run⟩
  case run =>
    simp only [cc1__loss_kernel_eq_skeleton]; unfold cc1__loss_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2; obtain rfl := harg4.eq_unread hf3; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

end Cert.Kernel.Loss

end
-- ==== Proof.BitsLossRegion.lean ====
/- The loss launch as one pipeline region, at the contents `V` the region is entered from: what the running sum (a
   scratch carried from grid point to grid point) holds after each point, the proof data of the pipeline, the body
   obligation at every point, and the invariant's two ends. -/
import proofs.«130534_j1580547966503_1_alg».proof.Proof.BitsLossRuns

set_option maxRecDepth 16384

noncomputable section

namespace Cert.Kernel.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and staging buffers -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_in0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

abbrev ms0 (t : Fin cfg1.N) : Memref sig .tc .vmem S8192x80 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S8192x80 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S8192x80 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x10 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x1 .f32 := win1_4.stage (cfg1.slots t 4)
abbrev hs4 (t : Fin cfg1.N) : (ms4 t).IsWhole := hstage1_4 ((cfg1.slots t 4).cast nbuf1_4)
/-- The scratch the kernel carries from point to point. -/
abbrev scM : Memref sig .tc .vmem S1x1 .f32 := Memref.whole cc1_scratch0

theorem notLast (t : Fin cfg1.N) (h : t.val ≠ 31) : ¬isLast (grid1.coords t) := fun hh => h ((isLast_iff t).mp hh)
theorem notFirst (t : Fin cfg1.N) (h : t.val ≠ 0) : ¬isFirst (grid1.coords t) := fun hh => h ((isFirst_iff t).mp hh)
theorem ne31_of_zero (t : Fin cfg1.N) (h : t.val = 0) : t.val ≠ 31 := by omega
theorem ne0_of_31 (t : Fin cfg1.N) (h : t.val = 31) : t.val ≠ 0 := by omega

/-! ## What each kind of point leaves in the scratch and in the output block -/

/-- The scratch after the first point. -/
def scrFirst (c : Dev nD) (t : Fin cfg1.N) (h0 : t.val = 0) : Vec F S1x1 .f32 :=
  View.canon (runFirst c (grid1.coords t) (ms0 t) (hs0 t) (ms1 t) (hs1 t) (ms2 t) (hs2 t) (ms3 t) (hs3 t) (ms4 t) (hs4 t) scM (Memref.isWhole_whole _) ((isFirst_iff t).mpr h0) (notLast t (ne31_of_zero t h0)) (iblk V c 0 t) (iblk V c 1 t) (iblk V c 2 t) (iblk V c 3 t)).1
theorem coverFirst (c : Dev nD) (t : Fin cfg1.N) (h0 : t.val = 0) (y : S1x1.Idx) :
    ∃ pc ∈ (runFirst c (grid1.coords t) (ms0 t) (hs0 t) (ms1 t) (hs1 t) (ms2 t) (hs2 t) (ms3 t) (hs3 t) (ms4 t) (hs4 t) scM (Memref.isWhole_whole _) ((isFirst_iff t).mpr h0) (notLast t (ne31_of_zero t h0)) (iblk V c 0 t) (iblk V c 1 t) (iblk V c 2 t) (iblk V c 3 t)).1, y ∈ pc.1.set :=
  View.cover_of_tiledL _ S1x1.size (by sl_kernel_rfl) y

/-- The scratch after a middle point, over what the point before left. -/
def scrMid (c : Dev nD) (t : Fin cfg1.N) (h0 : t.val ≠ 0) (h1 : t.val ≠ 31) (xs : Vec F S1x1 .f32) : Vec F S1x1 .f32 :=
  View.canon (runMid c (grid1.coords t) (ms0 t) (hs0 t) (ms1 t) (hs1 t) (ms2 t) (hs2 t) (ms3 t) (hs3 t) (ms4 t) (hs4 t) scM (Memref.isWhole_whole _) (notFirst t h0) (notLast t h1) (iblk V c 0 t) (iblk V c 1 t) (iblk V c 2 t) (iblk V c 3 t) xs).1
theorem coverMid (c : Dev nD) (t : Fin cfg1.N) (h0 : t.val ≠ 0) (h1 : t.val ≠ 31) (xs : Vec F S1x1 .f32) (y : S1x1.Idx) :
    ∃ pc ∈ (runMid c (grid1.coords t) (ms0 t) (hs0 t) (ms1 t) (hs1 t) (ms2 t) (hs2 t) (ms3 t) (hs3 t) (ms4 t) (hs4 t) scM (Memref.isWhole_whole _) (notFirst t h0) (notLast t h1) (iblk V c 0 t) (iblk V c 1 t) (iblk V c 2 t) (iblk V c 3 t) xs).1, y ∈ pc.1.set :=
  View.cover_of_tiledL _ S1x1.size (by sl_kernel_rfl) y

/-- The scratch after the last point, over what the point before left. -/
def scrLast (c : Dev nD) (t : Fin cfg1.N) (h1 : t.val = 31) (xs : Vec F S1x1 .f32) : Vec F S1x1 .f32 :=
  View.canon (runLast c (grid1.coords t) (ms0 t) (hs0 t) (ms1 t) (hs1 t) (ms2 t) (hs2 t) (ms3 t) (hs3 t) (ms4 t) (hs4 t) scM (Memref.isWhole_whole _) (notFirst t (ne0_of_31 t h1)) ((isLast_iff t).mpr h1) (iblk V c 0 t) (iblk V c 1 t) (iblk V c 2 t) (iblk V c 3 t) xs).2.1
theorem coverLastS (c : Dev nD) (t : Fin cfg1.N) (h1 : t.val = 31) (xs : Vec F S1x1 .f32) (y : S1x1.Idx) :
    ∃ pc ∈ (runLast c (grid1.coords t) (ms0 t) (hs0 t) (ms1 t) (hs1 t) (ms2 t) (hs2 t) (ms3 t) (hs3 t) (ms4 t) (hs4 t) scM (Memref.isWhole_whole _) (notFirst t (ne0_of_31 t h1)) ((isLast_iff t).mpr h1) (iblk V c 0 t) (iblk V c 1 t) (iblk V c 2 t) (iblk V c 3 t) xs).2.1, y ∈ pc.1.set :=
  View.cover_of_tiledL _ S1x1.size (by sl_kernel_rfl) y

/-- The output block after the last point. -/
def outLast (c : Dev nD) (t : Fin cfg1.N) (h1 : t.val = 31) (xs : Vec F S1x1 .f32) : Vec F S1x1 .f32 :=
  View.canon (runLast c (grid1.coords t) (ms0 t) (hs0 t) (ms1 t) (hs1 t) (ms2 t) (hs2 t) (ms3 t) (hs3 t) (ms4 t) (hs4 t) scM (Memref.isWhole_whole _) (notFirst t (ne0_of_31 t h1)) ((isLast_iff t).mpr h1) (iblk V c 0 t) (iblk V c 1 t) (iblk V c 2 t) (iblk V c 3 t) xs).1
theorem coverLastO (c : Dev nD) (t : Fin cfg1.N) (h1 : t.val = 31) (xs : Vec F S1x1 .f32) (y : S1x1.Idx) :
    ∃ pc ∈ (runLast c (grid1.coords t) (ms0 t) (hs0 t) (ms1 t) (hs1 t) (ms2 t) (hs2 t) (ms3 t) (hs3 t) (ms4 t) (hs4 t) scM (Memref.isWhole_whole _) (notFirst t (ne0_of_31 t h1)) ((isLast_iff t).mpr h1) (iblk V c 0 t) (iblk V c 1 t) (iblk V c 2 t) (iblk V c 3 t) xs).1, y ∈ pc.1.set :=
  View.cover_of_tiledL _ S1x1.size (by sl_kernel_rfl) y

/-! ## The scratch point by point -/

/-- What the scratch holds after the body at position `n`: the first point's contents, then each later point's over
    what the point before left. -/
def scrAt (c : Dev nD) : (n : ℕ) → n < cfg1.N → Vec F S1x1 .f32
  | 0, hn => scrFirst V c ⟨0, hn⟩ rfl
  | n + 1, hn =>
    if h : n + 1 = 31 then scrLast V c ⟨n + 1, hn⟩ h (scrAt c n (Nat.lt_of_succ_lt hn))
    else scrMid V c ⟨n + 1, hn⟩ (Nat.succ_ne_zero n) h (scrAt c n (Nat.lt_of_succ_lt hn))

theorem scrAt_first (c : Dev nD) (t : Fin cfg1.N) (h0 : t.val = 0) : scrAt V c t.val t.isLt = scrFirst V c t h0 := by
  obtain ⟨n, hn⟩ := t
  cases n with
  | zero => rfl
  | succ n => exact absurd h0 (Nat.succ_ne_zero n)

theorem scrAt_mid (c : Dev nD) (t : Fin cfg1.N) (h0 : t.val ≠ 0) (h1 : t.val ≠ 31) :
    scrAt V c t.val t.isLt = scrMid V c t h0 h1 (scrAt V c (t.val - 1) (Nat.lt_of_le_of_lt (Nat.sub_le _ _) t.isLt)) := by
  obtain ⟨n, hn⟩ := t
  cases n with
  | zero => exact absurd rfl h0
  | succ n => exact (dif_neg h1).trans rfl

theorem scrAt_last (c : Dev nD) (t : Fin cfg1.N) (h1 : t.val = 31) :
    scrAt V c t.val t.isLt = scrLast V c t h1 (scrAt V c (t.val - 1) (Nat.lt_of_le_of_lt (Nat.sub_le _ _) t.isLt)) := by
  obtain ⟨n, hn⟩ := t
  cases n with
  | zero => exact absurd (show (0 : ℕ) = 31 from h1) (by decide)
  | succ n => exact (dif_pos h1).trans rfl

/-- What the output's staging buffer holds after the body at point `t`: the last point's store; at the other points
    the window is idle and nothing reads this. -/
def outAt (c : Dev nD) (t : Fin cfg1.N) : Vec F S1x1 .f32 :=
  if h : t.val = 31 then outLast V c t h (scrAt V c (t.val - 1) (Nat.lt_of_le_of_lt (Nat.sub_le _ _) t.isLt)) else View.canon []

theorem outAt_last (c : Dev nD) (t : Fin cfg1.N) (h : t.val = 31) :
    outAt V c t = outLast V c t h (scrAt V c (t.val - 1) (Nat.lt_of_le_of_lt (Nat.sub_le _ _) t.isLt)) := dif_pos h

/-! ## The region's invariant -/

/-- The core's scoped buffers this kernel never touches, each whole at some contents. -/
def Rest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_scratch0), ((c : Thread nD τ).loc cc0_scratch0) ↦{fullShare} f))

/-- What the launch hands the body, sorted: the scratch at some contents, the untouched scoped buffers, the generator register. -/
theorem PhiA_split (c : Dev nD) :
    (Pipeline.ΦA spec1 c : sProp 𝕄)
      ⊢ iprop(((∃ d, owns (c : Thread nD τ) scM fullShare d) ∗ Rest (F := F) c) ∗ (∃ r, prngReg c r)) := by
  unfold Pipeline.ΦA Rest; rw [scopedRest1_eq]; simp only [scM, owns_whole]
  iintro ⟨⟨H1, H2, H3, H4, H5, H6, H7, H8, HS⟩, Hg⟩
  isplitl [H1 H2 H3 H4 H5 H6 H7 H8 HS]
  · isplitl [HS]; · iexact HS
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

/-- And back. -/
theorem PhiA_join (c : Dev nD) :
    (iprop(((∃ d, owns (c : Thread nD τ) scM fullShare d) ∗ Rest (F := F) c) ∗ (∃ r, prngReg c r)) : sProp 𝕄)
      ⊢ Pipeline.ΦA spec1 c := by
  unfold Pipeline.ΦA Rest; rw [scopedRest1_eq]; simp only [scM, owns_whole]
  iintro ⟨⟨HS, H1, H2, H3, H4, H5, H6, H7, H8⟩, Hg⟩
  isplitl [H1 H2 H3 H4 H5 H6 H7 H8 HS]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HS
  iexact Hg

/-- Before the first point what the launch hands over; before every later point the scratch at what the point before left. -/
def PhiS (c : Dev nD) : (n : ℕ) → n ≤ cfg1.N → sProp 𝕄
  | 0, _ => Pipeline.ΦA spec1 c
  | n + 1, hn => iprop((owns (c : Thread nD τ) scM fullShare (scrAt V c n hn) ∗ Rest (F := F) c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop((owns (c : Thread nD τ) scM fullShare (scrAt V c n hn) ∗ Rest (F := F) c) ∗ (∃ r, prngReg c r)) := rfl
theorem PhiS_pos (c : Dev nD) (n : ℕ) (h : n ≤ cfg1.N) (hz : n ≠ 0) :
    PhiS V c n h = iprop((owns (c : Thread nD τ) scM fullShare (scrAt V c (n - 1) (by omega)) ∗ Rest (F := F) c) ∗ (∃ r, prngReg c r)) := by
  cases n with
  | zero => exact absurd rfl hz
  | succ n => rfl

/-! ## The proof data -/

/-- The pipeline's proof data on core `c`: the arrays as the region finds them; after the body each input's buffer at
    its block, the output's at `outAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem Phi_castSucc (c : Dev nD) (t : Fin cfg1.N) :
    (dat V c).Φ t.castSucc = PhiS V c t.val (Nat.le_of_lt t.isLt) := by
  dsimp only [dat]; simp only [Fin.coe_castSucc]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = outAt V c t := by dsimp only [dat]
theorem before0 (c : Dev nD) (t : Fin cfg1.N) (d) : (dat V c).before 0 t d = iblk V c 0 t :=
  before_in0 V (dat V c) (A_eq V c 0) (after0 V c) t d
theorem before1 (c : Dev nD) (t : Fin cfg1.N) (d) : (dat V c).before 1 t d = iblk V c 1 t :=
  before_in1 V (dat V c) (A_eq V c 1) (after1 V c) t d
theorem before2 (c : Dev nD) (t : Fin cfg1.N) (d) : (dat V c).before 2 t d = iblk V c 2 t :=
  before_in2 V (dat V c) (A_eq V c 2) (after2 V c) t d
theorem before3 (c : Dev nD) (t : Fin cfg1.N) (d) : (dat V c).before 3 t d = iblk V c 3 t :=
  before_in3 V (dat V c) (A_eq V c 3) (after3 V c) t d

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
theorem idleOut : ∀ t : Fin cfg1.N, t.val ≠ 31 → cfg1.idle 4 (grid1.coords t) = true := by decide +kernel
theorem noFlushOut : ∀ t : Fin cfg1.N, t.val ≠ 31 → (cfg1.win 4).flush t = false := by decide +kernel
theorem liveOut : ∀ t : Fin cfg1.N, t.val = 31 → cfg1.idle 4 (grid1.coords t) = false := by decide +kernel

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point: each input's buffer holds its block; the point's position says which of the three runs
    applies; the invariant hands the body the scratch (at anything at the first point, else at what the point before
    left) and takes it back at this point's contents; the output's buffer is written at the last point only. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  rw [show (dat V c).leavesExact 3 t = owns (c : Thread nD τ) (ms3 t) fullShare ((dat V c).after 3 t) from by
    unfold Dat.leavesExact; rw [live3 t], after3]
  by_cases h0 : t.val = 0
  · have h1 : t.val ≠ 31 := ne31_of_zero t h0
    rw [Dat.leavesExact_idle (dat V c) 4 t (idleOut t h1) (noFlushOut t h1)]
    rw [scrAt_first V c t h0]
    unfold scrFirst
    rw [Phi_castSucc V c t, PhiS_zero V c _ _ h0]
    iintro ⟨HP, Ho, ⟨%d0, H0⟩, ⟨%d1, H1⟩, ⟨%d2, H2⟩, ⟨%d3, H3⟩, ⟨%d4, H4⟩⟩
    ihave HP2 := PhiA_split (F := F) c $$ HP
    icases HP2 with ⟨⟨HS, HR⟩, Hg⟩
    iapply ((runFirst c (grid1.coords t) _ _ _ _ _ _ _ _ _ _ _ _ ((isFirst_iff t).mpr h0) (notLast t h1) (iblk V c 0 t) (iblk V c 1 t) (iblk V c 2 t) (iblk V c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS HR Hg]
    · isplitl [HS HR]
      · isplitl [HS]
        · unfold owns; iexists _; isplitr
          swap; · iexact HS
          ipureintro; exact View.read_writes_eq_canon _ _ _ (coverFirst V c t h0)
        iexact HR
      iexact Hg
    isplitl [Ho]; · iexact Ho
    isplitl [H0]; · iexact H0
    isplitl [H1]; · iexact H1
    isplitl [H2]; · iexact H2
    isplitl [H3]; · iexact H3
    iexists _; iexact H4
  · by_cases h1 : t.val = 31
    · rw [show (dat V c).leavesExact 4 t = owns (c : Thread nD τ) (ms4 t) fullShare ((dat V c).after 4 t) from by
        unfold Dat.leavesExact; rw [liveOut t h1], after4]
      rw [outAt_last V c t h1, scrAt_last V c t h1]
      unfold outLast scrLast
      rw [Phi_castSucc V c t, PhiS_pos V c _ _ h0]
      iintro ⟨⟨⟨HS, HR⟩, Hg⟩, Ho, ⟨%d0, H0⟩, ⟨%d1, H1⟩, ⟨%d2, H2⟩, ⟨%d3, H3⟩, ⟨%d4, H4⟩⟩
      iapply ((runLast c (grid1.coords t) _ _ _ _ _ _ _ _ _ _ _ _ (notFirst t h0) ((isLast_iff t).mpr h1) (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%eo, H4⟩, ⟨%es, HS⟩⟩
      isplitl [HS HR Hg]
      · isplitl [HS HR]
        · isplitl [HS]
          · unfold owns; iexists _; isplitr
            swap; · iexact HS
            ipureintro; exact View.read_writes_eq_canon _ _ _ (coverLastS V c t h1 _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_eq_canon _ _ _ (coverLastO V c t h1 _)
    · rw [Dat.leavesExact_idle (dat V c) 4 t (idleOut t h1) (noFlushOut t h1)]
      rw [scrAt_mid V c t h0 h1]
      unfold scrMid
      rw [Phi_castSucc V c t, PhiS_pos V c _ _ h0]
      iintro ⟨⟨⟨HS, HR⟩, Hg⟩, Ho, ⟨%d0, H0⟩, ⟨%d1, H1⟩, ⟨%d2, H2⟩, ⟨%d3, H3⟩, ⟨%d4, H4⟩⟩
      iapply ((runMid c (grid1.coords t) _ _ _ _ _ _ _ _ _ _ _ _ (notFirst t h0) (notLast t h1) (iblk V c 0 t) (iblk V c 1 t) (iblk V c 2 t) (iblk V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_eq_canon _ _ _ (coverMid V c t h0 h1 _)
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives back what the launch handed over: the scratch's contents are forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 32 := N_1; omega)]
  iintro ⟨⟨HS, HR⟩, Hg⟩
  iapply PhiA_join (F := F) c
  isplitl [HS HR]
  · isplitl [HS]
    · iexists _; iexact HS
    iexact HR
  iexact Hg

end Cert.Kernel.Loss

end
-- ==== Proof.BitsWholeDefs.lean ====
/- The contents of the core's unscoped buffers at each boundary between the items of the program (the histogram launch, five
   stretches of host operations, the loss launch, a last stretch of host operations): a fold from the launch memory. A
   launch leaves its windows' arrays at what the pipeline's write-backs make of them and every other buffer as entered;
   a stretch of host operations leaves what its operations compute. -/
import proofs.«130534_j1580547966503_1_alg».proof.Proof.BitsHistRegion
import proofs.«130534_j1580547966503_1_alg».proof.Proof.BitsLossRegion
import Idealize.ShloMosaic.Lib.Pipeline.RegionsLoop

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- At launch. -/
abbrev W0 (c : Dev nD) : Valuation τ sig (Elt F) := fun b => m (c, b)
/-- The same read at the TensorCore's references: what the histogram launch's proof data take. -/
abbrev Ve0 : (c : Dev nD) → (b : Ref sig .tc) → Buf (Elt F) ((c : Thread nD τ).loc b) := fun c b => W0 m c b

/-- After the histogram launch: its arrays at what the pipeline leaves, the rest as entered. -/
def W1 (c : Dev nD) : Valuation τ sig (Elt F) :=
  Pipeline.withArrays spec0 c (W0 m c) fun w => (Hist.dat (Ve0 m) c).arrAt w cfg0.N
theorem W1_arr (c : Dev nD) (w : Fin cfg0.W) :
    W1 m c (Proc.devRef .tc (Pipeline.arrRef spec0 w)) = (Hist.dat (Ve0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb

/-- After each of the five stretches of host operations between the launches. -/
abbrev W2 (c : Dev nD) : Valuation τ sig (Elt F) := StableHlo.after hostOps1 (W1 m c)
abbrev W3 (c : Dev nD) : Valuation τ sig (Elt F) := StableHlo.after hostOps1_1 (W2 m c)
abbrev W4 (c : Dev nD) : Valuation τ sig (Elt F) := StableHlo.after hostOps1_2 (W3 m c)
abbrev W5 (c : Dev nD) : Valuation τ sig (Elt F) := StableHlo.after hostOps1_3 (W4 m c)
abbrev W6 (c : Dev nD) : Valuation τ sig (Elt F) := StableHlo.after hostOps1_4 (W5 m c)
/-- The same read at the TensorCore's references: what the loss launch's proof data take. -/
abbrev Ve1 : (c : Dev nD) → (b : Ref sig .tc) → Buf (Elt F) ((c : Thread nD τ).loc b) := fun c b => W6 m c b

/-- After the loss launch. -/
def W7 (c : Dev nD) : Valuation τ sig (Elt F) :=
  Pipeline.withArrays spec1 c (W6 m c) fun w => (Loss.dat (Ve1 m) c).arrAt w cfg1.N
theorem W7_arr (c : Dev nD) (w : Fin cfg1.W) :
    W7 m c (Proc.devRef .tc (Pipeline.arrRef spec1 w)) = (Loss.dat (Ve1 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb

/-- After the last stretch of host operations: the program's end. -/
abbrev W8 (c : Dev nD) : Valuation τ sig (Elt F) := StableHlo.after hostOps2 (W7 m c)

end Cert.Kernel.Whole

end
-- ==== Proof.BitsWhole.lean ====
/- The launch of the whole program: the histogram launch, five stretches of host operations, the loss launch and a last
   stretch of host operations, run in order from the launch memory. Each launch is one pipeline region, entered from the
   core's unscoped buffers at the contents the item before it left and left with its windows' arrays at what the
   pipeline's write-backs make of them; each stretch of host operations runs over the unscoped buffers. At the end every
   unscoped buffer holds the last valuation of the fold, and the three argument arrays hold what they were launched with. -/
import proofs.«130534_j1580547966503_1_alg».proof.Proof.BitsWholeDefs
import proofs.«130534_j1580547966503_1_alg».proof.Proof.Gen.Kernel.Regions
import Idealize.ShloMosaic.Lib.Pipeline.RegionsLoop
import Idealize.ShloMosaic.Lib.Pipeline.FrameSuffix
import Idealize.ShloMosaic.Lib.Tactic

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each launch's exit, read at the TensorCore's references -/

/-- The contents the histogram launch leaves, read at the TensorCore's references. -/
abbrev Vx0 : (c : Dev nD) → (b : Ref sig .tc) → Buf (Elt F) ((c : Thread nD τ).loc b) := fun c b => W1 m c b
/-- The contents the loss launch leaves, read at the TensorCore's references. -/
abbrev Vx1 : (c : Dev nD) → (b : Ref sig .tc) → Buf (Elt F) ((c : Thread nD τ).loc b) := fun c b => W7 m c b

/-- At the histogram launch's exit each of its arrays holds what the pipeline leaves, -/
theorem hF0 (c : Dev nD) (w : Fin cfg0.W) : (Hist.dat (Ve0 m) c).arrAt w cfg0.N = Vx0 m c (Pipeline.arrRef spec0 w) :=
  (W1_arr m c w).symm
/-- and every other buffer what it held at entry. -/
theorem hrest0 (c : Dev nD) : ∀ b, b ∉ Finset.univ.image (Pipeline.arrRef spec0) → Vx0 m c b = Ve0 m c b :=
  fun b hb => W1_of_ne m c b fun w e => hb (Finset.mem_image.mpr ⟨w, Finset.mem_univ _, e⟩)
/-- The same two facts at the loss launch's exit. -/
theorem hF1 (c : Dev nD) (w : Fin cfg1.W) : (Loss.dat (Ve1 m) c).arrAt w cfg1.N = Vx1 m c (Pipeline.arrRef spec1 w) :=
  (W7_arr m c w).symm
theorem hrest1 (c : Dev nD) : ∀ b, b ∉ Finset.univ.image (Pipeline.arrRef spec1) → Vx1 m c b = Ve1 m c b :=
  fun b hb => W7_of_ne m c b fun w e => hb (Finset.mem_image.mpr ⟨w, Finset.mem_univ _, e⟩)

/-! ## The proof data of both pipelines and the thread state between items -/

/-- Both pipelines' proof data, each at the contents its launch is entered from. -/
def pdats : (p : Fin 2) → (c : Dev nD) → Dat τ (Elt F) Unit ℕ (UR sig nD τ) ℕ (Pipeline.pin (pcfgs (F := F)) adm p) c
  | ⟨0, _⟩ => fun c => Hist.dat (Ve0 m) c
  | ⟨1, _⟩ => fun c => Loss.dat (Ve1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and what the core
    owes, which is nothing. -/
abbrev R (c : Dev nD) : sProp 𝕄 := iprop((∃ r, prngReg c r) ∗ ∃ W, owes (c : Thread nD τ) (0 : CellTallies nD τ sig Unit) W)
/-- A stretch of host operations as a segment: over the unscoped references from the contents `W`, `R` riding along; it
    leaves those references at what the operations compute from `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator register
    at some state. -/
abbrev Tₙ (c : Dev nD) : sProp 𝕄 := iprop(StableHlo.held (c : Thread nD τ) (Pipeline.ucRefs τ sig) (W8 m c) ∗ ∃ r, prngReg c r)

/-! ## The two launches as segments -/

set_option backward.isDefEq.respectTransparency.types false in
/-- The histogram launch over the thread state: entered from every unscoped buffer at the launch contents, left at
    `W1`. Its arrays are split out of the unscoped buffers at entry and put back at the exit contents; the generator
    register goes into the region's invariant and comes back; nothing is owed; the kernel has no semaphore of its own.
    The invariant's two ends are the region's own: what the launch hands over is its first point's, and its last
    point's gives that back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Hist.body_obligation (Ve0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Hist.hin (Ve0 m) c)
    unfold Pipeline.ΦA
    iintro ⟨Hp, -, Hr⟩
    isplitl [Hr]; · iexact Hr
    iexact Hp
  hout c := by
    refine BIBase.Entails.trans (Hist.hout (Ve0 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Vx0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The loss launch over the thread state: entered from every unscoped buffer at `W6`, what the fifth stretch of host
    operations left, and left at `W7`. As the histogram launch's record, at the second pipeline. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Loss.body_obligation (Ve1 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Loss.hin (Ve1 m) c)
    unfold Pipeline.ΦA
    iintro ⟨Hp, -, Hr⟩
    isplitl [Hr]; · iexact Hr
    iexact Hp
  hout c := by
    refine BIBase.Entails.trans (Loss.hout (Ve1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Vx1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's eight items in order: a region per launch, a host segment per stretch from the contents it is
    entered at. -/
abbrev psegs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .host (hseg hostOps1_3 hostOps1_3_sub hostOps1_3_fresh (W4 m)),
    .host (hseg hostOps1_4 hostOps1_4_sub hostOps1_4_fresh (W5 m)),
    .region (reg1 m),
    .host (hseg hostOps2 hostOps2_sub hostOps2_fresh (W7 m)) ]
/-- The program is the run of its segments: it is the chain of its items, and so is the segments' run. -/
theorem main_run (c : Dev nD) : main (F := F) c = Pipeline.Seg.run (psegs m) := (main_chain c).trans (by chain_rfl)

set_option backward.isDefEq.respectTransparency.types false in
/-- From any memory with zero counters every weakly fair execution of the program on the TensorCores terminates,
    nothing faulting, and in every final state each unscoped buffer holds the last valuation of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (psegs m)
    (fun c Q => by rw [main_run m c])
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun c => by
        show (iprop(StableHlo.held (c : Thread nD τ) (Pipeline.ucRefs τ sig) (W8 m c) ∗ R c) : sProp 𝕄)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-! ## The arguments end as launched

No stretch of host operations writes an argument array, and each launch reads it through an input window, whose array the
pipeline leaves as it found it: the fold at an argument's buffer walks back to the launch memory. -/

theorem W8_main_arg0 (c : Dev nD) : W8 m c (Proc.devRef .tc main_arg0) = m ((c : Thread nD τ).loc main_arg0) :=
  calc W8 m c (Proc.devRef .tc main_arg0)
    _ = W7 m c (Proc.devRef .tc main_arg0) := StableHlo.after_of_writes_sub hostOps2 _ hostOps2_writes (by decide)
    _ = W6 m c (Proc.devRef .tc main_arg0) := (W7_arr m c 0).trans (((Loss.dat (Ve1 m) c).arrAt_in 0 rfl _).trans (Loss.A_eq (Ve1 m) c 0))
    _ = W5 m c (Proc.devRef .tc main_arg0) := StableHlo.after_of_writes_sub hostOps1_4 _ hostOps1_4_writes (by decide)
    _ = W4 m c (Proc.devRef .tc main_arg0) := StableHlo.after_of_writes_sub hostOps1_3 _ hostOps1_3_writes (by decide)
    _ = W3 m c (Proc.devRef .tc main_arg0) := StableHlo.after_of_writes_sub hostOps1_2 _ hostOps1_2_writes (by decide)
    _ = W2 m c (Proc.devRef .tc main_arg0) := StableHlo.after_of_writes_sub hostOps1_1 _ hostOps1_1_writes (by decide)
    _ = W1 m c (Proc.devRef .tc main_arg0) := StableHlo.after_of_writes_sub hostOps1 _ hostOps1_writes (by decide)
    _ = W0 m c (Proc.devRef .tc main_arg0) := (W1_arr m c 0).trans (((Hist.dat (Ve0 m) c).arrAt_in 0 rfl _).trans (Hist.A_eq (Ve0 m) c 0))
    _ = m ((c : Thread nD τ).loc main_arg0) := rfl

theorem W8_main_arg1 (c : Dev nD) : W8 m c (Proc.devRef .tc main_arg1) = m ((c : Thread nD τ).loc main_arg1) :=
  calc W8 m c (Proc.devRef .tc main_arg1)
    _ = W7 m c (Proc.devRef .tc main_arg1) := StableHlo.after_of_writes_sub hostOps2 _ hostOps2_writes (by decide)
    _ = W6 m c (Proc.devRef .tc main_arg1) := (W7_arr m c 1).trans (((Loss.dat (Ve1 m) c).arrAt_in 1 rfl _).trans (Loss.A_eq (Ve1 m) c 1))
    _ = W5 m c (Proc.devRef .tc main_arg1) := StableHlo.after_of_writes_sub hostOps1_4 _ hostOps1_4_writes (by decide)
    _ = W4 m c (Proc.devRef .tc main_arg1) := StableHlo.after_of_writes_sub hostOps1_3 _ hostOps1_3_writes (by decide)
    _ = W3 m c (Proc.devRef .tc main_arg1) := StableHlo.after_of_writes_sub hostOps1_2 _ hostOps1_2_writes (by decide)
    _ = W2 m c (Proc.devRef .tc main_arg1) := StableHlo.after_of_writes_sub hostOps1_1 _ hostOps1_1_writes (by decide)
    _ = W1 m c (Proc.devRef .tc main_arg1) := StableHlo.after_of_writes_sub hostOps1 _ hostOps1_writes (by decide)
    _ = W0 m c (Proc.devRef .tc main_arg1) := (W1_arr m c 1).trans (((Hist.dat (Ve0 m) c).arrAt_in 1 rfl _).trans (Hist.A_eq (Ve0 m) c 1))
    _ = m ((c : Thread nD τ).loc main_arg1) := rfl

theorem W8_main_arg2 (c : Dev nD) : W8 m c (Proc.devRef .tc main_arg2) = m ((c : Thread nD τ).loc main_arg2) :=
  calc W8 m c (Proc.devRef .tc main_arg2)
    _ = W7 m c (Proc.devRef .tc main_arg2) := StableHlo.after_of_writes_sub hostOps2 _ hostOps2_writes (by decide)
    _ = W6 m c (Proc.devRef .tc main_arg2) := (W7_arr m c 2).trans (((Loss.dat (Ve1 m) c).arrAt_in 2 rfl _).trans (Loss.A_eq (Ve1 m) c 2))
    _ = W5 m c (Proc.devRef .tc main_arg2) := StableHlo.after_of_writes_sub hostOps1_4 _ hostOps1_4_writes (by decide)
    _ = W4 m c (Proc.devRef .tc main_arg2) := StableHlo.after_of_writes_sub hostOps1_3 _ hostOps1_3_writes (by decide)
    _ = W3 m c (Proc.devRef .tc main_arg2) := StableHlo.after_of_writes_sub hostOps1_2 _ hostOps1_2_writes (by decide)
    _ = W2 m c (Proc.devRef .tc main_arg2) := StableHlo.after_of_writes_sub hostOps1_1 _ hostOps1_1_writes (by decide)
    _ = W1 m c (Proc.devRef .tc main_arg2) := StableHlo.after_of_writes_sub hostOps1 _ hostOps1_writes (by decide)
    _ = W0 m c (Proc.devRef .tc main_arg2) := (W1_arr m c 2).trans (((Hist.dat (Ve0 m) c).arrAt_in 2 rfl _).trans (Hist.A_eq (Ve0 m) c 2))
    _ = m ((c : Thread nD τ).loc main_arg2) := rfl

/-! ## The frame and the value's buffer -/

/-- Every final state has the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c)⟩) (run_all m ρ)

/-- Every final state has the result's buffer at the last valuation of the fold, and the three argument arrays as
    launched. -/
theorem run_value : θ_run defs (onTc (τ := τ) (main (F := F))) ⟨m, fun _ => 0, ρ⟩ (fun r => ∀ c : Dev nD,
      r.2.mem ((c.tc : Thread nD τ).loc main_v24) = W8 m c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v24 (by decide)),
     (h c _ (mem_uc main_arg0 (by decide))).trans (W8_main_arg0 m c),
     (h c _ (mem_uc main_arg1 (by decide))).trans (W8_main_arg1 m c),
     (h c _ (mem_uc main_arg2 (by decide))).trans (W8_main_arg2 m c)⟩) (run_all m ρ)

end Cert.Kernel.Whole

end
-- ==== Proof.Spec.lean ====
/- The number both programs compute, written once: from the three input arrays (predictions, targets, label weights,
   each 262144 rows of 80 entries, read as extended reals) the bin of every entry, the ten counts of counted entries per
   bin, the per-bin weights, and the weighted sum of the entries' cross entropies over the number of counted entries. -/
import Idealize.ShloMosaic.PureOps.Ideal
import Idealize.ShloMosaic.Lib.ValueIdx

noncomputable section

namespace Cert.Spec

open Idealize.ShloMosaic

/-- The inputs' shape: 262144 rows of 80 entries. -/
abbrev SA : Shape := ⟨2, ![262144, 80]⟩
/-- The shape of the ten bins. -/
abbrev SB : Shape := ⟨1, ![10]⟩
/-- The shape of one number. -/
abbrev S0 : Shape := ⟨0, ![]⟩

/-! ## One entry -/

/-- Whether an entry counts: one where its label weight is positive, zero elsewhere. -/
def valid (w : EReal) : EReal := if 0 < w then 1 else 0

/-- The bin of an entry as a 32-bit word: ten times the distance between the sigmoid of the prediction and the
    target, rounded down, converted to a word, clamped to 0 … 9 (signed). -/
def binw (p t : EReal) : BitVec 32 :=
  IntOp.minsi 9#32 (IntOp.maxsi 0#32 (FloatOps.fptosi (F := Ideal) (φ := .f32) 32
    (FloatOps.floor (F := Ideal) (φ := .f32) (FloatOps.mulf (F := Ideal) (φ := .f32)
      (FloatOps.absf (F := Ideal) (φ := .f32) (FloatOps.subf (F := Ideal) (φ := .f32) (FloatOps.logistic (F := Ideal) (φ := .f32) p) t))
      (Ideal.ofBits .f32 0x41200000#32)))))

/-- The bin as a number below ten (the word's value; the remainder only makes the definition total). -/
def bin (p t : EReal) : Fin 10 := ⟨(binw p t).toNat % 10, Nat.mod_lt _ (by decide)⟩

/-- The entry's cross entropy with logits: softplus of the prediction, less prediction times target. -/
def bce (p t : EReal) : EReal :=
  (max p 0 + Ideal.log1p (Ideal.exp (-(FloatOps.absf (F := Ideal) (φ := .f32) p)))) - p * t

/-! ## The whole arrays -/

variable (p t w : SA.Idx → EReal)

/-- How many counted entries fall in each bin. -/
def cnt : SB.Idx → EReal := fun j => ∑ e : SA.Idx, if (bin (p e) (t e)).val = (j 0).val then valid (w e) else 0

/-- The number of counted entries, at least one. -/
def tot : EReal := max (∑ e : SA.Idx, valid (w e)) 1

/-- The number of nonempty bins, from the ten counts, by the host operations both programs use: each count's "above
    zero" bit widened to a word, the ten words added up from the word 0, the sum converted as a signed word. -/
def nOf (cv : SB.Idx → EReal) : S0.Idx → EReal :=
  sitofp (F := Ideal) .f32
    (Host.reduce (axes := [0]) (t := S0) IntOp.addi
      (extui 32 (cmpf (F := Ideal) (φ := .f32) .ogt cv (broadcastInDim SB ![] (by decide) (constant (F := Ideal) S0 .f32 0x00000000#32))) (by decide))
      (constantI S0 32 0#32) (by decide) (by decide))

/-- The number of nonempty bins. -/
def nb : EReal := nOf (cnt p t w) (fun a => a.elim0)

/-- A bin's weight before the division by the number of nonempty bins: the total over the bin's count (at least one)
    where the bin is nonempty, zero where it is empty. -/
def pbw (j : Fin 10) : EReal :=
  if 0 < cnt p t w (ValueIdx.ix1 j) then Ideal.div (tot w) (max (cnt p t w (ValueIdx.ix1 j)) 1) else 0

/-- An entry's weight: its bin's weight where the entry counts, divided by the number of nonempty bins when there is one. -/
def wgt (e : SA.Idx) : EReal :=
  if 0 < nb p t w then Ideal.div (pbw p t w (bin (p e) (t e)) * valid (w e)) (nb p t w)
  else pbw p t w (bin (p e) (t e)) * valid (w e)

/-- The loss: the weighted cross entropies summed, over the number of counted entries, times the literal 1.0. -/
def loss : EReal :=
  Ideal.div (∑ e : SA.Idx, bce (p e) (t e) * wgt p t w e) (tot w) * Ideal.ofBits .f32 0x3F800000#32

end Cert.Spec

end
-- ==== Proof.LibBitFloat.lean ====
import Idealize.ShloMosaic.PureOps.Ideal
import Idealize.ShloMosaic.PureOps.Ideal.Laws
import Idealize.ShloMosaic.Lib.ValueIdx

/-!
# Bits and small floats over the extended reals

A scalar toolbox at the ideal float values (the extended reals). It reads:

* the f32 words of one and one half as the extended reals they denote;
* a one-bit word, widened to 32 bits and converted to a float, as the extended real 0 or 1, and the small words
  0, 1, 2, 3 converted likewise; sums of widened bits as words;
* a float comparison's result bit as the order relation (or the disequality) it decides;
* the bit recovered from its float by comparing against one half;
* the complement of a disjunction of two bits as one minus the larger of the two floats.
-/

noncomputable section

namespace Idealize.ShloMosaic.BitFloat

open Idealize.ShloMosaic

/-! ## The f32 words -/

/-- The word of 1.0 denotes one. -/
theorem ofBits_one_f32 : Ideal.ofBits .f32 0x3F800000#32 = 1 := by
  simp [Ideal.ofBits, Ideal.ieee, -EReal.coe_mul]; norm_num

/-- The word of 0.5 denotes the real one half. -/
theorem ofBits_half_f32 : Ideal.ofBits .f32 0x3F000000#32 = ((1 / 2 : ℝ) : EReal) := by
  simp [Ideal.ofBits, Ideal.ieee, -EReal.coe_mul]; norm_num

/-- A scalar literal is the extended real its word denotes. -/
theorem scalar_ofBits_f32 (w : BitVec 32) : Scalar.ofBits (F := Ideal) .f32 w = Ideal.ofBits .f32 w := rfl

/-- A vector literal's element is the extended real its word denotes. -/
theorem floatOps_ofBits_f32 (w : BitVec 32) : FloatOps.ofBits (F := Ideal) .f32 w = Ideal.ofBits .f32 w := rfl

/-- The scalar literal of 1.0 is one. -/
theorem scalar_one_f32 : Scalar.ofBits (F := Ideal) .f32 0x3F800000#32 = 1 := ofBits_one_f32

/-- The scalar literal of 0.0 is zero. -/
theorem scalar_zero_f32 : Scalar.ofBits (F := Ideal) .f32 0x00000000#32 = 0 := Ideal.ofBits_zero_f32

/-- The scalar literal of 0.5 is the real one half. -/
theorem scalar_half_f32 : Scalar.ofBits (F := Ideal) .f32 0x3F000000#32 = ((1 / 2 : ℝ) : EReal) := ofBits_half_f32

/-- One half is above zero. -/
theorem half_pos : (0 : EReal) < Ideal.ofBits .f32 0x3F000000#32 := by
  rw [ofBits_half_f32, ← EReal.coe_zero, EReal.coe_lt_coe_iff]; norm_num

/-- One half is at most one. -/
theorem half_le_one : Ideal.ofBits .f32 0x3F000000#32 ≤ (1 : EReal) := by
  rw [ofBits_half_f32, ← EReal.coe_one, EReal.coe_le_coe_iff]; norm_num

/-- Zero is below one half, strictly: one half is not at most zero. -/
theorem not_half_le_zero : ¬ Ideal.ofBits .f32 0x3F000000#32 ≤ (0 : EReal) := not_le.mpr half_pos

/-! ## A bit as a float; small words as floats -/

/-- A signed conversion of a word is the real of its signed value. -/
theorem sitofp_eq {w : Nat} (x : BitVec w) : FloatOps.sitofp (F := Ideal) .f32 x = ((x.toInt : ℝ) : EReal) := rfl

/-- An unsigned conversion of a word is the real of its unsigned value. -/
theorem uitofp_eq {w : Nat} (x : BitVec w) : FloatOps.uitofp (F := Ideal) .f32 x = ((x.toNat : ℝ) : EReal) := rfl

/-- The bit 0 widened is the word 0. -/
theorem setWidth_bit_zero : (0#1 : BitVec 1).setWidth 32 = 0#32 := by decide

/-- The bit 1 widened is the word 1. -/
theorem setWidth_bit_one : (1#1 : BitVec 1).setWidth 32 = 1#32 := by decide

/-- A widened bit is the word 0 or the word 1. -/
theorem setWidth_bit_cases (a : BitVec 1) : a.setWidth 32 = 0#32 ∨ a.setWidth 32 = 1#32 := by
  revert a; decide

/-- A bit is 0 or 1. -/
theorem bit_cases (a : BitVec 1) : a = 0#1 ∨ a = 1#1 := by revert a; decide

/-- The word 0 converts to zero. -/
theorem sitofp_word_zero : FloatOps.sitofp (F := Ideal) .f32 (0#32 : BitVec 32) = 0 := by
  rw [sitofp_eq, show (0#32 : BitVec 32).toInt = 0 from by decide]; simp

/-- The word 1 converts to one. -/
theorem sitofp_word_one : FloatOps.sitofp (F := Ideal) .f32 (1#32 : BitVec 32) = 1 := by
  rw [sitofp_eq, show (1#32 : BitVec 32).toInt = 1 from by decide]; simp

/-- The word 2 converts to the real two. -/
theorem sitofp_word_two : FloatOps.sitofp (F := Ideal) .f32 (2#32 : BitVec 32) = ((2 : ℝ) : EReal) := by
  rw [sitofp_eq, show (2#32 : BitVec 32).toInt = 2 from by decide]; norm_num

/-- The word 3 converts to the real three. -/
theorem sitofp_word_three : FloatOps.sitofp (F := Ideal) .f32 (3#32 : BitVec 32) = ((3 : ℝ) : EReal) := by
  rw [sitofp_eq, show (3#32 : BitVec 32).toInt = 3 from by decide]; norm_num

/-- The bit 0, widened and converted, is zero. -/
theorem sitofp_bit_zero : FloatOps.sitofp (F := Ideal) .f32 ((0#1 : BitVec 1).setWidth 32) = 0 := by
  rw [setWidth_bit_zero, sitofp_word_zero]

/-- The bit 1, widened and converted, is one. -/
theorem sitofp_bit_one : FloatOps.sitofp (F := Ideal) .f32 ((1#1 : BitVec 1).setWidth 32) = 1 := by
  rw [setWidth_bit_one, sitofp_word_one]

/-- A bit, widened and converted, is one where the bit is set and zero where not. -/
theorem sitofp_bit (b : BitVec 1) :
    FloatOps.sitofp (F := Ideal) .f32 (b.setWidth 32) = if b = 1#1 then (1 : EReal) else 0 := by
  rcases bit_cases b with rfl | rfl
  · rw [sitofp_bit_zero, if_neg (by decide)]
  · rw [sitofp_bit_one, if_pos rfl]

/-- The bit 0 converted unsigned is zero. -/
theorem uitofp_bit_zero : FloatOps.uitofp (F := Ideal) .f32 (0#1 : BitVec 1) = 0 := by
  rw [uitofp_eq, show (0#1 : BitVec 1).toNat = 0 from by decide]; simp

/-- The bit 1 converted unsigned is one. -/
theorem uitofp_bit_one : FloatOps.uitofp (F := Ideal) .f32 (1#1 : BitVec 1) = 1 := by
  rw [uitofp_eq, show (1#1 : BitVec 1).toNat = 1 from by decide]; simp

/-- A bit converted unsigned is one where the bit is set and zero where not. -/
theorem uitofp_bit (b : BitVec 1) : FloatOps.uitofp (F := Ideal) .f32 b = if b = 1#1 then (1 : EReal) else 0 := by
  rcases bit_cases b with rfl | rfl
  · rw [uitofp_bit_zero, if_neg (by decide)]
  · rw [uitofp_bit_one, if_pos rfl]

/-- Adding the word 0 on the left changes nothing. -/
theorem addi_zero_left (u : BitVec 32) : IntOp.addi 0#32 u = u := by unfold IntOp.addi; simp

/-- Adding the word 0 on the right changes nothing. -/
theorem addi_zero_right (u : BitVec 32) : IntOp.addi u 0#32 = u := by unfold IntOp.addi; simp

/-- 1 + 1 = 2 as words. -/
theorem addi_one_one : IntOp.addi 1#32 1#32 = 2#32 := by decide

/-- 2 + 1 = 3 as words. -/
theorem addi_two_one : IntOp.addi 2#32 1#32 = 3#32 := by decide

/-- The sum, from the word 0, of three widened bits is the word of the number of bits set. -/
theorem addi3_bits (a b c : BitVec 1) :
    IntOp.addi (IntOp.addi (IntOp.addi 0#32 (a.setWidth 32)) (b.setWidth 32)) (c.setWidth 32)
      = BitVec.ofNat 32 (a.toNat + b.toNat + c.toNat) := by
  revert a b c; decide

/-- The sum, from the word 0, of three words each 0 or 1, computed: the eight cases. -/
theorem addi3_closed :
    IntOp.addi (IntOp.addi (IntOp.addi 0#32 0#32) 0#32) 0#32 = 0#32
    ∧ IntOp.addi (IntOp.addi (IntOp.addi 0#32 1#32) 0#32) 0#32 = 1#32
    ∧ IntOp.addi (IntOp.addi (IntOp.addi 0#32 0#32) 1#32) 0#32 = 1#32
    ∧ IntOp.addi (IntOp.addi (IntOp.addi 0#32 0#32) 0#32) 1#32 = 1#32
    ∧ IntOp.addi (IntOp.addi (IntOp.addi 0#32 1#32) 1#32) 0#32 = 2#32
    ∧ IntOp.addi (IntOp.addi (IntOp.addi 0#32 1#32) 0#32) 1#32 = 2#32
    ∧ IntOp.addi (IntOp.addi (IntOp.addi 0#32 0#32) 1#32) 1#32 = 2#32
    ∧ IntOp.addi (IntOp.addi (IntOp.addi 0#32 1#32) 1#32) 1#32 = 3#32 := by decide

/-! ## Comparisons as bits -/

/-- "Greater than" answers 1 exactly where the second operand is below the first. -/
theorem cmpf_ogt_iff (a b : EReal) : FloatOps.cmpf (F := Ideal) (φ := .f32) .ogt a b = 1#1 ↔ b < a := by
  show BitVec.ofBool (decide (b < a)) = 1#1 ↔ b < a
  by_cases h : b < a <;> simp [h]

/-- "Greater or equal" answers 1 exactly where the second operand is at most the first. -/
theorem cmpf_oge_iff (a b : EReal) : FloatOps.cmpf (F := Ideal) (φ := .f32) .oge a b = 1#1 ↔ b ≤ a := by
  show BitVec.ofBool (decide (b ≤ a)) = 1#1 ↔ b ≤ a
  by_cases h : b ≤ a <;> simp [h]

/-- "Less than" answers 1 exactly where the first operand is below the second. -/
theorem cmpf_olt_iff (a b : EReal) : FloatOps.cmpf (F := Ideal) (φ := .f32) .olt a b = 1#1 ↔ a < b := by
  show BitVec.ofBool (decide (a < b)) = 1#1 ↔ a < b
  by_cases h : a < b <;> simp [h]

/-- "Less or equal" answers 1 exactly where the first operand is at most the second. -/
theorem cmpf_ole_iff (a b : EReal) : FloatOps.cmpf (F := Ideal) (φ := .f32) .ole a b = 1#1 ↔ a ≤ b := by
  show BitVec.ofBool (decide (a ≤ b)) = 1#1 ↔ a ≤ b
  by_cases h : a ≤ b <;> simp [h]

/-- "Not equal" answers 1 exactly where the operands differ. -/
theorem cmpf_une_iff (a b : EReal) : FloatOps.cmpf (F := Ideal) (φ := .f32) .une a b = 1#1 ↔ a ≠ b := by
  show BitVec.ofBool (decide (a ≠ b)) = 1#1 ↔ a ≠ b
  by_cases h : a = b <;> simp [h]

/-- "Equal" answers 1 exactly where the operands agree. -/
theorem cmpf_oeq_iff (a b : EReal) : FloatOps.cmpf (F := Ideal) (φ := .f32) .oeq a b = 1#1 ↔ a = b := by
  show BitVec.ofBool (decide (a = b)) = 1#1 ↔ a = b
  by_cases h : a = b <;> simp [h]

/-- "Greater than" answers 0 exactly where the first operand is at most the second. -/
theorem cmpf_ogt_eq_zero_iff (a b : EReal) : FloatOps.cmpf (F := Ideal) (φ := .f32) .ogt a b = 0#1 ↔ a ≤ b := by
  show BitVec.ofBool (decide (b < a)) = 0#1 ↔ a ≤ b
  by_cases h : b < a
  · simp [h]
  · simp [h, not_lt.mp h]

/-- "Greater or equal" answers 0 exactly where the first operand is below the second. -/
theorem cmpf_oge_eq_zero_iff (a b : EReal) : FloatOps.cmpf (F := Ideal) (φ := .f32) .oge a b = 0#1 ↔ a < b := by
  show BitVec.ofBool (decide (b ≤ a)) = 0#1 ↔ a < b
  by_cases h : b ≤ a
  · simp [h]
  · simp [h, not_le.mp h]

/-- "Less or equal" answers 0 exactly where the second operand is below the first. -/
theorem cmpf_ole_eq_zero_iff (a b : EReal) : FloatOps.cmpf (F := Ideal) (φ := .f32) .ole a b = 0#1 ↔ b < a := by
  show BitVec.ofBool (decide (a ≤ b)) = 0#1 ↔ b < a
  by_cases h : a ≤ b
  · simp [h]
  · simp [h, not_le.mp h]

/-- "Not equal" answers 0 exactly where the operands agree. -/
theorem cmpf_une_eq_zero_iff (a b : EReal) : FloatOps.cmpf (F := Ideal) (φ := .f32) .une a b = 0#1 ↔ a = b := by
  show BitVec.ofBool (decide (a ≠ b)) = 0#1 ↔ a = b
  by_cases h : a = b <;> simp [h]

/-- "Greater than" as a choice of bit. -/
theorem cmpf_ogt_eq_ite (a b : EReal) :
    FloatOps.cmpf (F := Ideal) (φ := .f32) .ogt a b = if b < a then 1#1 else 0#1 := by
  by_cases h : b < a
  · rw [if_pos h]; exact (cmpf_ogt_iff a b).mpr h
  · rw [if_neg h]; exact (cmpf_ogt_eq_zero_iff a b).mpr (not_lt.mp h)

/-- "Greater or equal" as a choice of bit. -/
theorem cmpf_oge_eq_ite (a b : EReal) :
    FloatOps.cmpf (F := Ideal) (φ := .f32) .oge a b = if b ≤ a then 1#1 else 0#1 := by
  by_cases h : b ≤ a
  · rw [if_pos h]; exact (cmpf_oge_iff a b).mpr h
  · rw [if_neg h]; exact (cmpf_oge_eq_zero_iff a b).mpr (not_le.mp h)

/-- "Less or equal" as a choice of bit. -/
theorem cmpf_ole_eq_ite (a b : EReal) :
    FloatOps.cmpf (F := Ideal) (φ := .f32) .ole a b = if a ≤ b then 1#1 else 0#1 := by
  by_cases h : a ≤ b
  · rw [if_pos h]; exact (cmpf_ole_iff a b).mpr h
  · rw [if_neg h]; exact (cmpf_ole_eq_zero_iff a b).mpr (not_le.mp h)

/-- "Not equal" as a choice of bit. -/
theorem cmpf_une_eq_ite (a b : EReal) :
    FloatOps.cmpf (F := Ideal) (φ := .f32) .une a b = if a ≠ b then 1#1 else 0#1 := by
  by_cases h : a = b
  · rw [if_neg (not_not.mpr h)]; exact (cmpf_une_eq_zero_iff a b).mpr h
  · rw [if_pos h]; exact (cmpf_une_iff a b).mpr h

/-- A result bit that is not 1 is 0. -/
theorem bit_eq_zero_of_ne_one {b : BitVec 1} (h : ¬ b = 1#1) : b = 0#1 := ValueIdx.eq_zero_of_ne_one h

/-! ## The bit recovered from its float -/

/-- A bit's float compared "greater or equal" against one half gives the bit back (the right operand as `Ideal.ofBits`). -/
theorem oge_half_sitofp_bit (b : BitVec 1) :
    FloatOps.cmpf (F := Ideal) (φ := .f32) .oge (FloatOps.sitofp (F := Ideal) .f32 (b.setWidth 32))
      (Ideal.ofBits .f32 0x3F000000#32) = b := by
  rcases bit_cases b with rfl | rfl
  · rw [sitofp_bit_zero]; exact (cmpf_oge_eq_zero_iff _ _).mpr half_pos
  · rw [sitofp_bit_one]; exact (cmpf_oge_iff _ _).mpr half_le_one

/-- The same with the right operand a scalar literal. -/
theorem oge_half_sitofp_bit_scalar (b : BitVec 1) :
    FloatOps.cmpf (F := Ideal) (φ := .f32) .oge (FloatOps.sitofp (F := Ideal) .f32 (b.setWidth 32))
      (Scalar.ofBits (F := Ideal) .f32 0x3F000000#32) = b := oge_half_sitofp_bit b

/-- The same with the right operand a vector literal's element. -/
theorem oge_half_sitofp_bit_floatOps (b : BitVec 1) :
    FloatOps.cmpf (F := Ideal) (φ := .f32) .oge (FloatOps.sitofp (F := Ideal) .f32 (b.setWidth 32))
      (FloatOps.ofBits (F := Ideal) .f32 0x3F000000#32) = b := oge_half_sitofp_bit b

/-! ## Two bits: the complement of their disjunction, and one minus the larger of their floats -/

/-- The complement of a disjunction of two bits, by the four cases. -/
theorem not_ori_closed :
    ~~~(IntOp.ori (0#1 : BitVec 1) 0#1) = 1#1 ∧ ~~~(IntOp.ori (0#1 : BitVec 1) 1#1) = 0#1
    ∧ ~~~(IntOp.ori (1#1 : BitVec 1) 0#1) = 0#1 ∧ ~~~(IntOp.ori (1#1 : BitVec 1) 1#1) = 0#1 := by decide

/-- The disjunction of two bits, by the four cases. -/
theorem ori_closed :
    IntOp.ori (0#1 : BitVec 1) 0#1 = 0#1 ∧ IntOp.ori (0#1 : BitVec 1) 1#1 = 1#1
    ∧ IntOp.ori (1#1 : BitVec 1) 0#1 = 1#1 ∧ IntOp.ori (1#1 : BitVec 1) 1#1 = 1#1 := by decide

/-- The complement of a disjunction is set exactly where neither bit is. -/
theorem not_ori_eq_one_iff (s t : BitVec 1) : ~~~(IntOp.ori s t) = 1#1 ↔ s = 0#1 ∧ t = 0#1 := by
  revert s t; decide

/-- The complement of a disjunction is clear exactly where one of the bits is set. -/
theorem not_ori_eq_zero_iff (s t : BitVec 1) : ~~~(IntOp.ori s t) = 0#1 ↔ s = 1#1 ∨ t = 1#1 := by
  revert s t; decide

/-- A disjunction is set exactly where one of the bits is. -/
theorem ori_eq_one_iff (s t : BitVec 1) : IntOp.ori s t = 1#1 ↔ s = 1#1 ∨ t = 1#1 := by
  revert s t; decide

/-- One minus one is zero on the extended reals. -/
theorem one_sub_one : (1 : EReal) - 1 = 0 := by
  rw [← EReal.coe_one, ← EReal.coe_sub, sub_self, EReal.coe_zero]

/-- The larger of two bits' floats is the float of their disjunction. -/
theorem max_sitofp_bits (s t : BitVec 1) :
    max (FloatOps.sitofp (F := Ideal) .f32 (s.setWidth 32)) (FloatOps.sitofp (F := Ideal) .f32 (t.setWidth 32))
      = FloatOps.sitofp (F := Ideal) .f32 ((IntOp.ori s t).setWidth 32) := by
  rcases bit_cases s with rfl | rfl <;> rcases bit_cases t with rfl | rfl
  · rw [ori_closed.1, sitofp_bit_zero, max_self]
  · rw [ori_closed.2.1, sitofp_bit_zero, sitofp_bit_one, max_eq_right zero_le_one]
  · rw [ori_closed.2.2.1, sitofp_bit_zero, sitofp_bit_one, max_eq_left zero_le_one]
  · rw [ori_closed.2.2.2, sitofp_bit_one, max_self]

/-- One minus the larger of two bits' floats is the float of the complement of their disjunction. -/
theorem one_sub_max_sitofp_bits (s t : BitVec 1) :
    (1 : EReal) - max (FloatOps.sitofp (F := Ideal) .f32 (s.setWidth 32)) (FloatOps.sitofp (F := Ideal) .f32 (t.setWidth 32))
      = FloatOps.sitofp (F := Ideal) .f32 ((~~~(IntOp.ori s t)).setWidth 32) := by
  rcases bit_cases s with rfl | rfl <;> rcases bit_cases t with rfl | rfl
  · rw [not_ori_closed.1, sitofp_bit_zero, sitofp_bit_one, max_self, sub_zero]
  · rw [not_ori_closed.2.1, sitofp_bit_zero, sitofp_bit_one, max_eq_right zero_le_one, one_sub_one]
  · rw [not_ori_closed.2.2.1, sitofp_bit_zero, sitofp_bit_one, max_eq_left zero_le_one, one_sub_one]
  · rw [not_ori_closed.2.2.2, sitofp_bit_zero, sitofp_bit_one, max_self, one_sub_one]

/-- The same spelt with the float operations and the literal of 1.0: the subtraction of the larger float from one. -/
theorem subf_one_maximumf_sitofp_bits (s t : BitVec 1) :
    FloatOps.subf (F := Ideal) (φ := .f32) (Scalar.ofBits (F := Ideal) .f32 0x3F800000#32)
        (FloatOps.maximumf (F := Ideal) (φ := .f32) (FloatOps.sitofp (F := Ideal) .f32 (s.setWidth 32))
          (FloatOps.sitofp (F := Ideal) .f32 (t.setWidth 32)))
      = FloatOps.sitofp (F := Ideal) .f32 ((~~~(IntOp.ori s t)).setWidth 32) := by
  rw [← one_sub_max_sitofp_bits s t, ← scalar_one_f32]
  rfl

/-- The three floats of two bits and of the complement of their disjunction add up to the float of the count of bits set
    among the three. -/
theorem sitofp_bits_sum (s t : BitVec 1) :
    FloatOps.sitofp (F := Ideal) .f32 (s.setWidth 32) + FloatOps.sitofp (F := Ideal) .f32 (t.setWidth 32)
        + FloatOps.sitofp (F := Ideal) .f32 ((~~~(IntOp.ori s t)).setWidth 32)
      = FloatOps.sitofp (F := Ideal) .f32
          (IntOp.addi (IntOp.addi (IntOp.addi 0#32 (s.setWidth 32)) (t.setWidth 32)) ((~~~(IntOp.ori s t)).setWidth 32)) := by
  rcases bit_cases s with rfl | rfl <;> rcases bit_cases t with rfl | rfl
  · rw [not_ori_closed.1, setWidth_bit_zero, setWidth_bit_one, addi3_closed.2.2.2.1, sitofp_word_zero, sitofp_word_one]
    simp
  · rw [not_ori_closed.2.1, setWidth_bit_zero, setWidth_bit_one, addi3_closed.2.2.1, sitofp_word_zero, sitofp_word_one]
    simp
  · rw [not_ori_closed.2.2.1, setWidth_bit_zero, setWidth_bit_one, addi3_closed.2.1, sitofp_word_zero, sitofp_word_one]
    simp
  · rw [not_ori_closed.2.2.2, setWidth_bit_zero, setWidth_bit_one, addi3_closed.2.2.2.2.1, sitofp_word_zero, sitofp_word_one,
      sitofp_word_two, ← EReal.coe_one, ← EReal.coe_add, add_zero]
    norm_num

end Idealize.ShloMosaic.BitFloat

end
-- ==== Proof.LibSums.lean ====
import Mathlib.Algebra.BigOperators.Fin
import Mathlib.Algebra.BigOperators.Group.Finset.Basic
import Mathlib.Data.Fintype.BigOperators
import Mathlib.Logic.Equiv.Fin.Basic
import Mathlib.Tactic.Ring
import Idealize.ShloMosaic.Lib.ValueIdx
import Idealize.ShloMosaic.Lib.Pipeline.Value

/-!
# Regrouping finite sums

Bookkeeping about finite sums in an additive commutative monoid `M` (only commutativity and associativity of `+` are
used, so every statement holds in the extended reals).

* `sum_rowMajor`: a double sum over `r < R`, `l < L` of a function of the row-major position `r·L + l` is the single
  sum over the positions `p < R·L`.
* `sum_blocks`, `sum_blocks_of_eq`: a sum over `N = nb·bs` rows taken block by block, row `= bs·s + b`.
* `sum_reshape`: two row-major readings `[R, L]` and `[H, W]` of the same `R·L = H·W` positions give the same sum.
* `sum_chan_last`, `sum_chan_first`: the channel sum of a `[B, C, H, W]` family moved innermost and back
  (the transpose between channel-second and channel-last order).
* `shapeCast_inner_apply`: a row-major reshape of the two inner axes `[B, C, H, W] → [B, C, R, L]` read at an index.
-/

open scoped BigOperators
open Idealize.ShloMosaic Idealize.ShloMosaic.ValueIdx

namespace Cert.Hand

variable {M : Type*} [AddCommMonoid M]

/-! ## Row-major positions -/

/-- The double sum over `(r, l)` of a function of the position `r·L + l` is the sum over all positions below `R·L`. -/
theorem sum_rowMajor (R L : Nat) (g : ℕ → M) :
    ∑ r : Fin R, ∑ l : Fin L, g (r.val * L + l.val) = ∑ p : Fin (R * L), g p.val := by
  rw [← Equiv.sum_comp finProdFinEquiv (fun p : Fin (R * L) => g p.val), Fintype.sum_prod_type]
  refine Finset.sum_congr rfl fun r _ => Finset.sum_congr rfl fun l _ => ?_
  congr 1
  show r.val * L + l.val = l.val + L * r.val
  rw [Nat.mul_comm, Nat.add_comm]

/-- Equal bounds, equal sums. -/
theorem sum_fin_of_eq {N N' : Nat} (e : N = N') (g : ℕ → M) : ∑ p : Fin N, g p.val = ∑ p : Fin N', g p.val := by
  subst e; rfl

/-- Two row-major readings of the same positions: `R·L = H·W`, position `r·L + l` on one side and `h·W + w` on the other. -/
theorem sum_reshape {R L H W : Nat} (e : R * L = H * W) (g : ℕ → M) :
    ∑ r : Fin R, ∑ l : Fin L, g (r.val * L + l.val) = ∑ h : Fin H, ∑ w : Fin W, g (h.val * W + w.val) := by
  rw [sum_rowMajor, sum_rowMajor, sum_fin_of_eq e]

/-! ## Rows in blocks -/

/-- `nb·bs` rows taken as `nb` blocks of `bs` rows: row `= bs·s + b`. -/
theorem sum_blocks (nb bs : Nat) (g : ℕ → M) :
    ∑ k : Fin (nb * bs), g k.val = ∑ s : Fin nb, ∑ b : Fin bs, g (bs * s.val + b.val) := by
  rw [← sum_rowMajor nb bs g]
  refine Finset.sum_congr rfl fun s _ => Finset.sum_congr rfl fun b _ => ?_
  rw [Nat.mul_comm]

/-- The same with the number of rows given by an equation `N = nb·bs`. -/
theorem sum_blocks_of_eq {N : Nat} (nb bs : Nat) (e : N = nb * bs) (g : ℕ → M) :
    ∑ k : Fin N, g k.val = ∑ s : Fin nb, ∑ b : Fin bs, g (bs * s.val + b.val) := by
  rw [sum_fin_of_eq e, sum_blocks]

/-- A function of the row itself (not only of its number): row `⟨bs·s + b, _⟩`. -/
theorem sum_blocks_fin {N : Nat} (nb bs : Nat) (e : N = nb * bs) (f : Fin N → M) :
    ∑ k : Fin N, f k = ∑ s : Fin nb, ∑ b : Fin bs,
      f ⟨bs * s.val + b.val, by
        have hs := s.isLt; have hb := b.isLt
        calc bs * s.val + b.val < bs * s.val + bs := by omega
          _ = bs * (s.val + 1) := by ring
          _ ≤ bs * nb := Nat.mul_le_mul_left _ hs
          _ = N := by rw [e, Nat.mul_comm]⟩ := by
  have key := sum_blocks_of_eq nb bs e (fun k => if h : k < N then f ⟨k, h⟩ else 0)
  have lhs : ∑ k : Fin N, (fun k => if h : k < N then f ⟨k, h⟩ else 0) k.val = ∑ k : Fin N, f k :=
    Finset.sum_congr rfl fun k _ => by simp only [k.isLt, dite_true]
  rw [← lhs, key]
  refine Finset.sum_congr rfl fun s _ => Finset.sum_congr rfl fun b _ => ?_
  have hlt : bs * s.val + b.val < N := by
    have hs := s.isLt; have hb := b.isLt
    calc bs * s.val + b.val < bs * s.val + bs := by omega
      _ = bs * (s.val + 1) := by ring
      _ ≤ bs * nb := Nat.mul_le_mul_left _ hs
      _ = N := by rw [e, Nat.mul_comm]
  simp only [hlt, dite_true]

/-! ## The channel sum moved innermost -/

/-- `∑ b, ∑ c, ∑ h, ∑ w` = `∑ b, ∑ h, ∑ w, ∑ c`: channel-second order against channel-last order. -/
theorem sum_chan_last {β γ η ω : Type*} [Fintype β] [Fintype γ] [Fintype η] [Fintype ω] (f : β → γ → η → ω → M) :
    ∑ b, ∑ c, ∑ h, ∑ w, f b c h w = ∑ b, ∑ h, ∑ w, ∑ c, f b c h w := by
  refine Finset.sum_congr rfl fun b _ => ?_
  rw [Finset.sum_comm]
  refine Finset.sum_congr rfl fun h _ => ?_
  rw [Finset.sum_comm]

/-- The other direction. -/
theorem sum_chan_first {β γ η ω : Type*} [Fintype β] [Fintype γ] [Fintype η] [Fintype ω] (f : β → γ → η → ω → M) :
    ∑ b, ∑ h, ∑ w, ∑ c, f b c h w = ∑ b, ∑ c, ∑ h, ∑ w, f b c h w :=
  (sum_chan_last f).symm

/-! ## A reshape of the two inner axes, read at an index -/

/-- `[B, C, H, W]` viewed as `[B, C, R, L]` with `R·L = H·W`: the entry at `(b, c, r, l)` is the entry at `(b, c, h, w)`
    whenever the inner positions agree, `r·L + l = h·W + w`. -/
theorem shapeCast_inner_apply {α : Type} {B C H W R L : Nat} (x : (⟨4, ![B, C, H, W]⟩ : Shape).Idx → α)
    (hs : (⟨4, ![B, C, H, W]⟩ : Shape).ShapeCasts ⟨4, ![B, C, R, L]⟩) (e : R * L = H * W)
    (b : Fin B) (c : Fin C) (r : Fin R) (l : Fin L) (h : Fin H) (w : Fin W) (hp : r.val * L + l.val = h.val * W + w.val) :
    shapeCast ⟨4, ![B, C, R, L]⟩ x hs (ix4 b c r l) = x (ix4 b c h w) :=
  shapeCast_apply x hs _ _ (by
    rw [Shape.rowMajor_val_four, Shape.rowMajor_val_four]
    show (((b.val * C + c.val) * H + h.val) * W + w.val) = (((b.val * C + c.val) * R + r.val) * L + l.val)
    have e1 : ((b.val * C + c.val) * H + h.val) * W + w.val = (b.val * C + c.val) * (H * W) + (h.val * W + w.val) := by ring
    have e2 : ((b.val * C + c.val) * R + r.val) * L + l.val = (b.val * C + c.val) * (R * L) + (r.val * L + l.val) := by ring
    rw [e1, e2, e, hp])

end Cert.Hand
-- ==== Proof.SpecLemmas.lean ====
/- Arithmetic facts about the specification: the bin of an entry is a word between 0 and 9, the "counts" bit is the
   indicator of a positive label weight, the ten counts add up to the number of counted entries, a quotient commutes
   with the indicator, the two spellings of the cross entropy that the programs use are the specification's, and the
   sum over all entries taken tile by tile. -/
import proofs.«130534_j1580547966503_1_alg».proof.Proof.Spec
import proofs.«130534_j1580547966503_1_alg».proof.Proof.LibBitFloat
import proofs.«130534_j1580547966503_1_alg».proof.Proof.LibSums
import Idealize.ShloMosaic.PureOps.Ideal.Laws
import Idealize.ShloMosaic.Lib.ValueIdx
import Mathlib.Algebra.BigOperators.Group.Finset.Basic
import Mathlib.Algebra.BigOperators.Group.Finset.Piecewise
import Mathlib.Data.Fintype.BigOperators

noncomputable section

namespace Cert.Spec

open scoped BigOperators
open Idealize.ShloMosaic Idealize.ShloMosaic.ValueIdx Idealize.ShloMosaic.BitFloat

/-! ## The bin is a word between 0 and 9 -/

/-- A word clamped below by 0 and above by 9 (signed) has a signed value between 0 and 9. -/
theorem clamp_toInt_range (X : BitVec 32) :
    0 ≤ (IntOp.minsi 9#32 (IntOp.maxsi 0#32 X)).toInt ∧ (IntOp.minsi 9#32 (IntOp.maxsi 0#32 X)).toInt ≤ 9 := by
  unfold IntOp.minsi IntOp.maxsi
  have h9 : (9#32 : BitVec 32).toInt = 9 := by decide
  have h0 : (0#32 : BitVec 32).toInt = 0 := by decide
  by_cases h1 : X.slt 0#32 = true
  · have h90 : ¬ (9#32 : BitVec 32).slt 0#32 = true := by decide
    rw [if_pos h1, if_neg h90, h0]; omega
  · rw [if_neg h1]
    by_cases h2 : (9#32 : BitVec 32).slt X = true
    · rw [if_pos h2, h9]; omega
    · rw [if_neg h2]
      rw [BitVec.slt_iff_toInt_lt, h0] at h1
      rw [BitVec.slt_iff_toInt_lt, h9] at h2
      omega

/-- The bin word's signed value lies between 0 and 9. -/
theorem binw_toInt_range (p t : EReal) : 0 ≤ (binw p t).toInt ∧ (binw p t).toInt ≤ 9 := by
  unfold binw; exact clamp_toInt_range _

/-- A 32-bit word whose signed value is not negative has that value as its unsigned value. -/
theorem toNat_of_toInt_nonneg (x : BitVec 32) (h : 0 ≤ x.toInt) : (x.toNat : Int) = x.toInt := by
  have hc := BitVec.toInt_eq_toNat_cond x
  have hl := x.isLt
  split_ifs at hc with h2
  · omega
  · omega

/-- The bin word's unsigned value is its signed value. -/
theorem binw_toNat_eq_toInt (p t : EReal) : ((binw p t).toNat : Int) = (binw p t).toInt :=
  toNat_of_toInt_nonneg _ (binw_toInt_range p t).1

/-- The bin word's unsigned value is below ten. -/
theorem binw_toNat_lt (p t : EReal) : (binw p t).toNat < 10 := by
  have h := binw_toNat_eq_toInt p t
  have hr := (binw_toInt_range p t).2
  omega

/-- The bin is the bin word's value. -/
theorem bin_val (p t : EReal) : (bin p t).val = (binw p t).toNat := by
  show (binw p t).toNat % 10 = (binw p t).toNat
  exact Nat.mod_eq_of_lt (binw_toNat_lt p t)

/-- The bin word is the word of `j` exactly where the bin is `j`. -/
theorem binw_eq_ofNat_iff (p t : EReal) (j : Fin 10) : binw p t = BitVec.ofNat 32 j.val ↔ (bin p t).val = j.val := by
  rw [bin_val, ← BitVec.toNat_inj, BitVec.toNat_ofNat]
  have hj : j.val % 2 ^ 32 = j.val := Nat.mod_eq_of_lt (by have := j.isLt; omega)
  rw [hj]

/-- The bin word's signed value is `j` exactly where the bin is `j`. -/
theorem binw_toInt_eq_iff (p t : EReal) (j : Fin 10) : (binw p t).toInt = (j.val : Int) ↔ (bin p t).val = j.val := by
  rw [bin_val, ← binw_toNat_eq_toInt]
  exact Int.ofNat_inj

/-! ## The indicator of a positive label weight -/

/-- The indicator is zero or one. -/
theorem valid_cases (w : EReal) : valid w = 0 ∨ valid w = 1 := by
  unfold valid
  by_cases h : 0 < w
  · right; rw [if_pos h]
  · left; rw [if_neg h]

/-- The "above zero" bit, widened to a word and converted as a signed word, is the indicator. -/
theorem valid_of_sitofp (w : EReal) :
    FloatOps.sitofp (F := Ideal) .f32
      ((FloatOps.cmpf (F := Ideal) (φ := .f32) .ogt w (Ideal.ofBits .f32 0x00000000#32)).setWidth 32) = valid w := by
  rw [sitofp_bit, Ideal.ofBits_zero_f32]
  unfold valid
  by_cases h : 0 < w
  · rw [if_pos ((cmpf_ogt_iff w 0).mpr h), if_pos h]
  · rw [if_neg (fun hc => h ((cmpf_ogt_iff w 0).mp hc)), if_neg h]

/-- The "above zero" bit converted as an unsigned word is the indicator. -/
theorem valid_of_uitofp (w : EReal) :
    FloatOps.uitofp (F := Ideal) .f32
      (FloatOps.cmpf (F := Ideal) (φ := .f32) .ogt w (Ideal.ofBits .f32 0x00000000#32)) = valid w := by
  rw [uitofp_bit, Ideal.ofBits_zero_f32]
  unfold valid
  by_cases h : 0 < w
  · rw [if_pos ((cmpf_ogt_iff w 0).mpr h), if_pos h]
  · rw [if_neg (fun hc => h ((cmpf_ogt_iff w 0).mp hc)), if_neg h]

/-! ## The ten counts add up to the number of counted entries -/

/-- Every entry lies in exactly one bin, so the counts of the ten bins together count every counted entry once. -/
theorem sum_cnt (p t w : SA.Idx → EReal) :
    ∑ j : Fin 10, cnt p t w (ValueIdx.ix1 j) = ∑ e : SA.Idx, valid (w e) := by
  unfold cnt
  rw [Finset.sum_comm]
  refine Finset.sum_congr rfl fun e _ => ?_
  have h : ∀ j : Fin 10, (if (bin (p e) (t e)).val = ((ValueIdx.ix1 j : SB.Idx) 0).val then valid (w e) else 0)
      = if bin (p e) (t e) = j then valid (w e) else 0 := by
    intro j
    show (if (bin (p e) (t e)).val = j.val then valid (w e) else 0) = _
    by_cases hj : bin (p e) (t e) = j
    · rw [if_pos hj, if_pos (congrArg Fin.val hj)]
    · rw [if_neg hj, if_neg (fun hv => hj (Fin.ext hv))]
  rw [Finset.sum_congr rfl fun j _ => h j]
  rw [Finset.sum_ite_eq]
  rw [if_pos (Finset.mem_univ _)]

/-! ## A quotient and the indicator -/

/-- Multiplying a quotient by the indicator is the quotient of the product: both vanish where the indicator is zero
    (the divisor is not zero), and nothing changes where it is one. -/
theorem div_mul_valid (a n x : EReal) (hn : 0 < n) : Ideal.div a n * valid x = Ideal.div (a * valid x) n := by
  rcases valid_cases x with h | h
  · rw [h, mul_zero, mul_zero, Ideal.div, if_neg hn.ne', zero_mul]
  · rw [h, mul_one, mul_one]

/-! ## The sum over all entries, tile by tile -/

/-- The 262144 rows are 32 tiles of 8192 rows: the sum over all entries is the sum over the tiles of the sums over a
    tile's rows and the 80 entries of each row. -/
theorem sum_tiles {M : Type*} [AddCommMonoid M] (f : SA.Idx → M) :
    ∑ e : SA.Idx, f e = ∑ T : Fin 32, ∑ r : Fin 8192, ∑ l : Fin 80,
      f (ValueIdx.ix2 (⟨8192 * T.val + r.val, by omega⟩ : Fin 262144) l) := by
  rw [ValueIdx.sum_idx2 (n0 := 262144) (n1 := 80) f]
  rw [Cert.Hand.sum_blocks_fin (N := 262144) 32 8192 (by norm_num)
    (fun a : Fin 262144 => ∑ l : Fin 80, f (ValueIdx.ix2 a l))]

/-! ## The cross entropy as the two programs spell it -/

/-- A number does not differ from itself: the ordered "differs" bit of a number against itself is 0. -/
theorem cmpf_one_self (x : EReal) : FloatOps.cmpf (F := Ideal) (φ := .f32) .one x x = 0#1 := by
  show BitVec.ofBool (decide (x ≠ x)) = 0#1
  rw [decide_eq_false (fun h => h rfl)]; rfl

/-- The same for the unordered "differs" bit. -/
theorem cmpf_une_self (x : EReal) : FloatOps.cmpf (F := Ideal) (φ := .f32) .une x x = 0#1 :=
  (cmpf_une_eq_zero_iff x x).mpr rfl

/-- The kernel's spelling: the guard "the prediction differs from itself" never holds, so the guarded sum is the
    softplus written with the literal zero, and subtracting or adding that zero changes nothing. -/
theorem bce_of_kernel (p t : EReal) :
    FloatOps.subf (F := Ideal) (φ := .f32)
      (Scalar.select
        (FloatOps.cmpf (F := Ideal) (φ := .f32) .one
          (FloatOps.subf (F := Ideal) (φ := .f32) p (Ideal.ofBits .f32 0x00000000#32))
          (FloatOps.subf (F := Ideal) (φ := .f32) p (Ideal.ofBits .f32 0x00000000#32)))
        (FloatOps.addf (F := Ideal) (φ := .f32) p (Ideal.ofBits .f32 0x00000000#32))
        (FloatOps.addf (F := Ideal) (φ := .f32)
          (FloatOps.maximumf (F := Ideal) (φ := .f32) p (Ideal.ofBits .f32 0x00000000#32))
          (FloatOps.log1p (F := Ideal) (φ := .f32)
            (FloatOps.exp (F := Ideal) (φ := .f32)
              (FloatOps.subf (F := Ideal) (φ := .f32) (Ideal.ofBits .f32 0x00000000#32)
                (FloatOps.absf (F := Ideal) (φ := .f32)
                  (FloatOps.subf (F := Ideal) (φ := .f32) p (Ideal.ofBits .f32 0x00000000#32))))))))
      (FloatOps.mulf (F := Ideal) (φ := .f32) p t) = bce p t := by
  rw [cmpf_one_self, ValueIdx.select_zero, Ideal.ofBits_zero_f32]
  show (max p 0 + Ideal.log1p (Ideal.exp (0 - FloatOps.absf (F := Ideal) (φ := .f32) (p - 0)))) - p * t = bce p t
  rw [sub_zero, zero_sub]
  rfl

/-- The host's spelling: the same with the host's exponential, negation, absolute value and `log1p`. -/
theorem bce_of_host (p t : EReal) :
    FloatOps.subf (F := Ideal) (φ := .f32)
      (Scalar.select
        (FloatOps.cmpf (F := Ideal) (φ := .f32) .une
          (FloatOps.subf (F := Ideal) (φ := .f32) p (Ideal.ofBits .f32 0x00000000#32))
          (FloatOps.subf (F := Ideal) (φ := .f32) p (Ideal.ofBits .f32 0x00000000#32)))
        (FloatOps.addf (F := Ideal) (φ := .f32) p (Ideal.ofBits .f32 0x00000000#32))
        (FloatOps.addf (F := Ideal) (φ := .f32)
          (FloatOps.maximumf (F := Ideal) (φ := .f32) p (Ideal.ofBits .f32 0x00000000#32))
          (FloatOps.hostUnary (F := Ideal) (φ := .f32) .log1p
            (FloatOps.hostUnary (F := Ideal) (φ := .f32) .exp
              (FloatOps.hostNegf (F := Ideal) (φ := .f32)
                (FloatOps.hostAbsf (F := Ideal) (φ := .f32)
                  (FloatOps.subf (F := Ideal) (φ := .f32) p (Ideal.ofBits .f32 0x00000000#32))))))))
      (FloatOps.mulf (F := Ideal) (φ := .f32) p t) = bce p t := by
  rw [cmpf_une_self, ValueIdx.select_zero, Ideal.ofBits_zero_f32]
  show (max p 0 + Ideal.log1p (Ideal.exp (-(FloatOps.absf (F := Ideal) (φ := .f32) (p - 0))))) - p * t = bce p t
  rw [sub_zero]
  rfl

end Cert.Spec

end
-- ==== Proof.HistValue.lean ====
/- What the histogram launch leaves in its output array, at the ideal instance: the ten counts of the specification.

   The argument, in the order of the sections below. (1) One grid point turns the ten running counts `xs` and the
   point's three blocks into `upd x0 x1 x2 xs`, one pure function; each of the three kinds of point (first, middle,
   last) leaves exactly that in the scratch (the first from the zero vector), and the last also in the output block.
   (2) Over the extended reals entry `(0, j)` of `upd x0 x1 x2 xs` is `xs (0, j)` plus the number of counted entries of
   the block in bin `j`: the ten-way concatenation read at `j`, the reduction over the block's two axes as a double sum,
   the product of the two indicator floats as one conditional term, the kernel's bin word and "counts" float as the
   specification's. (3) A point's block is the tile of 8192 rows of its array, so by induction on the point count `j`
   after point `n` is the number of counted entries of bin `j` in tiles 0 … n. (4) Only the last point writes the output
   back and its block is the whole array, so the array ends at what that point left; the sum over the 32 tiles is the
   sum over all entries. -/
import proofs.«130534_j1580547966503_1_alg».proof.Proof.HistRegion
import proofs.«130534_j1580547966503_1_alg».proof.Proof.Spec
import proofs.«130534_j1580547966503_1_alg».proof.Proof.SpecLemmas
import proofs.«130534_j1580547966503_1_alg».proof.Proof.LibBitFloat
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

open scoped BigOperators

/-! ## Index bookkeeping -/

/-- The literal offsets `(0, 0)` are the zero offsets. -/
theorem hz2 : (![0, 0] : Fin 2 → Nat) = fun _ => 0 := funext fun a => by fin_cases a <;> rfl

/-- A sum over the indices of a `[1, a, b]` array is the double sum over its last two coordinates. -/
theorem sum_idx3_unit {M : Type*} [AddCommMonoid M] {a b : Nat} (f : (⟨3, ![1, a, b]⟩ : Shape).Idx → M) :
    ∑ i, f i = ∑ r : Fin a, ∑ l : Fin b, f (ix3 (0 : Fin 1) r l) := by
  let e : (⟨3, ![1, a, b]⟩ : Shape).Idx ≃ Fin a × Fin b :=
    { toFun := fun i => (i 1, i 2)
      invFun := fun p => ix3 (0 : Fin 1) p.1 p.2
      left_inv := fun i => by
        funext d
        match d with
        | ⟨0, _⟩ =>
          have h : (i 0).val < 1 := (i 0).isLt
          exact Fin.ext (by show (0 : ℕ) = (i 0).val; omega)
        | ⟨1, _⟩ => rfl
        | ⟨2, _⟩ => rfl
      right_inv := fun _ => rfl }
  rw [← Equiv.sum_comp e.symm f, Fintype.sum_prod_type]
  rfl

/-- A concatenation of ten one-element vectors, read at `j`, is the `j`-th of them. -/
theorem concat10_apply {α : Type} (f : Fin 10 → (S1.Idx → α))
    (h : Shape.Concatenates [S1, S1, S1, S1, S1, S1, S1, S1, S1, S1] S10 0) (j : Fin 10) :
    concatenate S10 0 [⟨S1, f 0⟩, ⟨S1, f 1⟩, ⟨S1, f 2⟩, ⟨S1, f 3⟩, ⟨S1, f 4⟩, ⟨S1, f 5⟩, ⟨S1, f 6⟩, ⟨S1, f 7⟩, ⟨S1, f 8⟩, ⟨S1, f 9⟩] h (ix1 j)
      = f j (ix1 (0 : Fin 1)) :=
  concatenate_ofFn_unit_apply (t := S10) (s₁ := S1) 0 f h rfl rfl (ix1 j) j rfl (ix1 (0 : Fin 1))
    (fun b hb => absurd (Subsingleton.elim _ _) hb)

/-- The one entry of a `[1, 1]` window cut out of a `[1, 10]` vector at column `k` is the vector's entry `k`. -/
theorem slice_extract {α : Type} (xs : S1x10.Idx → α) (k : ℕ) (hk : k < 10) (h : S1x10.Slices ![0, k] S1x1)
    (h' : ∀ a, (![0, 0] : Fin 2 → Nat) a < S1x1.size a) :
    extractAt ![0, 0] (extractStridedSlice S1x1 ![0, k] xs h) h' = xs (ix2 (0 : Fin 1) (⟨k, hk⟩ : Fin 10)) := by
  unfold extractAt extractStridedSlice
  congr 1
  funext a
  match a with
  | ⟨0, _⟩ => rfl
  | ⟨1, _⟩ => exact Fin.ext (Nat.add_zero k)

/-! ## One count's sum -/

/-- Word equality's result bit is set exactly where the words agree. -/
theorem cmpi_eq_one_iff (x y : BitVec 32) : IntOp.cmpi .eq x y = 1#1 ↔ x = y := by
  show BitVec.ofBool (x == y) = 1#1 ↔ x = y
  by_cases h : x = y
  · subst h; simp
  · have hb : (x == y) = false := beq_eq_false_iff_ne.mpr h
    rw [hb]; exact ⟨fun hc => absurd hc (by decide), fun hc => absurd hc h⟩

/-- One entry's term: the indicator of "the word is `w`" as a float, times a float. -/
theorem entry_eq (x w : BitVec 32) (v : EReal) :
    FloatOps.mulf (F := Ideal) (φ := .f32) (FloatOps.sitofp (F := Ideal) .f32 ((IntOp.cmpi .eq x w).setWidth 32)) v
      = if x = w then v else 0 := by
  rw [BitFloat.sitofp_bit]
  show (if IntOp.cmpi .eq x w = 1#1 then (1 : EReal) else 0) * v = _
  by_cases h : x = w
  · rw [if_pos ((cmpi_eq_one_iff x w).mpr h), if_pos h, one_mul]
  · rw [if_neg (fun hc => h ((cmpi_eq_one_iff x w).mp hc)), if_neg h, zero_mul]

/-- Over a block: the sum of the floats `v9` at the entries whose word `v20` is `w`. -/
def binSum (v9 : FVec Ideal S8192x80 .f32) (v20 : IVec S8192x80 32) (w : BitVec 32) : EReal :=
  ∑ r : Fin 8192, ∑ l : Fin 80, if v20 (ix2 r l) = w then v9 (ix2 r l) else 0

/-- The reduction each count adds — the product of the indicator of one bin word and the floats, summed over the
    block's two axes and read at its one entry — is that sum. -/
theorem red_eq (v9 : FVec Ideal S8192x80 .f32) (v20 : IVec S8192x80 32) (w : BitVec 32)
    (h1 : (1 : ℕ) < 32) (hsc : S8192x80.ShapeCasts S1x8192x80) (hred : S1x8192x80.Reduces [1, 2] S1)
    (hφ : FKind.Formats .f32) (hacc : (0x00000000#32 : BitVec 32) = FKind.add.neutral .f32 hφ)
    (hsc2 : S1.ShapeCasts S1x1x1) (hpos : ∀ a, (![0, 0, 0] : Fin 3 → Nat) a < S1x1x1.size a) :
    extractAt ![0, 0, 0] (shapeCast S1x1x1 (multiReduction (F := Ideal) .add [1, 2] S1
        (shapeCast S1x8192x80 (mulf (sitofp .f32 (extui 32 (cmpi .eq v20 (broadcast S8192x80 w)) h1)) v9) hsc)
        0x00000000#32 hred hφ hacc) hsc2) hpos
      = binSum v9 v20 w := by
  refine (Ideal.multiReduction_add_total _ _ hred (fun b => by fin_cases b; rfl) hφ hacc _).trans ?_
  rw [sum_idx3_unit]
  refine Finset.sum_congr rfl fun r _ => Finset.sum_congr rfl fun l _ => ?_
  rw [shapeCast_ab_1ab_apply]
  exact entry_eq (v20 (ix2 r l)) w (v9 (ix2 r l))

/-- A count's update: the old count plus that sum. -/
theorem addf_red_eq (old : EReal) (v9 : FVec Ideal S8192x80 .f32) (v20 : IVec S8192x80 32) (w : BitVec 32)
    (h1 : (1 : ℕ) < 32) (hsc : S8192x80.ShapeCasts S1x8192x80) (hred : S1x8192x80.Reduces [1, 2] S1)
    (hφ : FKind.Formats .f32) (hacc : (0x00000000#32 : BitVec 32) = FKind.add.neutral .f32 hφ)
    (hsc2 : S1.ShapeCasts S1x1x1) (hpos : ∀ a, (![0, 0, 0] : Fin 3 → Nat) a < S1x1x1.size a) :
    Scalar.addf (F := Ideal) (φ := .f32) old (extractAt ![0, 0, 0] (shapeCast S1x1x1 (multiReduction (F := Ideal) .add [1, 2] S1
        (shapeCast S1x8192x80 (mulf (sitofp .f32 (extui 32 (cmpi .eq v20 (broadcast S8192x80 w)) h1)) v9) hsc)
        0x00000000#32 hred hφ hacc) hsc2) hpos)
      = old + binSum v9 v20 w := by
  rw [red_eq]; rfl

/-! ## The block's contribution to one bin -/

/-- The "counts" float of the kernel at an entry is the specification's indicator. -/
theorem pay3_apply (x2 : Vec Ideal S8192x80 .f32) (i : S8192x80.Idx) : k0_pay3 (F := Ideal) x2 i = Cert.Spec.valid (x2 i) :=
  Cert.Spec.valid_of_sitofp (x2 i)

/-- The bin word of the kernel at an entry is the specification's. -/
theorem pay4_apply (x0 x1 : Vec Ideal S8192x80 .f32) (i : S8192x80.Idx) :
    k0_pay4 (F := Ideal) x0 x1 i = Cert.Spec.binw (x0 i) (x1 i) := rfl

/-- How many counted entries of a block fall in bin `j`. -/
def tileCnt (x0 x1 x2 : Vec Ideal S8192x80 .f32) (j : Fin 10) : EReal :=
  ∑ r : Fin 8192, ∑ l : Fin 80,
    if (Cert.Spec.bin (x0 (ix2 r l)) (x1 (ix2 r l))).val = j.val then Cert.Spec.valid (x2 (ix2 r l)) else 0

/-- With the kernel's bin word and "counts" float, the sum for the word of `j` is the block's number of counted entries in
    bin `j`. -/
theorem binSum_eq (x0 x1 x2 : Vec Ideal S8192x80 .f32) (j : Fin 10) :
    binSum (k0_pay3 (F := Ideal) x2) (k0_pay4 (F := Ideal) x0 x1) (BitVec.ofNat 32 j.val) = tileCnt x0 x1 x2 j := by
  unfold binSum tileCnt
  refine Finset.sum_congr rfl fun r _ => Finset.sum_congr rfl fun l _ => ?_
  rw [pay3_apply, pay4_apply]
  by_cases h : (Cert.Spec.bin (x0 (ix2 r l)) (x1 (ix2 r l))).val = j.val
  · rw [if_pos h, if_pos ((Cert.Spec.binw_eq_ofNat_iff _ _ j).mpr h)]
  · rw [if_neg h, if_neg (fun hc => h ((Cert.Spec.binw_eq_ofNat_iff _ _ j).mp hc))]

/-! ## The ten counts after one point -/

/-- What one grid point leaves in the ten running counts: a function of the point's three blocks and of the counts it
    finds (at any float values). -/
def upd (x0 x1 x2 : Vec F S8192x80 .f32) (xs : Vec F S1x10 .f32) : Vec F S1x10 .f32 :=
  k0_pay1 (k0_pay8 (k0_pay3 x2) (k0_pay4 x0 x1) xs) (k0_pay9 (k0_pay3 x2) (k0_pay4 x0 x1) xs)
    (k0_pay10 (k0_pay3 x2) (k0_pay4 x0 x1) xs) (k0_pay13 (k0_pay11 (k0_pay3 x2) (k0_pay4 x0 x1)) (k0_pay12 xs))
    (k0_pay14 (k0_pay3 x2) (k0_pay4 x0 x1) xs) (k0_pay15 (k0_pay3 x2) (k0_pay4 x0 x1) xs)
    (k0_pay16 (k0_pay3 x2) (k0_pay4 x0 x1) xs) (k0_pay17 (k0_pay3 x2) (k0_pay4 x0 x1) xs)
    (k0_pay18 (k0_pay5 x0 x1 x2 xs)) (k0_pay19 (k0_pay7 xs (k0_pay6 x0 x1 x2)))

/-- One count's update in the kernel's spelling: the old count `j` read out of the vector of counts, plus the sum over
    the block of the indicator of bin `j` times the "counts" float. -/
theorem cnt_eq (x0 x1 x2 : Vec Ideal S8192x80 .f32) (xs : Vec Ideal S1x10 .f32) (j : Fin 10) (k : ℕ) (hjk : j.val = k)
    (w : BitVec 32) (hw : w = BitVec.ofNat 32 j.val)
    (hsl : S1x10.Slices ![0, k] S1x1) (hin : ∀ a, (![0, 0] : Fin 2 → Nat) a < S1x1.size a)
    (h1 : (1 : ℕ) < 32) (hsc : S8192x80.ShapeCasts S1x8192x80) (hred : S1x8192x80.Reduces [1, 2] S1)
    (hφ : FKind.Formats .f32) (hacc : (0x00000000#32 : BitVec 32) = FKind.add.neutral .f32 hφ)
    (hsc2 : S1.ShapeCasts S1x1x1) (hpos : ∀ a, (![0, 0, 0] : Fin 3 → Nat) a < S1x1x1.size a) :
    Scalar.addf (F := Ideal) (φ := .f32) (extractAt ![0, 0] (extractStridedSlice S1x1 ![0, k] xs hsl) hin)
      (extractAt ![0, 0, 0] (shapeCast S1x1x1 (multiReduction (F := Ideal) .add [1, 2] S1
        (shapeCast S1x8192x80 (mulf (sitofp .f32 (extui 32 (cmpi .eq (k0_pay4 (F := Ideal) x0 x1) (broadcast S8192x80 w)) h1))
          (k0_pay3 (F := Ideal) x2)) hsc)
        0x00000000#32 hred hφ hacc) hsc2) hpos)
      = xs (ix2 (0 : Fin 1) j) + tileCnt x0 x1 x2 j := by
  subst hw
  subst hjk
  rw [addf_red_eq, slice_extract xs j.val j.isLt, binSum_eq]

/-- Entry `(0, j)` of the new counts: the old count `j` plus the block's number of counted entries in bin `j`. -/
theorem upd_apply (x0 x1 x2 : Vec Ideal S8192x80 .f32) (xs : Vec Ideal S1x10 .f32) (j : Fin 10) :
    upd (F := Ideal) x0 x1 x2 xs (ix2 (0 : Fin 1) j) = xs (ix2 (0 : Fin 1) j) + tileCnt x0 x1 x2 j := by
  unfold upd k0_pay1
  rw [shapeCast_self, shapeCast_a_1a_apply]
  refine (concat10_apply ![k0_pay18 (k0_pay5 x0 x1 x2 xs), k0_pay19 (k0_pay7 xs (k0_pay6 x0 x1 x2)),
    broadcast S1 (k0_pay8 (k0_pay3 x2) (k0_pay4 x0 x1) xs), broadcast S1 (k0_pay9 (k0_pay3 x2) (k0_pay4 x0 x1) xs),
    broadcast S1 (k0_pay10 (k0_pay3 x2) (k0_pay4 x0 x1) xs),
    broadcast S1 (k0_pay13 (k0_pay11 (k0_pay3 x2) (k0_pay4 x0 x1)) (k0_pay12 xs)),
    broadcast S1 (k0_pay14 (k0_pay3 x2) (k0_pay4 x0 x1) xs), broadcast S1 (k0_pay15 (k0_pay3 x2) (k0_pay4 x0 x1) xs),
    broadcast S1 (k0_pay16 (k0_pay3 x2) (k0_pay4 x0 x1) xs), broadcast S1 (k0_pay17 (k0_pay3 x2) (k0_pay4 x0 x1) xs)]
    _ j).trans ?_
  fin_cases j
  · exact cnt_eq x0 x1 x2 xs 0 0 rfl 0#32 rfl _ _ _ _ _ _ _ _ _
  · exact cnt_eq x0 x1 x2 xs 1 1 rfl 1#32 rfl _ _ _ _ _ _ _ _ _
  · exact cnt_eq x0 x1 x2 xs 2 2 rfl 2#32 rfl _ _ _ _ _ _ _ _ _
  · exact cnt_eq x0 x1 x2 xs 3 3 rfl 3#32 rfl _ _ _ _ _ _ _ _ _
  · exact cnt_eq x0 x1 x2 xs 4 4 rfl 4#32 rfl _ _ _ _ _ _ _ _ _
  · exact cnt_eq x0 x1 x2 xs 5 5 rfl 5#32 rfl slices_S1x10_o0_5_S1x1 inpos_S1x1_p0_0 natLt_1_32
      shapeCasts_S8192x80_S1x8192x80 reduces_S1x8192x80_S1 (.inl rfl) rfl shapeCasts_S1_S1x1x1 inpos_S1x1x1_p0_0_0
  · exact cnt_eq x0 x1 x2 xs 6 6 rfl 6#32 rfl _ _ _ _ _ _ _ _ _
  · exact cnt_eq x0 x1 x2 xs 7 7 rfl 7#32 rfl _ _ _ _ _ _ _ _ _
  · exact cnt_eq x0 x1 x2 xs 8 8 rfl 8#32 rfl _ _ _ _ _ _ _ _ _
  · exact cnt_eq x0 x1 x2 xs 9 9 rfl 9#32 rfl _ _ _ _ _ _ _ _ _

/-! ## What each kind of point leaves, as that function -/

/-- A middle point leaves `upd` of its blocks and of the counts it found: its one store covers the scratch. -/
theorem mid_piece (c : Dev nD) (i : grid0.Coords) (a1 : Memref sig .tc .vmem S8192x80 .f32) (h1 : a1.IsWhole) (a2 : Memref sig .tc .vmem S8192x80 .f32) (h2 : a2.IsWhole) (a3 : Memref sig .tc .vmem S8192x80 .f32) (h3 : a3.IsWhole) (a4 : Memref sig .tc .vmem S1x10 .f32) (h4 : a4.IsWhole) (a5 : Memref sig .tc .vmem S1x10 .f32) (h5 : a5.IsWhole) (hc0 : ¬isFirst i) (hc1 : ¬isLast i)
    (x0 x1 x2 : Vec F S8192x80 .f32) (xs : Vec F S1x10 .f32) :
    View.canon (runMid c i a1 h1 a2 h2 a3 h3 a4 h4 a5 h5 hc0 hc1 x0 x1 x2 xs).1 = upd x0 x1 x2 xs := by
  unfold runMid upd
  dsimp only
  sl_unfold_words
  rw [View.canon_unit_zero hz2]
  simp only [View.readAt_eq_ld, h1.read_unread, h2.read_unread, h3.read_unread, h5.read_unread, View.ld_unit_zero (S := S8192x80) hz2, View.ld_unit_zero (S := S1x10) hz2]

/-- The first point leaves `upd` of its blocks and of the zero vector: it stores the zero vector, reads it back, and
    stores the update over it. -/
theorem first_piece (c : Dev nD) (i : grid0.Coords) (a1 : Memref sig .tc .vmem S8192x80 .f32) (h1 : a1.IsWhole) (a2 : Memref sig .tc .vmem S8192x80 .f32) (h2 : a2.IsWhole) (a3 : Memref sig .tc .vmem S8192x80 .f32) (h3 : a3.IsWhole) (a4 : Memref sig .tc .vmem S1x10 .f32) (h4 : a4.IsWhole) (a5 : Memref sig .tc .vmem S1x10 .f32) (h5 : a5.IsWhole) (hc0 : isFirst i) (hc1 : ¬isLast i)
    (x0 x1 x2 : Vec F S8192x80 .f32) :
    View.canon (runFirst c i a1 h1 a2 h2 a3 h3 a4 h4 a5 h5 hc0 hc1 x0 x1 x2).1 = upd x0 x1 x2 (k0_pay2 (F := F)) := by
  unfold runFirst upd
  dsimp only
  sl_unfold_words
  rw [View.canon_cons_unit_zero (S := S1x10) hz2]
  simp only [View.readAt_eq_ld, h1.read_unread, h2.read_unread, h3.read_unread, h5.read_unread, View.ld_unit_zero (S := S8192x80) hz2, View.ld_unit_zero (S := S1x10) hz2, View.readCov_unit_zero (S := S1x10) _ hz2]

/-- The last point leaves the same in the scratch … -/
theorem lastS_piece (c : Dev nD) (i : grid0.Coords) (a1 : Memref sig .tc .vmem S8192x80 .f32) (h1 : a1.IsWhole) (a2 : Memref sig .tc .vmem S8192x80 .f32) (h2 : a2.IsWhole) (a3 : Memref sig .tc .vmem S8192x80 .f32) (h3 : a3.IsWhole) (a4 : Memref sig .tc .vmem S1x10 .f32) (h4 : a4.IsWhole) (a5 : Memref sig .tc .vmem S1x10 .f32) (h5 : a5.IsWhole) (hc0 : ¬isFirst i) (hc1 : isLast i)
    (x0 x1 x2 : Vec F S8192x80 .f32) (xs : Vec F S1x10 .f32) :
    View.canon (runLast c i a1 h1 a2 h2 a3 h3 a4 h4 a5 h5 hc0 hc1 x0 x1 x2 xs).2.1 = upd x0 x1 x2 xs := by
  unfold runLast upd
  dsimp only
  sl_unfold_words
  rw [View.canon_unit_zero hz2]
  simp only [View.readAt_eq_ld, h1.read_unread, h2.read_unread, h3.read_unread, h5.read_unread, View.ld_unit_zero (S := S8192x80) hz2, View.ld_unit_zero (S := S1x10) hz2]

/-- … and copies it to the output block: the scratch read back after the update's store. -/
theorem lastO_piece (c : Dev nD) (i : grid0.Coords) (a1 : Memref sig .tc .vmem S8192x80 .f32) (h1 : a1.IsWhole) (a2 : Memref sig .tc .vmem S8192x80 .f32) (h2 : a2.IsWhole) (a3 : Memref sig .tc .vmem S8192x80 .f32) (h3 : a3.IsWhole) (a4 : Memref sig .tc .vmem S1x10 .f32) (h4 : a4.IsWhole) (a5 : Memref sig .tc .vmem S1x10 .f32) (h5 : a5.IsWhole) (hc0 : ¬isFirst i) (hc1 : isLast i)
    (x0 x1 x2 : Vec F S8192x80 .f32) (xs : Vec F S1x10 .f32) :
    View.canon (runLast c i a1 h1 a2 h2 a3 h3 a4 h4 a5 h5 hc0 hc1 x0 x1 x2 xs).1 = upd x0 x1 x2 xs := by
  unfold runLast upd
  dsimp only
  sl_unfold_words
  rw [View.canon_unit_zero hz2]
  simp only [View.readAt_eq_ld, h1.read_unread, h2.read_unread, h3.read_unread, h5.read_unread, View.ld_unit_zero (S := S8192x80) hz2, View.ld_unit_zero (S := S1x10) hz2, View.readCov_unit_zero (S := S1x10) _ hz2]

/-! ## The launch at the ideal instance -/

variable (V : (c : Dev nD) → (b : Ref sig .tc) → Buf (Elt Ideal) ((c : Thread nD τ).loc b))

/-- The three argument arrays as the launch finds them and the output array as it leaves it, each at its literal type. -/
abbrev pA (c : Dev nD) : Cert.Spec.SA.Idx → EReal := V c main_arg0
abbrev tA (c : Dev nD) : Cert.Spec.SA.Idx → EReal := V c main_arg1
abbrev wA (c : Dev nD) : Cert.Spec.SA.Idx → EReal := V c main_arg2
abbrev outA (c : Dev nD) : (⟨2, ![1, 10]⟩ : Shape).Idx → EReal := (dat (F := Ideal) V c).arrAt 3 cfg0.N

/-- The three input blocks at a point, each at its literal type. -/
abbrev blk0 (c : Dev nD) (t : Fin cfg0.N) : Vec Ideal S8192x80 .f32 := iblk (F := Ideal) V c 0 t
abbrev blk1 (c : Dev nD) (t : Fin cfg0.N) : Vec Ideal S8192x80 .f32 := iblk (F := Ideal) V c 1 t
abbrev blk2 (c : Dev nD) (t : Fin cfg0.N) : Vec Ideal S8192x80 .f32 := iblk (F := Ideal) V c 2 t

/-- Rows 8192·T … 8192·T + 8191 of an input array, as a block (zero past the array's end, which no point reaches). -/
def tileOf (p : Cert.Spec.SA.Idx → EReal) (T : ℕ) : Vec Ideal S8192x80 .f32 :=
  fun i => if h : 8192 * T + (i 0).val < 262144 then p (ix2 (⟨8192 * T + (i 0).val, h⟩ : Fin 262144) (⟨(i 1).val, idx2_lt1 i⟩ : Fin 80)) else 0

/-- Every input window's block index at point `t` is `(t, 0)`. -/
theorem idx_facts : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0))

/-- A point's block of the first array is its tile: the block's entry `(r, l)` sits at row `8192·t + r`. -/
theorem blk0_eq (c : Dev nD) (t : Fin cfg0.N) : blk0 V c t = tileOf (pA V c) t.val := by
  have hN : cfg0.N = 32 := N_0
  have ht := t.isLt
  have hi := (idx_facts t).1
  funext i
  have h0 := idx2_lt0 i
  unfold tileOf
  rw [dif_pos (by omega)]
  unfold blk0 iblk
  rw [View.read_apply]
  show V c main_arg0 _ = V c main_arg0 _
  congr 1
  funext a
  apply Fin.ext
  match a with
  | ⟨0, _⟩ => show win0_0.index t 0 * 8192 + 1 * (i 0).val = 8192 * t.val + (i 0).val; rw [hi.1]; omega
  | ⟨1, _⟩ => show win0_0.index t 1 * 80 + 1 * (i 1).val = (i 1).val; rw [hi.2]; omega

/-- The same for the second array. -/
theorem blk1_eq (c : Dev nD) (t : Fin cfg0.N) : blk1 V c t = tileOf (tA V c) t.val := by
  have hN : cfg0.N = 32 := N_0
  have ht := t.isLt
  have hi := (idx_facts t).2.1
  funext i
  have h0 := idx2_lt0 i
  unfold tileOf
  rw [dif_pos (by omega)]
  unfold blk1 iblk
  rw [View.read_apply]
  show V c main_arg1 _ = V c main_arg1 _
  congr 1
  funext a
  apply Fin.ext
  match a with
  | ⟨0, _⟩ => show win0_1.index t 0 * 8192 + 1 * (i 0).val = 8192 * t.val + (i 0).val; rw [hi.1]; omega
  | ⟨1, _⟩ => show win0_1.index t 1 * 80 + 1 * (i 1).val = (i 1).val; rw [hi.2]; omega

/-- The same for the third array. -/
theorem blk2_eq (c : Dev nD) (t : Fin cfg0.N) : blk2 V c t = tileOf (wA V c) t.val := by
  have hN : cfg0.N = 32 := N_0
  have ht := t.isLt
  have hi := (idx_facts t).2.2
  funext i
  have h0 := idx2_lt0 i
  unfold tileOf
  rw [dif_pos (by omega)]
  unfold blk2 iblk
  rw [View.read_apply]
  show V c main_arg2 _ = V c main_arg2 _
  congr 1
  funext a
  apply Fin.ext
  match a with
  | ⟨0, _⟩ => show win0_2.index t 0 * 8192 + 1 * (i 0).val = 8192 * t.val + (i 0).val; rw [hi.1]; omega
  | ⟨1, _⟩ => show win0_2.index t 1 * 80 + 1 * (i 1).val = (i 1).val; rw [hi.2]; omega

/-- A tile's entry is the array's entry 8192·T rows further down. -/
theorem tileOf_apply (p : Cert.Spec.SA.Idx → EReal) (T : Fin 32) (r : Fin 8192) (l : Fin 80) :
    tileOf p T.val (ix2 r l) = p (ix2 (⟨8192 * T.val + r.val, by omega⟩ : Fin 262144) l) := by
  unfold tileOf
  exact dif_pos (show 8192 * T.val + r.val < 262144 by omega)

/-- The vector the first point resets the counts to is zero everywhere. -/
theorem zero_apply (i : S1x10.Idx) : k0_pay2 (F := Ideal) i = 0 := by
  unfold k0_pay2
  rw [shapeCast_self]
  exact BitFloat.scalar_zero_f32

/-! ### The counts after each kind of point -/

/-- After the first point count `j` is the first block's number of counted entries in bin `j`. -/
theorem scrFirst_apply (c : Dev nD) (t : Fin cfg0.N) (h0 : t.val = 0) (j : Fin 10) :
    (scrFirst (F := Ideal) V c t h0 : Vec Ideal S1x10 .f32) (ix2 (0 : Fin 1) j)
      = tileCnt (blk0 V c t) (blk1 V c t) (blk2 V c t) j := by
  unfold scrFirst
  refine (congrFun (first_piece (F := Ideal) c (grid0.coords t) (ms0 t) (hs0 t) (ms1 t) (hs1 t) (ms2 t) (hs2 t) (ms3 t) (hs3 t) scM
    (Memref.isWhole_whole _) ((isFirst_iff t).mpr h0) (notLast t (ne31_of_zero t h0)) (blk0 V c t) (blk1 V c t) (blk2 V c t))
    (ix2 (0 : Fin 1) j)).trans ?_
  rw [upd_apply, zero_apply, zero_add]

/-- A middle point adds its block's number to the count it found. -/
theorem scrMid_apply (c : Dev nD) (t : Fin cfg0.N) (h0 : t.val ≠ 0) (h1 : t.val ≠ 31) (xs : Vec Ideal S1x10 .f32) (j : Fin 10) :
    (scrMid (F := Ideal) V c t h0 h1 xs : Vec Ideal S1x10 .f32) (ix2 (0 : Fin 1) j)
      = xs (ix2 (0 : Fin 1) j) + tileCnt (blk0 V c t) (blk1 V c t) (blk2 V c t) j := by
  unfold scrMid
  refine (congrFun (mid_piece (F := Ideal) c (grid0.coords t) (ms0 t) (hs0 t) (ms1 t) (hs1 t) (ms2 t) (hs2 t) (ms3 t) (hs3 t) scM
    (Memref.isWhole_whole _) (notFirst t h0) (notLast t h1) (blk0 V c t) (blk1 V c t) (blk2 V c t) xs)
    (ix2 (0 : Fin 1) j)).trans ?_
  rw [upd_apply]

/-- So does the last point, in the scratch … -/
theorem scrLast_apply (c : Dev nD) (t : Fin cfg0.N) (h1 : t.val = 31) (xs : Vec Ideal S1x10 .f32) (j : Fin 10) :
    (scrLast (F := Ideal) V c t h1 xs : Vec Ideal S1x10 .f32) (ix2 (0 : Fin 1) j)
      = xs (ix2 (0 : Fin 1) j) + tileCnt (blk0 V c t) (blk1 V c t) (blk2 V c t) j := by
  unfold scrLast
  refine (congrFun (lastS_piece (F := Ideal) c (grid0.coords t) (ms0 t) (hs0 t) (ms1 t) (hs1 t) (ms2 t) (hs2 t) (ms3 t) (hs3 t) scM
    (Memref.isWhole_whole _) (notFirst t (ne0_of_31 t h1)) ((isLast_iff t).mpr h1) (blk0 V c t) (blk1 V c t) (blk2 V c t) xs)
    (ix2 (0 : Fin 1) j)).trans ?_
  rw [upd_apply]

/-- … and in the output block. -/
theorem outLast_apply (c : Dev nD) (t : Fin cfg0.N) (h1 : t.val = 31) (xs : Vec Ideal S1x10 .f32) (j : Fin 10) :
    (outLast (F := Ideal) V c t h1 xs : Vec Ideal S1x10 .f32) (ix2 (0 : Fin 1) j)
      = xs (ix2 (0 : Fin 1) j) + tileCnt (blk0 V c t) (blk1 V c t) (blk2 V c t) j := by
  unfold outLast
  refine (congrFun (lastO_piece (F := Ideal) c (grid0.coords t) (ms0 t) (hs0 t) (ms1 t) (hs1 t) (ms2 t) (hs2 t) (ms3 t) (hs3 t) scM
    (Memref.isWhole_whole _) (notFirst t (ne0_of_31 t h1)) ((isLast_iff t).mpr h1) (blk0 V c t) (blk1 V c t) (blk2 V c t) xs)
    (ix2 (0 : Fin 1) j)).trans ?_
  rw [upd_apply]

/-! ### The counts point by point -/

/-- The counted entries of bin `j` among the rows of the first `n` tiles. -/
def partCnt (c : Dev nD) (j : Fin 10) (n : ℕ) : EReal :=
  ∑ T ∈ Finset.range n, tileCnt (tileOf (pA V c) T) (tileOf (tA V c) T) (tileOf (wA V c) T) j

/-- One more tile adds its number. -/
theorem partCnt_succ (c : Dev nD) (j : Fin 10) (n : ℕ) :
    partCnt V c j (n + 1) = partCnt V c j n + tileCnt (tileOf (pA V c) n) (tileOf (tA V c) n) (tileOf (wA V c) n) j :=
  Finset.sum_range_succ _ n

/-- After point `n` count `j` is the number of counted entries of bin `j` among the rows of tiles 0 … n. -/
theorem scrAt_apply (c : Dev nD) (j : Fin 10) : ∀ (n : ℕ) (hn : n < cfg0.N),
    (scrAt (F := Ideal) V c n hn : Vec Ideal S1x10 .f32) (ix2 (0 : Fin 1) j) = partCnt V c j (n + 1)
  | 0, hn => by
    show (scrFirst (F := Ideal) V c ⟨0, hn⟩ rfl : Vec Ideal S1x10 .f32) (ix2 (0 : Fin 1) j) = _
    rw [scrFirst_apply, blk0_eq, blk1_eq, blk2_eq, partCnt_succ]
    show _ = partCnt V c j 0 + _
    rw [show partCnt V c j 0 = 0 from Finset.sum_range_zero _, zero_add]
  | n + 1, hn => by
    rw [partCnt_succ, ← scrAt_apply c j n (Nat.lt_of_succ_lt hn)]
    by_cases h : n + 1 = 31
    · rw [show scrAt (F := Ideal) V c (n + 1) hn = scrLast V c ⟨n + 1, hn⟩ h (scrAt V c n (Nat.lt_of_succ_lt hn)) from dif_pos h,
        scrLast_apply, blk0_eq, blk1_eq, blk2_eq]
    · rw [show scrAt (F := Ideal) V c (n + 1) hn = scrMid V c ⟨n + 1, hn⟩ (Nat.succ_ne_zero n) h (scrAt V c n (Nat.lt_of_succ_lt hn)) from dif_neg h,
        scrMid_apply, blk0_eq, blk1_eq, blk2_eq]

/-! ### The output array after the launch -/

/-- The last grid point. -/
abbrev tLast : Fin cfg0.N := ⟨31, by rw [show cfg0.N = 32 from N_0]; decide⟩

/-- What the last point leaves in the output block, as contents of the output array (its one block is the array). -/
abbrev result (c : Dev nD) : Buf (Elt Ideal) ((c : Thread nD τ).loc main_v0) := outAt (F := Ideal) V c tLast

/-- The one write-back, at the last point, writes it: the output's block sits at offsets zero and is the whole array. -/
theorem flushed_eq (c : Dev nD) (t : Fin cfg0.N) (hf : (cfg0.win 3).flush t = true) :
    (dat (F := Ideal) V c).flushed 3 t = ((cfg0.win 3).blk t).view.read (Elt Ideal) (result V c) := by
  have hN : cfg0.N = 32 := N_0
  have h31 : t.val = 31 := by have := (flush0_3 t).mp hf; have := t.isLt; omega
  obtain rfl : t = tLast := Fin.ext h31
  show (cfg0.win 3).cut (grid0.coords tLast) ((dat (F := Ideal) V c).after 3 tLast) = _
  rw [after3]
  have hoff : (fun a => win0_3.index tLast a * main_v0.ty.shape.size a) = fun _ => 0 :=
    funext fun a => by fin_cases a <;> decide +kernel
  exact (Memref.read_access_unit_zero (Elt Ideal) main_v0 hoff (fun a => by rw [congrFun hoff a]; simp) (result V c)).symm

/-- So the output array ends holding what the last point left. -/
theorem out_final (c : Dev nD) : outA V c = result V c :=
  (dat (F := Ideal) V c).arrAt_eq_of_cover 3 (result V c) (flushed_eq V c) fun i =>
    ⟨tLast, (flush0_3 tLast).mpr rfl, by
      show i ∈ ((View.whole main_v0).slice (win0_3.rect tLast)).set
      rw [View.set_slice_whole, Rect.mem_set_unit]
      intro a
      have h0 : (i 0 : Nat) < 1 := (i 0).isLt
      have h1 : (i 1 : Nat) < 10 := (i 1).isLt
      match a with
      | ⟨0, _⟩ =>
        show win0_3.index tLast 0 * win0_3.size 0 ≤ (i 0 : Nat) ∧ (i 0 : Nat) < win0_3.index tLast 0 * win0_3.size 0 + win0_3.xsize (grid0.coords tLast) 0
        rw [show win0_3.index tLast 0 * win0_3.size 0 = 0 from by decide +kernel, show win0_3.xsize (grid0.coords tLast) 0 = 1 from by decide +kernel]
        omega
      | ⟨1, _⟩ =>
        show win0_3.index tLast 1 * win0_3.size 1 ≤ (i 1 : Nat) ∧ (i 1 : Nat) < win0_3.index tLast 1 * win0_3.size 1 + win0_3.xsize (grid0.coords tLast) 1
        rw [show win0_3.index tLast 1 * win0_3.size 1 = 0 from by decide +kernel, show win0_3.xsize (grid0.coords tLast) 1 = 10 from by decide +kernel]
        omega⟩

/-- After the launch the output array's entry `j` is the number of counted entries in bin `j`. -/
theorem hist_out (c : Dev nD) (j : Fin 10) :
    outA V c (ix2 (0 : Fin 1) j) = Cert.Spec.cnt (pA V c) (tA V c) (wA V c) (ix1 j) := by
  rw [out_final]
  show (outAt (F := Ideal) V c tLast : Vec Ideal S1x10 .f32) (ix2 (0 : Fin 1) j) = _
  rw [outAt_last V c tLast rfl, outLast_apply, scrAt_apply, blk0_eq, blk1_eq, blk2_eq]
  show partCnt V c j 31 + tileCnt (tileOf (pA V c) 31) (tileOf (tA V c) 31) (tileOf (wA V c) 31) j = _
  rw [← partCnt_succ]
  show ∑ T ∈ Finset.range 32, tileCnt (tileOf (pA V c) T) (tileOf (tA V c) T) (tileOf (wA V c) T) j
    = ∑ e : Cert.Spec.SA.Idx, if (Cert.Spec.bin (pA V c e) (tA V c e)).val = j.val then Cert.Spec.valid (wA V c e) else 0
  rw [Cert.Spec.sum_tiles, Finset.sum_range]
  refine Finset.sum_congr rfl fun T _ => ?_
  unfold tileCnt
  refine Finset.sum_congr rfl fun r _ => Finset.sum_congr rfl fun l _ => ?_
  rw [tileOf_apply, tileOf_apply, tileOf_apply]

end Cert.KernelIdeal.Hist

end
-- ==== Proof.LossValue.lean ====
/- What the loss launch leaves in its output array, at the ideal instance: the sum over all entries of the entry's cross
   entropy times its bin's weight (read off the launch's fourth operand) where the entry counts.

   The road. Each grid point leaves in the running sum's scratch ONE store, whose payload is one fixed function (`step`)
   of the point's three input blocks, the weights and the old sum (the first point: of the reset sum). Read at the ideal
   instance, that function's one entry is the old sum plus the block's double sum over rows and lanes of
   (cross entropy) × (picked weight × indicator): the reduction over the two long axes is a sum over the whole index set,
   the ten selects on the bin word pick the bin's weight, the compare-and-convert is the indicator, the softplus spelling
   is the cross entropy. By induction on the point the scratch holds the sum of what the points so far added; a block's
   entry is the array's entry 8192·t rows further down; the last point copies the scratch to the output block, which is
   the whole one-entry array and is written back then only; and the 32 tiles of 8192 rows are all 262144 rows. -/
import proofs.«130534_j1580547966503_1_alg».proof.Proof.LossRegion
import proofs.«130534_j1580547966503_1_alg».proof.Proof.Spec
import proofs.«130534_j1580547966503_1_alg».proof.Proof.SpecLemmas
import Idealize.ShloMosaic.PureOps.Ideal.Laws
import Idealize.ShloMosaic.Lib.ValueIdx
import Idealize.ShloMosaic.Lib.Pipeline.Value

set_option maxRecDepth 16384

noncomputable section

namespace Cert.KernelIdeal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-! ## What each kind of point leaves, as one function of its blocks (any instance) -/

section Pieces

variable (V : (c : Dev nD) → (b : Ref sig .tc) → Buf (Elt F) ((c : Thread nD τ).loc b))

/-- The two zero offsets of a whole 2-axis block, however spelt. -/
theorem zeroOff : (![0, 0] : Fin 2 → Nat) = fun _ => 0 := funext fun a => by fin_cases a <;> rfl

/-- A point's new running sum as one function of the three input blocks, the weights and the old sum:
    the old sum plus the block's total of (cross entropy) × (picked weight × counts). -/
def step (x0 x1 x2 : Vec F S8192x80 .f32) (x3 : Vec F S1x10 .f32) (xs : Vec F S1x1 .f32) : Vec F S1x1 .f32 :=
  k1_pay1 x0 x1 (k1_pay9 (k1_pay3 x2) (k1_pay4 x0 x1) (k1_pay5 x3) (k1_pay6 x0 x1 x3) (k1_pay7 x0 x1) (k1_pay8 x3))
    (k1_pay10 x0) (k1_pay11 x0) (k1_pay12 x0) (k1_pay13 x0) xs

/-- The running sum's reset: the zero block. -/
def zeroSum : Vec F S1x1 .f32 := k1_pay2 (F := F)

/-- A middle point leaves the step over what the point before left. -/
theorem mid_eq (c : Dev nD) (t : Fin cfg1.N) (h0 : t.val ≠ 0) (h1 : t.val ≠ 31) (xs : Vec F S1x1 .f32) :
    scrMid V c t h0 h1 xs = step (iblk V c 0 t) (iblk V c 1 t) (iblk V c 2 t) (iblk V c 3 t) xs := by
  unfold scrMid
  unfold runMid
  dsimp only
  sl_unfold_words
  rw [View.canon_unit_zero zeroOff]
  simp only [View.readAt_eq_ld, (hs0 t).read_unread, (hs1 t).read_unread, (hs2 t).read_unread, (hs3 t).read_unread,
    (Memref.isWhole_whole cc1_scratch0).read_unread, View.ld_unit_zero (S := S8192x80) zeroOff, View.ld_unit_zero (S := S1x10) zeroOff,
    View.ld_unit_zero (S := S1x1) zeroOff]
  rfl

/-- The first point resets the sum, reads the reset back and leaves the step over zero. -/
theorem first_eq (c : Dev nD) (t : Fin cfg1.N) (h0 : t.val = 0) :
    scrFirst V c t h0 = step (iblk V c 0 t) (iblk V c 1 t) (iblk V c 2 t) (iblk V c 3 t) (zeroSum (F := F)) := by
  unfold scrFirst
  unfold runFirst
  dsimp only
  sl_unfold_words
  rw [View.canon_cons_unit_zero (S := S1x1) zeroOff]
  simp only [View.readAt_eq_ld, (hs0 t).read_unread, (hs1 t).read_unread, (hs2 t).read_unread, (hs3 t).read_unread,
    View.ld_unit_zero (S := S8192x80) zeroOff, View.ld_unit_zero (S := S1x10) zeroOff,
    View.ld_unit_zero (S := S1x1) zeroOff, View.readCov_unit_zero (S := S1x1) _ zeroOff]
  rfl

/-- The last point leaves the step in the scratch … -/
theorem lastS_eq (c : Dev nD) (t : Fin cfg1.N) (h1 : t.val = 31) (xs : Vec F S1x1 .f32) :
    scrLast V c t h1 xs = step (iblk V c 0 t) (iblk V c 1 t) (iblk V c 2 t) (iblk V c 3 t) xs := by
  unfold scrLast
  unfold runLast
  dsimp only
  sl_unfold_words
  rw [View.canon_unit_zero zeroOff]
  simp only [View.readAt_eq_ld, (hs0 t).read_unread, (hs1 t).read_unread, (hs2 t).read_unread, (hs3 t).read_unread,
    (Memref.isWhole_whole cc1_scratch0).read_unread, View.ld_unit_zero (S := S8192x80) zeroOff, View.ld_unit_zero (S := S1x10) zeroOff,
    View.ld_unit_zero (S := S1x1) zeroOff]
  rfl

/-- … and copies it to the output block. -/
theorem lastO_eq (c : Dev nD) (t : Fin cfg1.N) (h1 : t.val = 31) (xs : Vec F S1x1 .f32) :
    outLast V c t h1 xs = step (iblk V c 0 t) (iblk V c 1 t) (iblk V c 2 t) (iblk V c 3 t) xs := by
  unfold outLast
  unfold runLast
  dsimp only
  sl_unfold_words
  rw [View.canon_unit_zero zeroOff]
  simp only [View.readAt_eq_ld, (hs0 t).read_unread, (hs1 t).read_unread, (hs2 t).read_unread, (hs3 t).read_unread,
    (Memref.isWhole_whole cc1_scratch0).read_unread, View.ld_unit_zero (S := S8192x80) zeroOff, View.ld_unit_zero (S := S1x10) zeroOff,
    View.ld_unit_zero (S := S1x1) zeroOff, View.readCov_unit_zero (S := S1x1) _ zeroOff]
  rfl

end Pieces

/-! ## The arithmetic of one point, at the ideal instance -/

section Pure

variable (x0 x1 x2 : Vec Ideal S8192x80 .f32) (x3 : Vec Ideal S1x10 .f32) (xs : Vec Ideal S1x1 .f32)

/-- The "counts" factor at an entry is the indicator of a positive label weight. -/
theorem pay3_apply (i : S8192x80.Idx) : k1_pay3 (F := Ideal) x2 i = Cert.Spec.valid (x2 i) :=
  Cert.Spec.valid_of_sitofp (x2 i)

/-- The bin word at an entry is the specification's. -/
theorem pay4_apply (i : S8192x80.Idx) : k1_pay4 (F := Ideal) x0 x1 i = Cert.Spec.binw (x0 i) (x1 i) := rfl

/-- The weights' vector, cast to its own shape, is itself. -/
theorem pay5_eq : k1_pay5 (F := Ideal) x3 = x3 := shapeCast_self _ _

/-- Slot `k` of the weights, cut out as a 1×1 block and read at its one position, is the weight of bin `k`. -/
theorem slot (k : ℕ) (hk : k < 10) (hs : S1x10.Slices ![0, k] S1x1) (hp : ∀ a, (![0, 0] : Fin 2 → Nat) a < S1x1.size a) :
    extractAt ![0, 0] (extractStridedSlice S1x1 ![0, k] x3 hs) hp = x3 (ix2 (0 : Fin 1) (⟨k, hk⟩ : Fin 10)) := by
  unfold extractAt extractStridedSlice
  refine congrArg x3 (funext fun a => Fin.ext ?_)
  match a with
  | ⟨0, _⟩ => rfl
  | ⟨1, _⟩ => show k + 0 = k; rfl

/-- Ten selects on a word below ten, from the last bin's down to the first's, pick the scalar at the word's value. -/
theorem pick10 {α : Type} (b : BitVec 32) (hb : b.toNat < 10) (w : Fin 10 → α) (z : α) :
    Scalar.select (IntOp.cmpi .eq b 9#32) (w ⟨9, by decide⟩)
      (Scalar.select (IntOp.cmpi .eq b 8#32) (w ⟨8, by decide⟩)
      (Scalar.select (IntOp.cmpi .eq b 7#32) (w ⟨7, by decide⟩)
      (Scalar.select (IntOp.cmpi .eq b 6#32) (w ⟨6, by decide⟩)
      (Scalar.select (IntOp.cmpi .eq b 5#32) (w ⟨5, by decide⟩)
      (Scalar.select (IntOp.cmpi .eq b 4#32) (w ⟨4, by decide⟩)
      (Scalar.select (IntOp.cmpi .eq b 3#32) (w ⟨3, by decide⟩)
      (Scalar.select (IntOp.cmpi .eq b 2#32) (w ⟨2, by decide⟩)
      (Scalar.select (IntOp.cmpi .eq b 1#32) (w ⟨1, by decide⟩)
      (Scalar.select (IntOp.cmpi .eq b 0#32) (w ⟨0, by decide⟩) z))))))))) = w ⟨b.toNat, hb⟩ := by
  obtain ⟨n, rfl⟩ : ∃ n : Fin 10, b = BitVec.ofNat 32 n.val :=
    ⟨⟨b.toNat, hb⟩, BitVec.eq_of_toNat_eq (by rw [BitVec.toNat_ofNat]; exact (Nat.mod_eq_of_lt b.isLt).symm)⟩
  fin_cases n <;> rfl

end Pure

section Pure2

variable (x0 x1 x2 : Vec Ideal S8192x80 .f32) (x3 : Vec Ideal S1x10 .f32) (xs : Vec Ideal S1x1 .f32)

/-- The same slot, cut from the weights as the body holds them (cast to their own shape). -/
theorem slot' (k : ℕ) (hk : k < 10) (hs : S1x10.Slices ![0, k] S1x1) (hp : ∀ a, (![0, 0] : Fin 2 → Nat) a < S1x1.size a) :
    extractAt ![0, 0] (extractStridedSlice S1x1 ![0, k] (k1_pay5 (F := Ideal) x3) hs) hp = x3 (ix2 (0 : Fin 1) (⟨k, hk⟩ : Fin 10)) := by
  rw [pay5_eq]; exact slot x3 k hk hs hp

theorem cmpi_at {s : Shape} {w : ℕ} (p : CmpIPredicate) (a b : IVec s w) (i : s.Idx) : cmpi p a b i = IntOp.cmpi p (a i) (b i) := rfl

/-- At an entry the ten selects pick the entry's bin's weight, and the product with the "counts" factor is that weight
    where the entry counts. -/
theorem pay9_apply (i : S8192x80.Idx) :
    k1_pay9 (F := Ideal) (k1_pay3 x2) (k1_pay4 x0 x1) (k1_pay5 x3) (k1_pay6 x0 x1 x3) (k1_pay7 x0 x1) (k1_pay8 x3) i
      = x3 (ix2 (0 : Fin 1) (Cert.Spec.bin (x0 i) (x1 i))) * Cert.Spec.valid (x2 i) := by
  have hb := Cert.Spec.binw_toNat_lt (x0 i) (x1 i)
  unfold k1_pay9 k1_pay6 k1_pay7 k1_pay8
  dsimp only
  show _ * k1_pay3 (F := Ideal) x2 i = _
  refine congrArg₂ (· * ·) ?_ (pay3_apply x2 i)
  simp only [select_apply, broadcast_apply, cmpi_at, pay4_apply,
    slot' x3 0 (by decide), slot' x3 1 (by decide), slot' x3 2 (by decide), slot' x3 3 (by decide), slot' x3 4 (by decide),
    slot' x3 5 (by decide), slot' x3 6 (by decide), slot' x3 7 (by decide), slot' x3 8 (by decide), slot' x3 9 (by decide)]
  exact (pick10 (Cert.Spec.binw (x0 i) (x1 i)) hb (fun j => x3 (ix2 (0 : Fin 1) j)) _).trans
    (congrArg (fun j => x3 (ix2 (0 : Fin 1) j)) (Fin.ext (Cert.Spec.bin_val (x0 i) (x1 i)).symm))

end Pure2

section Pure3

open scoped BigOperators

/-- A sum over a 1×a×b index set of an a×b family recast to it is the double sum over rows and lanes: the recast is a
    re-indexing. -/
theorem sum_cast_1ab {a b : ℕ} (f : (⟨2, ![a, b]⟩ : Shape).Idx → EReal)
    (h : (⟨2, ![a, b]⟩ : Shape).ShapeCasts ⟨3, ![1, a, b]⟩) :
    ∑ j : (⟨3, ![1, a, b]⟩ : Shape).Idx, shapeCast ⟨3, ![1, a, b]⟩ f h j = ∑ r : Fin a, ∑ l : Fin b, f (ix2 r l) := by
  unfold shapeCast
  rw [Equiv.sum_comp (Shape.reshapeEquiv h) f, sum_idx2]

/-- The body's reduction of a block-shaped family: recast to 1×8192×80, added up over its two long axes, recast to
    1×1×1 and read at its one position — the double sum over the block's rows and lanes. -/
theorem reduce_block (P : FVec Ideal S8192x80 .f32) (h1 : S8192x80.ShapeCasts S1x8192x80)
    (h2 : S1x8192x80.Reduces [1, 2] S1) (h3 : FKind.Formats .f32) (h4 : (0x00000000#32 : BitVec 32) = FKind.add.neutral .f32 h3)
    (h5 : S1.ShapeCasts S1x1x1) (h6 : ∀ a, (![0, 0, 0] : Fin 3 → Nat) a < S1x1x1.size a) :
    extractAt ![0, 0, 0] (shapeCast S1x1x1 (multiReduction .add [1, 2] S1 (shapeCast S1x8192x80 P h1) 0x00000000#32 h2 h3 h4) h5) h6
      = ∑ r : Fin 8192, ∑ l : Fin 80, P (ix2 r l) := by
  unfold extractAt
  refine (shapeCast_apply _ h5 _ (ix1 (0 : Fin 1)) rfl).trans ?_
  refine (Ideal.multiReduction_add_total (shapeCast S1x8192x80 P h1) _ h2 (fun b => by fin_cases b; rfl) h3 h4 _).trans ?_
  exact sum_cast_1ab P h1

end Pure3

section Pure4

open scoped BigOperators

variable (x0 x1 x2 : Vec Ideal S8192x80 .f32) (x3 : Vec Ideal S1x10 .f32) (xs : Vec Ideal S1x1 .f32)

/-- The family the body adds up: at each entry the cross entropy (softplus of the prediction less prediction times
    target, in the body's spelling) times the picked weight times the "counts" factor. -/
def prodK : FVec Ideal S8192x80 .f32 :=
  mulf
    (subf
      (select (k1_pay12 (F := Ideal) x0) (k1_pay13 (F := Ideal) x0)
        (addf (k1_pay10 (F := Ideal) x0)
          (log1p (exp (subf (broadcast S8192x80 (Scalar.ofBits (F := Ideal) .f32 0x00000000#32)) (absf (k1_pay11 (F := Ideal) x0)))))))
      (mulf x0 x1))
    (k1_pay9 (F := Ideal) (k1_pay3 x2) (k1_pay4 x0 x1) (k1_pay5 x3) (k1_pay6 x0 x1 x3) (k1_pay7 x0 x1) (k1_pay8 x3))

/-- The step is the old sum plus the body's reduction of that family, broadcast to the sum's one entry. -/
theorem step_eq :
    step (F := Ideal) x0 x1 x2 x3 xs
      = shapeCast S1x1
          (addf xs (broadcast S1x1
            (extractAt ![0, 0, 0]
              (shapeCast S1x1x1
                (multiReduction .add [1, 2] S1 (shapeCast S1x8192x80 (prodK x0 x1 x2 x3) shapeCasts_S8192x80_S1x8192x80)
                  0x00000000#32 reduces_S1x8192x80_S1 (.inl rfl) rfl)
                shapeCasts_S1_S1x1x1)
              inpos_S1x1x1_p0_0_0)))
          shapeCasts_S1x1_S1x1 := rfl

end Pure4

section Pure5

open scoped BigOperators

variable (x0 x1 x2 : Vec Ideal S8192x80 .f32) (x3 : Vec Ideal S1x10 .f32) (xs : Vec Ideal S1x1 .f32)

/-- The cross entropy at an entry, in the body's spelling, is the specification's. -/
theorem bceK_apply (i : S8192x80.Idx) :
    subf
      (select (k1_pay12 (F := Ideal) x0) (k1_pay13 (F := Ideal) x0)
        (addf (k1_pay10 (F := Ideal) x0)
          (log1p (exp (subf (broadcast S8192x80 (Scalar.ofBits (F := Ideal) .f32 0x00000000#32)) (absf (k1_pay11 (F := Ideal) x0)))))))
      (mulf x0 x1) i = Cert.Spec.bce (x0 i) (x1 i) :=
  Cert.Spec.bce_of_kernel (x0 i) (x1 i)

/-- The family at an entry: the entry's cross entropy times its bin's weight where the entry counts. -/
theorem prodK_apply (i : S8192x80.Idx) :
    prodK x0 x1 x2 x3 i
      = Cert.Spec.bce (x0 i) (x1 i) * (x3 (ix2 (0 : Fin 1) (Cert.Spec.bin (x0 i) (x1 i))) * Cert.Spec.valid (x2 i)) := by
  unfold prodK
  rw [mulf_apply, pay9_apply x0 x1 x2 x3 i, bceK_apply x0 x1 i]

end Pure5

section Pure6

open scoped BigOperators

variable (x0 x1 x2 : Vec Ideal S8192x80 .f32) (x3 : Vec Ideal S1x10 .f32) (xs : Vec Ideal S1x1 .f32)

/-- What one point adds to the running sum: over the block's rows and lanes, the entry's cross entropy times its bin's
    weight where the entry counts. -/
def tileSum : EReal :=
  ∑ r : Fin 8192, ∑ l : Fin 80, Cert.Spec.bce (x0 (ix2 r l)) (x1 (ix2 r l))
    * (x3 (ix2 (0 : Fin 1) (Cert.Spec.bin (x0 (ix2 r l)) (x1 (ix2 r l)))) * Cert.Spec.valid (x2 (ix2 r l)))

/-- The step's one entry is the old sum plus what the point adds. -/
theorem step_apply :
    step (F := Ideal) x0 x1 x2 x3 xs (ix2 (0 : Fin 1) (0 : Fin 1)) = xs (ix2 (0 : Fin 1) (0 : Fin 1)) + tileSum x0 x1 x2 x3 := by
  rw [step_eq]
  refine (congrFun (shapeCast_self _ shapeCasts_S1x1_S1x1) _).trans ?_
  rw [addf_apply, broadcast_apply]
  unfold tileSum
  exact congrArg (fun z => xs (ix2 (0 : Fin 1) (0 : Fin 1)) + z)
    ((reduce_block (prodK x0 x1 x2 x3) _ _ _ _ _ _).trans
      (Finset.sum_congr rfl fun r _ => Finset.sum_congr rfl fun l _ => prodK_apply x0 x1 x2 x3 (ix2 r l)))

/-- The reset sum's one entry is zero. -/
theorem zeroSum_apply : zeroSum (F := Ideal) (ix2 (0 : Fin 1) (0 : Fin 1)) = 0 := by
  unfold zeroSum k1_pay2
  refine (congrFun (shapeCast_self _ shapeCasts_S1x1_S1x1) _).trans ?_
  exact Idealize.ShloMosaic.BitFloat.scalar_zero_f32

end Pure6

/-! ## The arrays, the blocks as parts of them, and the sum point by point -/

variable (V : (c : Dev nD) → (b : Ref sig .tc) → Buf (Elt Ideal) ((c : Thread nD τ).loc b))

/-- The three argument arrays and the per-bin weights as the launch finds them, and the output array as it leaves it,
    each at its literal type. -/
abbrev pA (c : Dev nD) : Cert.Spec.SA.Idx → EReal := V c main_arg0
abbrev tA (c : Dev nD) : Cert.Spec.SA.Idx → EReal := V c main_arg1
abbrev wA (c : Dev nD) : Cert.Spec.SA.Idx → EReal := V c main_arg2
abbrev bwA (c : Dev nD) : (⟨2, ![1, 10]⟩ : Shape).Idx → EReal := V c main_v20
abbrev outA (c : Dev nD) : (⟨2, ![1, 1]⟩ : Shape).Idx → EReal := (dat (F := Ideal) V c).arrAt 4 cfg1.N

section Blocks

/-- The three input windows step through the rows in order, one block per point, and never move along the lanes; the
    weights' window and the output's stay at block (0, 0). Decided over the grid. -/
theorem index_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0) :=
  (by decide +kernel : ∀ t : Fin grid1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0))

/-- Row `r` of the block at point `t` is row `8192·t + r` of the array. -/
theorem row_lt (t : Fin cfg1.N) (r : Fin 8192) : 8192 * t.val + r.val < 262144 := by
  have ht : t.val < 32 := Nat.lt_of_lt_of_eq t.isLt N_1
  have hr := r.isLt
  omega

/-- The input blocks the point stages, each at its literal type. -/
abbrev blk0 (c : Dev nD) (t : Fin cfg1.N) : Vec Ideal S8192x80 .f32 := iblk V c 0 t
abbrev blk1 (c : Dev nD) (t : Fin cfg1.N) : Vec Ideal S8192x80 .f32 := iblk V c 1 t
abbrev blk2 (c : Dev nD) (t : Fin cfg1.N) : Vec Ideal S8192x80 .f32 := iblk V c 2 t
abbrev blk3 (c : Dev nD) (t : Fin cfg1.N) : Vec Ideal S1x10 .f32 := iblk V c 3 t

theorem blk0_apply (c : Dev nD) (t : Fin cfg1.N) (r : Fin 8192) (l : Fin 80) :
    blk0 V c t (ix2 r l) = pA V c (ix2 (⟨8192 * t.val + r.val, row_lt t r⟩ : Fin 262144) l) := by
  unfold blk0 iblk
  rw [View.read_apply]
  show V c main_arg0 _ = V c main_arg0 _
  congr 1
  funext a
  apply Fin.ext
  match a with
  | ⟨0, _⟩ => show win1_0.index t 0 * 8192 + 1 * r.val = 8192 * t.val + r.val; rw [(index_facts t).1.1]; omega
  | ⟨1, _⟩ => show win1_0.index t 1 * 80 + 1 * l.val = l.val; rw [(index_facts t).1.2]; omega

end Blocks

section Blocks2

open scoped BigOperators

theorem blk1_apply (c : Dev nD) (t : Fin cfg1.N) (r : Fin 8192) (l : Fin 80) :
    blk1 V c t (ix2 r l) = tA V c (ix2 (⟨8192 * t.val + r.val, row_lt t r⟩ : Fin 262144) l) := by
  unfold blk1 iblk
  rw [View.read_apply]
  show V c main_arg1 _ = V c main_arg1 _
  congr 1
  funext a
  apply Fin.ext
  match a with
  | ⟨0, _⟩ => show win1_1.index t 0 * 8192 + 1 * r.val = 8192 * t.val + r.val; rw [(index_facts t).2.1.1]; omega
  | ⟨1, _⟩ => show win1_1.index t 1 * 80 + 1 * l.val = l.val; rw [(index_facts t).2.1.2]; omega

theorem blk2_apply (c : Dev nD) (t : Fin cfg1.N) (r : Fin 8192) (l : Fin 80) :
    blk2 V c t (ix2 r l) = wA V c (ix2 (⟨8192 * t.val + r.val, row_lt t r⟩ : Fin 262144) l) := by
  unfold blk2 iblk
  rw [View.read_apply]
  show V c main_arg2 _ = V c main_arg2 _
  congr 1
  funext a
  apply Fin.ext
  match a with
  | ⟨0, _⟩ => show win1_2.index t 0 * 8192 + 1 * r.val = 8192 * t.val + r.val; rw [(index_facts t).2.2.1.1]; omega
  | ⟨1, _⟩ => show win1_2.index t 1 * 80 + 1 * l.val = l.val; rw [(index_facts t).2.2.1.2]; omega

/-- The weights' block is the whole weights array, at every point. -/
theorem blk3_apply (c : Dev nD) (t : Fin cfg1.N) (u : Fin 1) (k : Fin 10) :
    blk3 V c t (ix2 u k) = bwA V c (ix2 u k) := by
  unfold blk3 iblk
  rw [View.read_apply]
  show V c main_v20 _ = V c main_v20 _
  congr 1
  funext a
  apply Fin.ext
  match a with
  | ⟨0, _⟩ => show win1_3.index t 0 * 1 + 1 * u.val = u.val; rw [(index_facts t).2.2.2.1.1]; omega
  | ⟨1, _⟩ => show win1_3.index t 1 * 10 + 1 * k.val = k.val; rw [(index_facts t).2.2.2.1.2]; omega

/-- An entry's term of the loss: its cross entropy times its bin's weight where it counts. -/
def term (c : Dev nD) (e : Cert.Spec.SA.Idx) : EReal :=
  Cert.Spec.bce (pA V c e) (tA V c e)
    * (bwA V c (ix2 (0 : Fin 1) (Cert.Spec.bin (pA V c e) (tA V c e))) * Cert.Spec.valid (wA V c e))

/-- What the point `t` adds is the sum of the terms of the entries of its 8192 rows. -/
theorem tile_eq (c : Dev nD) (t : Fin cfg1.N) :
    tileSum (blk0 V c t) (blk1 V c t) (blk2 V c t) (blk3 V c t)
      = ∑ r : Fin 8192, ∑ l : Fin 80, term V c (ix2 (⟨8192 * t.val + r.val, row_lt t r⟩ : Fin 262144) l) := by
  unfold tileSum term
  refine Finset.sum_congr rfl fun r _ => Finset.sum_congr rfl fun l _ => ?_
  rw [blk0_apply, blk1_apply, blk2_apply, blk3_apply]

/-- What the point at position `k` adds (nothing past the grid). -/
def tileAt (c : Dev nD) (k : ℕ) : EReal :=
  if h : k < cfg1.N then tileSum (blk0 V c ⟨k, h⟩) (blk1 V c ⟨k, h⟩) (blk2 V c ⟨k, h⟩) (blk3 V c ⟨k, h⟩) else 0

theorem tileAt_of_lt (c : Dev nD) (k : ℕ) (h : k < cfg1.N) :
    tileAt V c k = tileSum (blk0 V c ⟨k, h⟩) (blk1 V c ⟨k, h⟩) (blk2 V c ⟨k, h⟩) (blk3 V c ⟨k, h⟩) := dif_pos h

/-- After the point at position `n` the running sum is what the points up to `n` added: by induction on the point, the
    first point over the reset, every later one over what the point before left. -/
theorem scrAt_sum (c : Dev nD) : ∀ (n : ℕ) (hn : n < cfg1.N),
    scrAt V c n hn (ix2 (0 : Fin 1) (0 : Fin 1)) = ∑ k ∈ Finset.range (n + 1), tileAt V c k
  | 0, hn => by
    rw [Finset.sum_range_one, tileAt_of_lt V c 0 hn]
    refine (congrFun (first_eq (F := Ideal) V c ⟨0, hn⟩ rfl) (ix2 (0 : Fin 1) (0 : Fin 1))).trans ?_
    refine (step_apply (blk0 V c ⟨0, hn⟩) (blk1 V c ⟨0, hn⟩) (blk2 V c ⟨0, hn⟩) (blk3 V c ⟨0, hn⟩) (zeroSum (F := Ideal))).trans ?_
    rw [zeroSum_apply, zero_add]
  | n + 1, hn => by
    have ih := scrAt_sum c n (Nat.lt_of_succ_lt hn)
    rw [Finset.sum_range_succ, ← ih, tileAt_of_lt V c (n + 1) hn]
    by_cases h : n + 1 = 31
    · refine (congrFun (scrAt_last V c ⟨n + 1, hn⟩ h) (ix2 (0 : Fin 1) (0 : Fin 1))).trans ?_
      refine (congrFun (lastS_eq (F := Ideal) V c ⟨n + 1, hn⟩ h (scrAt V c n (Nat.lt_of_succ_lt hn))) (ix2 (0 : Fin 1) (0 : Fin 1))).trans ?_
      exact step_apply (blk0 V c ⟨n + 1, hn⟩) (blk1 V c ⟨n + 1, hn⟩) (blk2 V c ⟨n + 1, hn⟩) (blk3 V c ⟨n + 1, hn⟩)
        (scrAt V c n (Nat.lt_of_succ_lt hn))
    · refine (congrFun (scrAt_mid V c ⟨n + 1, hn⟩ (Nat.succ_ne_zero n) h) (ix2 (0 : Fin 1) (0 : Fin 1))).trans ?_
      refine (congrFun (mid_eq (F := Ideal) V c ⟨n + 1, hn⟩ (Nat.succ_ne_zero n) h (scrAt V c n (Nat.lt_of_succ_lt hn))) (ix2 (0 : Fin 1) (0 : Fin 1))).trans ?_
      exact step_apply (blk0 V c ⟨n + 1, hn⟩) (blk1 V c ⟨n + 1, hn⟩) (blk2 V c ⟨n + 1, hn⟩) (blk3 V c ⟨n + 1, hn⟩)
        (scrAt V c n (Nat.lt_of_succ_lt hn))

end Blocks2

section Out

open scoped BigOperators

/-- The last point of the grid. -/
abbrev tLast : Fin cfg1.N := ⟨31, Nat.lt_of_lt_of_eq (by decide : 31 < 32) N_1.symm⟩

/-- The output array has one entry. -/
theorem idx11 (i : (⟨2, ![1, 1]⟩ : Shape).Idx) : i = ix2 (0 : Fin 1) (0 : Fin 1) :=
  (eq_ix2 i).trans (congrArg₂ ix2
    (Fin.ext (show (i 0 : Fin 1).val = 0 by have := idx2_lt0 i; omega))
    (Fin.ext (show (i 1 : Fin 1).val = 0 by have := idx2_lt1 i; omega)))

/-- Only the last point writes the output block back, and the block is the whole one-entry array: after the region the
    array's entry is the entry of what the last point left in the output's buffer. -/
theorem out_eq (c : Dev nD) :
    outA V c (ix2 (0 : Fin 1) (0 : Fin 1)) = outAt V c tLast (ix2 (0 : Fin 1) (0 : Fin 1)) := by
  have hG : ∀ t, (cfg1.win 4).flush t = true →
      (dat (F := Ideal) V c).flushed 4 t = ((cfg1.win 4).blk t).view.read (Elt Ideal) (outAt V c tLast) := by
    intro t hf
    have h31 : t.val = 31 := by
      have h1 := (flush1_4 t).mp hf
      have h2 : t.val < 32 := Nat.lt_of_lt_of_eq t.isLt N_1
      omega
    obtain rfl : t = tLast := Fin.ext h31
    funext y
    rw [View.read_apply]
    show outAt V c tLast y = outAt V c tLast _
    exact congrArg (outAt V c tLast) ((idx11 y).trans (idx11 _).symm)
  exact (dat (F := Ideal) V c).arrAt_apply_of_mem 4 (outAt V c tLast) hG cfg1.N tLast (ix2 (0 : Fin 1) (0 : Fin 1)) tLast.isLt
    ((flush1_4 tLast).mpr rfl) (by
      have h := ((cfg1.win 4).blk tLast).view.emb_mem_set (ix2 (0 : Fin 1) (0 : Fin 1))
      rwa [idx11 (((cfg1.win 4).blk tLast).view.emb (ix2 (0 : Fin 1) (0 : Fin 1)))] at h)

end Out

section Final

open scoped BigOperators

/-- After the launch the output array's one entry is the weighted sum of the cross entropies. -/
theorem loss_out (c : Dev nD) :
    outA V c (ix2 (0 : Fin 1) (0 : Fin 1))
      = ∑ e : Cert.Spec.SA.Idx, Cert.Spec.bce (pA V c e) (tA V c e)
          * (bwA V c (ix2 (0 : Fin 1) (Cert.Spec.bin (pA V c e) (tA V c e))) * Cert.Spec.valid (wA V c e)) := by
  have hN : cfg1.N = 32 := N_1
  have h30 : 30 < cfg1.N := by omega
  rw [out_eq V c, outAt_last V c tLast rfl]
  refine (congrFun (lastO_eq (F := Ideal) V c tLast rfl (scrAt V c 30 h30)) (ix2 (0 : Fin 1) (0 : Fin 1))).trans ?_
  refine (step_apply (blk0 V c tLast) (blk1 V c tLast) (blk2 V c tLast) (blk3 V c tLast) (scrAt V c 30 h30)).trans ?_
  rw [scrAt_sum V c 30 h30, ← tileAt_of_lt V c 31 tLast.isLt, ← Finset.sum_range_succ]
  show ∑ k ∈ Finset.range 32, tileAt V c k = ∑ e : Cert.Spec.SA.Idx, term V c e
  rw [Finset.sum_range, Cert.Spec.sum_tiles (term V c)]
  refine Finset.sum_congr rfl fun T _ => ?_
  rw [tileAt_of_lt V c T.val (Nat.lt_of_lt_of_eq T.isLt hN.symm)]
  exact tile_eq V c ⟨T.val, Nat.lt_of_lt_of_eq T.isLt hN.symm⟩

end Final

end Cert.KernelIdeal.Loss

end
-- ==== Proof.KernelValue.lean ====
/- The program's result at the ideal instance, read off the last boundary's contents: the specification's loss of the
   three argument arrays. Each stretch of host operations is read first as a function of the contents it starts from;
   the ten counts the histogram launch leaves are the specification's counts, so their sum from zero, at least one, is
   the specification's total, the count of bins above zero is its number of nonempty bins, and the weight vector handed
   to the loss launch is, bin by bin, the specification's per-bin weight over that number; the loss launch's one number,
   entry by entry, is then the specification's weighted sum, and the last stretch divides it by the total. -/
import proofs.«130534_j1580547966503_1_alg».proof.Proof.WholeDefs
import proofs.«130534_j1580547966503_1_alg».proof.Proof.HistValue
import proofs.«130534_j1580547966503_1_alg».proof.Proof.LossValue
import proofs.«130534_j1580547966503_1_alg».proof.Proof.Spec
import proofs.«130534_j1580547966503_1_alg».proof.Proof.SpecLemmas
import proofs.«130534_j1580547966503_1_alg».proof.Proof.LibBitFloat
import proofs.«130534_j1580547966503_1_alg».proof.Proof.Gen.KernelIdeal.Regions
import Idealize.ShloMosaic.PureOps.Ideal.Laws
import Idealize.ShloMosaic.Lib.ValueIdx
import Idealize.ShloMosaic.Lib.ValueIdxRank1
import Idealize.ShloMosaic.Lib.IdealHost
import Idealize.ShloMosaic.Lib.Pipeline.Value
import Idealize.ShloMosaic.Lib.StableHlo.Run

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-! ## Each stretch of host operations, from any contents -/

section Stretches

variable (V : Valuation τ sig (Elt Ideal))

/-- The ten counts as a vector: the histogram's 1×10 output flattened. -/
abbrev cvOf : S10.Idx → EReal := fun i => shapeCast S10 (V (Proc.devRef .tc main_v0) : S1x10.Idx → EReal) shapeCasts_S1x10_S10 i

theorem H1_v1 : (StableHlo.after hostOps1 V (Proc.devRef .tc main_v1) : S10.Idx → EReal) = cvOf V := by
  after_results
  rfl

theorem H1_v3 : (StableHlo.after hostOps1 V (Proc.devRef .tc main_v3) : S_.Idx → EReal)
    = maximumf (Host.reduceAdd (cvOf V) (constant (F := Ideal) S_ .f32 0x00000000#32) reducesTo_S10_S_d0 h_S_)
        (constant (F := Ideal) S_ .f32 0x3F800000#32) := by
  after_results
  rfl

theorem H1_v8 : (StableHlo.after hostOps1 V (Proc.devRef .tc main_v8) : S_.Idx → EReal) = Cert.Spec.nOf (cvOf V) := by
  after_results
  rfl

theorem H1_v10 : (StableHlo.after hostOps1 V (Proc.devRef .tc main_v10) : S10.Idx → BitVec 1)
    = cmpf (F := Ideal) (φ := .f32) .ogt (cvOf V) (broadcastInDim S10 ![] bcast_S_S10 (constant (F := Ideal) S_ .f32 0x00000000#32)) := by
  after_results
  rfl

theorem H1_v14 : (StableHlo.after hostOps1 V (Proc.devRef .tc main_v14) : S10.Idx → EReal)
    = Host.divf (broadcastInDim S10 ![] bcast_S_S10 (StableHlo.after hostOps1 V (Proc.devRef .tc main_v3) : S_.Idx → EReal))
        (maximumf (cvOf V) (broadcastInDim S10 ![] bcast_S_S10 (constant (F := Ideal) S_ .f32 0x3F800000#32))) := by
  after_results
  rfl

theorem H1_cst4 : (StableHlo.after hostOps1 V (Proc.devRef .tc main_cst_4) : S_.Idx → EReal)
    = constant (F := Ideal) S_ .f32 0x00000000#32 := by
  after_results

theorem H11_v15 : (StableHlo.after hostOps1_1 V (Proc.devRef .tc main_v15) : S10.Idx → EReal)
    = select (V (Proc.devRef .tc main_v10) : S10.Idx → BitVec 1) (V (Proc.devRef .tc main_v14) : S10.Idx → EReal)
        (broadcastInDim S10 ![] bcast_S_S10 (V (Proc.devRef .tc main_cst_4) : S_.Idx → EReal)) := by
  after_results
  all_goals rfl

theorem H12_v16 : (StableHlo.after hostOps1_2 V (Proc.devRef .tc main_v16) : S_.Idx → BitVec 1)
    = cmpf (F := Ideal) (φ := .f32) .ogt (V (Proc.devRef .tc main_v8) : S_.Idx → EReal) (constant (F := Ideal) S_ .f32 0x00000000#32) := by
  after_results

theorem H12_v18 : (StableHlo.after hostOps1_2 V (Proc.devRef .tc main_v18) : S10.Idx → EReal)
    = Host.divf (F := Ideal) (φ := .f32) (V (Proc.devRef .tc main_v15) : S10.Idx → EReal)
        (broadcastInDim S10 ![] bcast_S_S10 (V (Proc.devRef .tc main_v8) : S_.Idx → EReal)) := by
  after_results
  all_goals rfl

theorem H13_v19 : (StableHlo.after hostOps1_3 V (Proc.devRef .tc main_v19) : S10.Idx → EReal)
    = select (broadcastInDim S10 ![] bcast_S_S10 (V (Proc.devRef .tc main_v16) : S_.Idx → BitVec 1))
        (V (Proc.devRef .tc main_v18) : S10.Idx → EReal) (V (Proc.devRef .tc main_v15) : S10.Idx → EReal) := by
  after_results
  all_goals rfl

theorem H14_v20 : (StableHlo.after hostOps1_4 V (Proc.devRef .tc main_v20) : S1x10.Idx → EReal)
    = fun i => shapeCast S1x10 (V (Proc.devRef .tc main_v19) : S10.Idx → EReal) shapeCasts_S10_S1x10 i := by
  after_results
  all_goals rfl

end Stretches

/-! ## The boundaries' contents, from the launch memory -/

section Boundaries

variable (m : (ℓ : Loc nD τ sig) → Buf (Elt Ideal) ℓ) (c : Dev nD)

/-- The three argument arrays as launched. -/
abbrev pM : Cert.Spec.SA.Idx → EReal := m ((c : Thread nD τ).loc main_arg0)
abbrev tM : Cert.Spec.SA.Idx → EReal := m ((c : Thread nD τ).loc main_arg1)
abbrev wM : Cert.Spec.SA.Idx → EReal := m ((c : Thread nD τ).loc main_arg2)

/-- The ten counts the histogram launch leaves, flattened. -/
abbrev cvM : S10.Idx → EReal := cvOf (W1 (F := Ideal) m c)

theorem cvM_at (j : Fin 10) : cvM m c (ix1 j) = Cert.Spec.cnt (pM m c) (tM m c) (wM m c) (ix1 j) := by
  show shapeCast S10 (W1 (F := Ideal) m c (Proc.devRef .tc main_v0) : S1x10.Idx → EReal) shapeCasts_S1x10_S10 (ix1 j) = _
  rw [shapeCast_apply _ _ _ (ix2 (0 : Fin 1) j) (by rw [Shape.rowMajor_val_two, Shape.rowMajor_val_one]; show 0 * 10 + j.val = j.val; omega)]
  have h : (W1 (F := Ideal) m c (Proc.devRef .tc main_v0) : S1x10.Idx → EReal) = Hist.outA (Ve0 (F := Ideal) m) c :=
    W1_arr (F := Ideal) m c 3
  rw [h]
  exact Hist.hist_out (Ve0 (F := Ideal) m) c j

theorem cvM_eq : cvM m c = Cert.Spec.cnt (pM m c) (tM m c) (wM m c) := by
  funext i
  rw [eq_ix1 i]
  exact cvM_at m c (i 0)

/-- A sum over the ten bins' indices is the sum over the ten bins. -/
theorem sum_S10 (x : S10.Idx → EReal) : ∑ i : S10.Idx, x i = ∑ j : Fin 10, x (ix1 j) :=
  (Equiv.sum_comp (idxEquiv1 (n := 10)).symm x).symm

/-- The total the program divides by: the ten counts added up from zero, at least one. -/
theorem W2_v3 (i : S_.Idx) :
    (W2 (F := Ideal) m c (Proc.devRef .tc main_v3) : S_.Idx → EReal) i = Cert.Spec.tot (wM m c) := by
  show (StableHlo.after hostOps1 (W1 (F := Ideal) m c) (Proc.devRef .tc main_v3) : S_.Idx → EReal) i = _
  rw [H1_v3, maximumf_apply, hostReduceAdd_apply, constant_apply, constant_apply,
    Ideal.hostReduceAdd_total _ (fun b => b.elim0), sum_S10]
  rw [Finset.sum_congr rfl (fun j _ => cvM_at m c j), Cert.Spec.sum_cnt, Ideal.ofBits_zero_f32, zero_add,
    BitFloat.ofBits_one_f32]
  rfl

/-- A buffer none of the five stretches between the launches writes is, before the loss launch, as the histogram launch left it. -/
theorem W6_of (r : Ref sig .tc) (h1 : r ∉ hostOps1_W) (h2 : r ∉ hostOps1_1_W) (h3 : r ∉ hostOps1_2_W)
    (h4 : r ∉ hostOps1_3_W) (h5 : r ∉ hostOps1_4_W) :
    W6 (F := Ideal) m c (Proc.devRef .tc r) = W1 (F := Ideal) m c (Proc.devRef .tc r) :=
  (StableHlo.after_of_writes_sub hostOps1_4 _ hostOps1_4_writes h5).trans <|
  (StableHlo.after_of_writes_sub hostOps1_3 _ hostOps1_3_writes h4).trans <|
  (StableHlo.after_of_writes_sub hostOps1_2 _ hostOps1_2_writes h3).trans <|
  (StableHlo.after_of_writes_sub hostOps1_1 _ hostOps1_1_writes h2).trans <|
  (StableHlo.after_of_writes_sub hostOps1 _ hostOps1_writes h1)

/-- The loss launch finds the three argument arrays as launched. -/
theorem W6_arg0 : (W6 (F := Ideal) m c (Proc.devRef .tc main_arg0) : Cert.Spec.SA.Idx → EReal) = pM m c :=
  (W6_of m c main_arg0 (by decide) (by decide) (by decide) (by decide) (by decide)).trans <|
    (W1_arr (F := Ideal) m c 0).trans <|
      ((Hist.dat (Ve0 (F := Ideal) m) c).arrAt_in 0 rfl cfg0.N).trans ((Hist.A_eq (Ve0 (F := Ideal) m) c 0).trans rfl)
theorem W6_arg1 : (W6 (F := Ideal) m c (Proc.devRef .tc main_arg1) : Cert.Spec.SA.Idx → EReal) = tM m c :=
  (W6_of m c main_arg1 (by decide) (by decide) (by decide) (by decide) (by decide)).trans <|
    (W1_arr (F := Ideal) m c 1).trans <|
      ((Hist.dat (Ve0 (F := Ideal) m) c).arrAt_in 1 rfl cfg0.N).trans ((Hist.A_eq (Ve0 (F := Ideal) m) c 1).trans rfl)
theorem W6_arg2 : (W6 (F := Ideal) m c (Proc.devRef .tc main_arg2) : Cert.Spec.SA.Idx → EReal) = wM m c :=
  (W6_of m c main_arg2 (by decide) (by decide) (by decide) (by decide) (by decide)).trans <|
    (W1_arr (F := Ideal) m c 2).trans <|
      ((Hist.dat (Ve0 (F := Ideal) m) c).arrAt_in 2 rfl cfg0.N).trans ((Hist.A_eq (Ve0 (F := Ideal) m) c 2).trans rfl)

/-- The total is still there at the program's last stretch: nothing after the first stretch writes it. -/
theorem W7_v3 : W7 (F := Ideal) m c (Proc.devRef .tc main_v3) = W2 (F := Ideal) m c (Proc.devRef .tc main_v3) :=
  (W7_of_ne (F := Ideal) m c main_v3 (by decide)).trans <|
  (StableHlo.after_of_writes_sub hostOps1_4 _ hostOps1_4_writes (by decide)).trans <|
  (StableHlo.after_of_writes_sub hostOps1_3 _ hostOps1_3_writes (by decide)).trans <|
  (StableHlo.after_of_writes_sub hostOps1_2 _ hostOps1_2_writes (by decide)).trans <|
  (StableHlo.after_of_writes_sub hostOps1_1 _ hostOps1_1_writes (by decide))

/-- The loss launch's output array. -/
theorem W7_v21 : (W7 (F := Ideal) m c (Proc.devRef .tc main_v21) : S1x1.Idx → EReal) = Loss.outA (Ve1 (F := Ideal) m) c :=
  W7_arr (F := Ideal) m c 4

/-- A choice on the bit "x is above zero" is the choice on that order relation. -/
theorem select_ogt_zero (x a b : EReal) :
    Scalar.select (FloatOps.cmpf (F := Ideal) (φ := .f32) .ogt x (Ideal.ofBits .f32 0x00000000#32)) a b
      = if 0 < x then a else b := by
  rw [Ideal.ofBits_zero_f32]
  by_cases h : 0 < x
  · rw [(BitFloat.cmpf_ogt_iff x 0).mpr h, select_one, if_pos h]
  · rw [(BitFloat.cmpf_ogt_eq_zero_iff x 0).mpr (not_lt.mp h), select_zero, if_neg h]

/-- The number of nonempty bins, as the first stretch computes it from the counts. -/
theorem W2_v8 (i : S_.Idx) :
    (W2 (F := Ideal) m c (Proc.devRef .tc main_v8) : S_.Idx → EReal) i = Cert.Spec.nb (pM m c) (tM m c) (wM m c) := by
  show (StableHlo.after hostOps1 (W1 (F := Ideal) m c) (Proc.devRef .tc main_v8) : S_.Idx → EReal) i = _
  rw [H1_v8]
  show Cert.Spec.nOf (cvM m c) i = _
  rw [cvM_eq, eq_ix0 i]
  rfl

/-- A bin's weight before the division by the number of nonempty bins. -/
theorem W3_v15 (j : Fin 10) :
    (W3 (F := Ideal) m c (Proc.devRef .tc main_v15) : S10.Idx → EReal) (ix1 j) = Cert.Spec.pbw (pM m c) (tM m c) (wM m c) j := by
  show (StableHlo.after hostOps1_1 (W2 (F := Ideal) m c) (Proc.devRef .tc main_v15) : S10.Idx → EReal) (ix1 j) = _
  rw [H11_v15, select_apply]
  have e10 : (W2 (F := Ideal) m c (Proc.devRef .tc main_v10) : S10.Idx → BitVec 1) (ix1 j)
      = FloatOps.cmpf (F := Ideal) (φ := .f32) .ogt (cvM m c (ix1 j)) (Ideal.ofBits .f32 0x00000000#32) := by
    show (StableHlo.after hostOps1 (W1 (F := Ideal) m c) (Proc.devRef .tc main_v10) : S10.Idx → BitVec 1) (ix1 j) = _
    rw [H1_v10, cmpf_apply, broadcastInDim_scalar_apply, constant_apply]
  have e14 : (W2 (F := Ideal) m c (Proc.devRef .tc main_v14) : S10.Idx → EReal) (ix1 j)
      = Ideal.div (Cert.Spec.tot (wM m c)) (max (cvM m c (ix1 j)) 1) := by
    show (StableHlo.after hostOps1 (W1 (F := Ideal) m c) (Proc.devRef .tc main_v14) : S10.Idx → EReal) (ix1 j) = _
    rw [H1_v14, hostDivf_apply, broadcastInDim_scalar_apply, maximumf_apply, broadcastInDim_scalar_apply, constant_apply,
      BitFloat.ofBits_one_f32]
    exact congrArg (fun x => Ideal.div x (max (cvM m c (ix1 j)) 1)) (W2_v3 m c ix0)
  have e4 : (broadcastInDim S10 ![] bcast_S_S10 (W2 (F := Ideal) m c (Proc.devRef .tc main_cst_4) : S_.Idx → EReal) : S10.Idx → EReal) (ix1 j) = (0 : EReal) := by
    rw [broadcastInDim_scalar_apply]
    show (StableHlo.after hostOps1 (W1 (F := Ideal) m c) (Proc.devRef .tc main_cst_4) : S_.Idx → EReal) ix0 = _
    rw [H1_cst4, constant_apply, Ideal.ofBits_zero_f32]
  rw [e10, e14, e4, select_ogt_zero, cvM_at]
  rfl

/-- A bin's weight as the loss launch reads it: divided by the number of nonempty bins when there is one. -/
theorem W6_v20 (j : Fin 10) :
    (W6 (F := Ideal) m c (Proc.devRef .tc main_v20) : S1x10.Idx → EReal) (ix2 (0 : Fin 1) j)
      = if 0 < Cert.Spec.nb (pM m c) (tM m c) (wM m c)
        then Ideal.div (Cert.Spec.pbw (pM m c) (tM m c) (wM m c) j) (Cert.Spec.nb (pM m c) (tM m c) (wM m c))
        else Cert.Spec.pbw (pM m c) (tM m c) (wM m c) j := by
  show (StableHlo.after hostOps1_4 (W5 (F := Ideal) m c) (Proc.devRef .tc main_v20) : S1x10.Idx → EReal) (ix2 (0 : Fin 1) j) = _
  rw [H14_v20]
  show shapeCast S1x10 (W5 (F := Ideal) m c (Proc.devRef .tc main_v19) : S10.Idx → EReal) shapeCasts_S10_S1x10 (ix2 (0 : Fin 1) j) = _
  rw [shapeCast_apply _ _ _ (ix1 j) (by rw [Shape.rowMajor_val_two, Shape.rowMajor_val_one]; show j.val = 0 * 10 + j.val; omega)]
  show (StableHlo.after hostOps1_3 (W4 (F := Ideal) m c) (Proc.devRef .tc main_v19) : S10.Idx → EReal) (ix1 j) = _
  rw [H13_v19, select_apply, broadcastInDim_scalar_apply]
  have e8 : (W3 (F := Ideal) m c (Proc.devRef .tc main_v8) : S_.Idx → EReal) ix0 = Cert.Spec.nb (pM m c) (tM m c) (wM m c) :=
    (congrFun (StableHlo.after_of_writes_sub hostOps1_1 (W2 (F := Ideal) m c) hostOps1_1_writes
      (by decide : main_v8 ∉ hostOps1_1_W)) ix0).trans (W2_v8 m c ix0)
  have e16 : (W4 (F := Ideal) m c (Proc.devRef .tc main_v16) : S_.Idx → BitVec 1) ix0
      = FloatOps.cmpf (F := Ideal) (φ := .f32) .ogt (Cert.Spec.nb (pM m c) (tM m c) (wM m c)) (Ideal.ofBits .f32 0x00000000#32) := by
    show (StableHlo.after hostOps1_2 (W3 (F := Ideal) m c) (Proc.devRef .tc main_v16) : S_.Idx → BitVec 1) ix0 = _
    rw [H12_v16, cmpf_apply, constant_apply, e8]
  have e18 : (W4 (F := Ideal) m c (Proc.devRef .tc main_v18) : S10.Idx → EReal) (ix1 j)
      = Ideal.div (Cert.Spec.pbw (pM m c) (tM m c) (wM m c) j) (Cert.Spec.nb (pM m c) (tM m c) (wM m c)) := by
    show (StableHlo.after hostOps1_2 (W3 (F := Ideal) m c) (Proc.devRef .tc main_v18) : S10.Idx → EReal) (ix1 j) = _
    rw [H12_v18, hostDivf_apply, broadcastInDim_scalar_apply, e8, W3_v15]
  have e15 : (W4 (F := Ideal) m c (Proc.devRef .tc main_v15) : S10.Idx → EReal) (ix1 j)
      = Cert.Spec.pbw (pM m c) (tM m c) (wM m c) j :=
    (congrFun (StableHlo.after_of_writes_sub hostOps1_2 (W3 (F := Ideal) m c) hostOps1_2_writes
      (by decide : main_v15 ∉ hostOps1_2_W)) (ix1 j)).trans (W3_v15 m c j)
  rw [e16, e18, e15, select_ogt_zero]

/-- The last stretch: the loss launch's one number over the total, times the literal. -/
theorem W8_v24 :
    (W8 (F := Ideal) m c (Proc.devRef .tc main_v24) : S_.Idx → EReal)
      = mulf (Host.divf (fun i => shapeCast S_ (W7 (F := Ideal) m c (Proc.devRef .tc main_v21) : S1x1.Idx → EReal) shapeCasts_S1x1_S_ i)
          (W7 (F := Ideal) m c (Proc.devRef .tc main_v3)))
          (constant (F := Ideal) S_ .f32 0x3F800000#32) := by
  show StableHlo.after hostOps2 _ (Proc.devRef .tc main_v24) = _
  after_results
  all_goals rfl

/-- An entry's weight as the loss launch applies it is the specification's. -/
theorem weight_eq (e : Cert.Spec.SA.Idx) :
    Loss.bwA (Ve1 (F := Ideal) m) c (ix2 (0 : Fin 1) (Cert.Spec.bin (pM m c e) (tM m c e))) * Cert.Spec.valid (wM m c e)
      = Cert.Spec.wgt (pM m c) (tM m c) (wM m c) e := by
  have h20 : Loss.bwA (Ve1 (F := Ideal) m) c (ix2 (0 : Fin 1) (Cert.Spec.bin (pM m c e) (tM m c e)))
      = if 0 < Cert.Spec.nb (pM m c) (tM m c) (wM m c)
        then Ideal.div (Cert.Spec.pbw (pM m c) (tM m c) (wM m c) (Cert.Spec.bin (pM m c e) (tM m c e))) (Cert.Spec.nb (pM m c) (tM m c) (wM m c))
        else Cert.Spec.pbw (pM m c) (tM m c) (wM m c) (Cert.Spec.bin (pM m c e) (tM m c e)) :=
    W6_v20 m c (Cert.Spec.bin (pM m c e) (tM m c e))
  rw [h20]
  unfold Cert.Spec.wgt
  by_cases h : 0 < Cert.Spec.nb (pM m c) (tM m c) (wM m c)
  · rw [if_pos h, if_pos h, Cert.Spec.div_mul_valid _ _ _ h]
  · rw [if_neg h, if_neg h]

end Boundaries

/-- At the program's end the result buffer holds the loss of the argument arrays as launched. -/
theorem kernel_value (m : (ℓ : Loc nD τ sig) → Buf (Elt Ideal) ℓ) (c : Dev nD) :
    W8 (F := Ideal) m c (Proc.devRef .tc main_v24)
      = fun _ => Cert.Spec.loss (m ((c : Thread nD τ).loc main_arg0)) (m ((c : Thread nD τ).loc main_arg1)) (m ((c : Thread nD τ).loc main_arg2)) := by
  funext i
  show (W8 (F := Ideal) m c (Proc.devRef .tc main_v24) : S_.Idx → EReal) i = Cert.Spec.loss (pM m c) (tM m c) (wM m c)
  rw [W8_v24, mulf_apply, hostDivf_apply, constant_apply]
  rw [shapeCast_apply _ _ _ (ix2 (0 : Fin 1) (0 : Fin 1))
    (by rw [Shape.rowMajor_val_two]; show 0 * 1 + 0 = (Shape.rowMajorPi _ _).val; rw [Shape.rowMajorPi_zero])]
  rw [W7_v21, Loss.loss_out, congrFun (W7_v3 m c) i, W2_v3]
  have hp : Loss.pA (Ve1 (F := Ideal) m) c = pM m c := W6_arg0 m c
  have ht : Loss.tA (Ve1 (F := Ideal) m) c = tM m c := W6_arg1 m c
  have hw : Loss.wA (Ve1 (F := Ideal) m) c = wM m c := W6_arg2 m c
  rw [hp, ht, hw]
  unfold Cert.Spec.loss
  rw [Finset.sum_congr rfl fun e _ => congrArg (fun x => Cert.Spec.bce (pM m c e) (tM m c e) * x) (weight_eq m c e)]

end Cert.KernelIdeal.Whole

end
-- ==== Proof.RefValue.lean ====
/- The reference program's result is the specification's loss, at the ideal instance (floats read as extended
   reals). Each operation of the reference is read at an index and each stage is identified with the corresponding part
   of the specification: the bin word and the validity flag of an entry, the ten counts (a scatter-add into zeros over the
   entries in row-major order), the number of counted entries, the number of nonempty bins, the per-bin weights, the
   weight of an entry (a gather at its bin, then the division by the number of nonempty bins), the cross entropy, and
   the weighted sum over the number of counted entries. -/
import proofs.«130534_j1580547966503_1_alg».proof.Proof.RefRead
import proofs.«130534_j1580547966503_1_alg».proof.Proof.Spec
import proofs.«130534_j1580547966503_1_alg».proof.Proof.LibBitFloat
import proofs.«130534_j1580547966503_1_alg».proof.Proof.SpecLemmas
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
open Cert.ReferenceIdeal.ReadP Idealize.ShloMosaic.ValueIdx Idealize.ShloMosaic.BitFloat
open scoped BigOperators

/-- The contents of one of the three input arrays: an extended real at each of the 262144 × 80 entries. -/
abbrev Arr := (⟨S262144x80, .f32⟩ : BufTy).Contents (Elt Ideal)

/-! ## One entry: the bin word and the validity flag -/

/-- The clamped bin word the reference computes at an entry is the specification's: the host's quotient
    1 / (1 + exp (−p)) is the logistic function by definition, and the remaining operations are the same. -/
theorem v17_apply (x0 x1 : Arr) (i : S262144x80.Idx) :
    val_main_v17 (F := Ideal) x0 x1 i = Cert.Spec.binw (x0 i) (x1 i) := by
  rw [val_main_v17_apply, val_main_call0_v4_apply, val_main_call0_v3_apply, val_main_c_5_apply,
    val_main_call0_v2_apply, val_main_call0_v1_apply, val_main_call0_v0_apply, val_main_c_apply,
    val_main_v16_apply, val_main_v15_apply, val_main_v14_apply, val_main_v13_apply, val_main_cst_4_apply,
    val_main_v12_apply, val_main_v11_apply, val_main_v10_apply, val_main_v9_apply, val_main_cst_3_apply,
    val_main_v8_apply, val_main_v7_apply, val_main_cst_2_apply, val_main_v6_apply, val_main_v5_apply]
  unfold Cert.Spec.binw
  simp only [Ideal.ofBits_def, ofBits_one_f32]
  rfl

/-- The validity flag the reference computes at an entry is the specification's: one where the label weight is
    positive, zero elsewhere. -/
theorem v2_apply (x2 : Arr) (i : S262144x80.Idx) :
    val_main_v2 (F := Ideal) x2 i = Cert.Spec.valid (x2 i) := by
  rw [val_main_v2_apply, val_main_v1_apply, val_main_v0_apply, val_main_cst_apply, uitofp_bit]
  simp only [Ideal.ofBits_def, Ideal.ofBits_zero_f32, cmpf_ogt_iff]
  rfl

/-! ## The counts: the scatter-add into ten zeros -/

/-- The flattening of the 262144 × 80 entries to 20971520 positions is a bijection: position q is entry
    (q / 80, q % 80), and entry (r, l) is position 80 r + l. -/
def flatEquiv : S20971520.Idx ≃ S262144x80.Idx where
  toFun := idx_main_v18
  invFun i := ix1 ⟨(i 0).val * 80 + (i 1).val, by
    have h0 := idx2_lt0 i; have h1 := idx2_lt1 i; omega⟩
  left_inv e := by
    funext a
    match a with
    | ⟨0, _⟩ => exact Fin.ext (by show ((e 0).val / 80) * 80 + (e 0).val % 80 = (e 0).val; omega)
  right_inv i := by
    have h0 := idx2_lt0 i; have h1 := idx2_lt1 i
    funext a
    match a with
    | ⟨0, _⟩ => exact Fin.ext (by show ((i 0).val * 80 + (i 1).val) / 80 = (i 0).val; omega)
    | ⟨1, _⟩ => exact Fin.ext (by show ((i 0).val * 80 + (i 1).val) % 80 = (i 1).val; omega)

/-- The reference's scatter: ten bins, one index word per flattened position, one update per position. -/
abbrev dS : ScatterDims S10 S20971520x1 S20971520 := scatter_S10_S20971520x1_S20971520_n_0_0_1

/-- The scatter's start plus window coordinate on the one operand axis is the index word read for the update,
    as a signed integer: one index component, and no window (the operand's only axis is inserted). -/
theorem scatter_start (idx : IVec S20971520x1 32) (e : S20971520.Idx) (a : Fin S10.rank) :
    dS.start e idx a + (dS.window e a : Int) = (idx (ix2 (e 0) (0 : Fin 1))).toInt := by
  obtain rfl : a = 0 := Subsingleton.elim _ _
  unfold ScatterDims.start ScatterDims.window
  rw [dif_pos (show (0 : Fin 1) ∈ dS.scatterDimsToOperandDims from List.mem_singleton.mpr rfl),
    dif_neg (show (0 : Fin 1) ∉ dS.sKept from by decide)]
  have hsi : dS.siIdx e ⟨List.idxOf (0 : Fin 1) dS.scatterDimsToOperandDims,
      List.idxOf_lt_length_iff.2 (List.mem_singleton.mpr rfl)⟩ = ix2 (e 0) (0 : Fin 1) := by
    funext b; refine Fin.ext ?_
    match b with
    | ⟨0, _⟩ => rfl
    | ⟨1, _⟩ => rfl
  rw [hsi]
  simp

/-- Where an update lands: the flattened position e is added to bin j exactly when the index word read for e,
    as a signed integer, is j (an index outside 0 … 9 drops the update). -/
theorem scatter_lands (idx : IVec S20971520x1 32) (e : S20971520.Idx) (j : S10.Idx) :
    dS.resultIdx? e idx = some j ↔ (idx (ix2 (e 0) (0 : Fin 1))).toInt = ((j 0).val : Int) := by
  have hj : (j 0).val < 10 := (j 0).isLt
  unfold ScatterDims.resultIdx?
  constructor
  · intro h
    split at h
    · rename_i hh
      have h0 : (dS.start e idx 0 + (dS.window e 0 : Int)).toNat = (j 0).val :=
        congrArg (fun f : S10.Idx => (f 0).val) (Option.some.inj h)
      have h1 := (hh 0).1
      rw [scatter_start] at h0 h1
      omega
    · exact absurd h (by simp)
  · intro hv
    have hall : ∀ a, 0 ≤ dS.start e idx a + (dS.window e a : Int) ∧ dS.start e idx a + (dS.window e a : Int) < S10.size a := by
      intro a
      rw [scatter_start]
      obtain rfl : a = 0 := Subsingleton.elim _ _
      refine ⟨by omega, ?_⟩
      show _ < ((10 : Nat) : Int)
      omega
    rw [dif_pos hall]
    congr 1
    funext a
    obtain rfl : a = 0 := Subsingleton.elim _ _
    refine Fin.ext ?_
    show (dS.start e idx 0 + (dS.window e 0 : Int)).toNat = (j 0).val
    rw [scatter_start, hv]
    simp

/-- The scatter-add read at bin j: the operand's element plus the sum, over all flattened positions, of the updates
    whose index word is j. -/
theorem scatterAdd_apply (x : FVec Ideal S10 .f32) (idx : IVec S20971520x1 32) (upd : FVec Ideal S20971520 .f32)
    (j : S10.Idx) :
    Host.scatterAdd dS x idx upd j
      = x j + ∑ e : S20971520.Idx, if (idx (ix2 (e 0) (0 : Fin 1))).toInt = ((j 0).val : Int) then upd e else 0 := by
  show x j + ∑ e ∈ Finset.univ.filter (fun e => dS.resultIdx? e idx = some j), upd e = _
  rw [Finset.sum_filter]
  refine congrArg (fun s => x j + s) ?_
  refine Finset.sum_congr rfl fun e _ => ?_
  exact if_congr (scatter_lands idx e j) rfl rfl

/-- The ten counts the reference computes are the specification's: the scatter-add starts from zeros, the
    flattened positions are the entries in row-major order, the update at an entry is its validity flag and its
    index word is its bin word, which equals j exactly when the entry's bin is j. -/
theorem v22_apply (x0 x1 x2 : Arr) (j : S10.Idx) :
    val_main_v22 (F := Ideal) x0 x1 x2 j = Cert.Spec.cnt x0 x1 x2 j := by
  unfold val_main_v22
  rw [show scatter_S10_S20971520x1_S20971520_n_0_0_1 = dS from rfl, scatterAdd_apply, val_main_v20_apply,
    val_main_cst_6_apply, Ideal.ofBits_def, Ideal.ofBits_zero_f32, zero_add]
  show _ = ∑ i : S262144x80.Idx,
    if (Cert.Spec.bin (x0 i) (x1 i)).val = (j 0).val then Cert.Spec.valid (x2 i) else 0
  refine Eq.trans ?_ (Equiv.sum_comp flatEquiv (fun i : S262144x80.Idx =>
    if (Cert.Spec.bin (x0 i) (x1 i)).val = (j 0).val then Cert.Spec.valid (x2 i) else 0))
  refine Finset.sum_congr rfl fun e _ => ?_
  have he : idx_main_v21 (ix2 (e 0) (0 : Fin 1)) = e := by
    funext a
    match a with
    | ⟨0, _⟩ => rfl
  rw [val_main_v21_apply, he, val_main_v19_apply, v17_apply, val_main_v18_apply, v2_apply]
  exact if_congr (Cert.Spec.binw_toInt_eq_iff _ _ (j 0)) rfl rfl

/-- The same as an equation between the two arrays of ten numbers. -/
theorem v22_eq (x0 x1 x2 : Arr) : val_main_v22 (F := Ideal) x0 x1 x2 = Cert.Spec.cnt x0 x1 x2 :=
  funext (v22_apply x0 x1 x2)

/-! ## The number of counted entries, the number of nonempty bins, the per-bin weights -/

/-- The reference's total is the specification's: the sum of the validity flags from zero, at least one. -/
theorem v4_apply (x2 : Arr) (i : S_.Idx) : val_main_v4 (F := Ideal) x2 i = Cert.Spec.tot x2 := by
  rw [val_main_v4_apply, val_main_v3_apply, val_main_cst_0_apply, val_main_cst_1_apply]
  simp only [Ideal.ofBits_def, Ideal.ofBits_zero_f32, ofBits_one_f32, zero_add, Ideal.maximumf_def]
  unfold Cert.Spec.tot
  refine congrArg (fun s => max s 1) ?_
  exact Finset.sum_congr rfl fun e _ => v2_apply x2 e

/-- The reference's number of nonempty bins is the specification's: the same host operations applied to the
    same ten counts. -/
theorem v27_eq (x0 x1 x2 : Arr) :
    val_main_v27 (F := Ideal) x0 x1 x2 = Cert.Spec.nOf (Cert.Spec.cnt x0 x1 x2) := by
  unfold val_main_v27 val_main_v26 val_main_v25 val_main_v24
  rw [v22_eq]
  rfl

/-- Read at its one index. -/
theorem v27_apply (x0 x1 x2 : Arr) (i : S_.Idx) :
    val_main_v27 (F := Ideal) x0 x1 x2 i = Cert.Spec.nb x0 x1 x2 := by
  rw [v27_eq]
  unfold Cert.Spec.nb
  exact congrArg _ (funext fun a => a.elim0)

/-- A select on a one-bit word is the conditional on the word being one. -/
theorem select_eq_ite {α : Type} (c : BitVec 1) (a b : α) : Scalar.select c a b = if c = 1#1 then a else b := rfl

/-- The reference's weight of bin j (before the division by the number of nonempty bins) is the specification's:
    the total over the count (at least one) where the count is positive, zero elsewhere. -/
theorem v34_apply (x0 x1 x2 : Arr) (j : Fin 10) :
    val_main_v34 (F := Ideal) x0 x1 x2 (ix1 j) = Cert.Spec.pbw x0 x1 x2 j := by
  rw [val_main_v34_apply, val_main_v29_apply, val_main_v33_apply, val_main_v32_apply, val_main_v31_apply,
    val_main_v30_apply, val_main_v28_apply, val_main_call1_v1_apply, val_main_call1_v0_apply,
    val_main_cst_9_apply, val_main_cst_10_apply, val_main_cst_11_apply, v22_apply, v4_apply, select_eq_ite]
  simp only [Ideal.ofBits_def, Ideal.ofBits_zero_f32, ofBits_one_f32, Ideal.maximumf_def, Ideal.hostDivf_def]
  unfold Cert.Spec.pbw
  exact if_congr (cmpf_ogt_iff _ _) rfl rfl

/-! ## The weight of an entry: the gather at its bin, and the division by the number of nonempty bins -/

/-- A signed "less than zero" test fails on a word whose signed value is not negative. -/
theorem cmpi_slt_zero_of_nonneg (b : BitVec 32) (h : 0 ≤ b.toInt) : IntOp.cmpi .slt b 0#32 = 0#1 := by
  have hs : b.slt 0#32 = false := by
    unfold BitVec.slt
    exact decide_eq_false (by rw [BitVec.toInt_zero]; omega)
  show BitVec.ofBool (b.slt 0#32) = 0#1
  rw [hs]
  rfl

/-- The index word the gather reads at an entry is the entry's bin word: the wrap-around of a negative index
    (add ten where the word is below zero) never fires, the bin word being at least zero. -/
theorem v39_apply (x0 x1 : Arr) (i : S262144x80.Idx) :
    val_main_v39 (F := Ideal) x0 x1 i = Cert.Spec.binw (x0 i) (x1 i) := by
  rw [val_main_v39_apply, val_main_v36_apply, val_main_v35_apply, val_main_c_12_apply, v17_apply,
    cmpi_slt_zero_of_nonneg _ (Cert.Spec.binw_toInt_range _ _).1, select_zero]

/-- The gather at an entry is the weight of the entry's bin: the operand at the index word, read signed and clamped
    into 0 … 9, where the bin word already lies. -/
theorem v41_apply (x0 x1 x2 : Arr) (i : S262144x80.Idx) :
    val_main_v41 (F := Ideal) x0 x1 x2 i = Cert.Spec.pbw x0 x1 x2 (Cert.Spec.bin (x0 i) (x1 i)) := by
  unfold val_main_v41
  rw [show gather_S10_S262144x80x1_S262144x80_n_0_n_n_0_2_1
      = takeDims 10 262144 80 gather_S10_S262144x80x1_S262144x80_n_0_n_n_0_2_1_wf from rfl,
    gather_take_apply (by decide), ← v34_apply]
  have hi : idx_main_v40 (takeIdx i) = i := by
    funext a
    match a with
    | ⟨0, _⟩ => rfl
    | ⟨1, _⟩ => rfl
  refine congrArg _ (congrArg (ix1 (n := 10)) (Fin.ext ?_))
  show min (val_main_v40 (F := Ideal) x0 x1 (takeIdx i)).toInt.toNat (10 - 1) = (Cert.Spec.bin (x0 i) (x1 i)).val
  rw [val_main_v40_apply, hi, v39_apply, Cert.Spec.bin_val]
  have h1 := Cert.Spec.binw_toNat_eq_toInt (x0 i) (x1 i)
  have h2 := Cert.Spec.binw_toNat_lt (x0 i) (x1 i)
  omega

/-- The broadcast "is the number of nonempty bins positive" bit reads the same bit at every entry. -/
theorem v43_bcast_apply (x0 x1 x2 : Arr) (i : S262144x80.Idx) :
    broadcastInDim S262144x80 ![] bcast_S_S262144x80 (val_main_v43 (F := Ideal) x0 x1 x2) i
      = val_main_v43 (F := Ideal) x0 x1 x2 (fun a => a.elim0) := by
  generalize val_main_v43 (F := Ideal) x0 x1 x2 = y
  exact broadcastInDim_apply _ bcast_S_S262144x80 y i (fun a => a.elim0) (fun a => a.elim0)

/-- The reference's weight of an entry is the specification's. -/
theorem v46_apply (x0 x1 x2 : Arr) (i : S262144x80.Idx) :
    val_main_v46 (F := Ideal) x0 x1 x2 i = Cert.Spec.wgt x0 x1 x2 i := by
  unfold val_main_v46
  rw [select_apply, v43_bcast_apply, val_main_v43_apply, val_main_cst_14_apply, val_main_v45_apply,
    val_main_v44_apply, val_main_v42_apply, v41_apply, v2_apply, select_eq_ite]
  simp only [v27_apply, Ideal.ofBits_def, Ideal.ofBits_zero_f32, Ideal.hostDivf_def, Ideal.mulf_def]
  unfold Cert.Spec.wgt
  exact if_congr (cmpf_ogt_iff _ _) rfl rfl

/-! ## The cross entropy, the weighted sum, and the loss -/

/-- The reference's cross entropy with logits at an entry is the specification's. -/
theorem v49_apply (x0 x1 : Arr) (i : S262144x80.Idx) :
    val_main_v49 (F := Ideal) x0 x1 i = Cert.Spec.bce (x0 i) (x1 i) := by
  rw [val_main_v49_apply, val_main_v47_apply, val_main_call3_v4_apply, val_main_call3_v3_apply,
    val_main_call3_v2_apply, val_main_call3_v6_apply, val_main_call3_v5_apply, val_main_call3_v11_apply,
    val_main_call3_v1_apply, val_main_call3_v0_apply, val_main_call3_v10_apply, val_main_call3_v9_apply,
    val_main_call3_v8_apply, val_main_call3_v7_apply, val_main_call3_v3_apply, val_main_call3_v2_apply,
    val_main_v48_apply]
  simp only [val_main_call3_cst_apply, Ideal.ofBits_def]
  exact Cert.Spec.bce_of_host _ _

/-- The reference's result, read at its one index, is the specification's loss: the sum from zero of the entries'
    cross entropies times their weights, over the number of counted entries, times the literal. -/
theorem v53_apply (x0 x1 x2 : Arr) (i : S_.Idx) :
    val_main_v53 (F := Ideal) x0 x1 x2 i = Cert.Spec.loss x0 x1 x2 := by
  rw [val_main_v53_apply, val_main_v52_apply, val_main_v51_apply, val_main_cst_15_apply, val_main_cst_16_apply,
    v4_apply]
  simp only [Ideal.ofBits_def, Ideal.ofBits_zero_f32, zero_add, Ideal.hostDivf_def, Ideal.mulf_def]
  unfold Cert.Spec.loss
  refine congrArg (fun s => Ideal.div s (Cert.Spec.tot x2) * Ideal.ofBits .f32 0x3F800000#32) ?_
  refine Finset.sum_congr rfl fun e _ => ?_
  rw [val_main_v50_apply, v49_apply, v46_apply]
  rfl

/-- THE REFERENCE PROGRAM'S RESULT IS THE SPECIFICATION: at the ideal instance the run's result term is the loss of the
    three argument arrays' launch contents. -/
theorem ref_value (m : (ℓ : Loc nD τ sig) → Buf (Elt Ideal) ℓ) (c : Dev nD) :
    Cert.ReferenceIdeal.RunP.res_main_v53 (F := Ideal) m c
      = fun _ => Cert.Spec.loss (m ((c.tc : Thread nD τ).loc main_arg0)) (m ((c.tc : Thread nD τ).loc main_arg1)) (m ((c.tc : Thread nD τ).loc main_arg2)) := by
  rw [val_main_v53_eq]
  funext i
  exact v53_apply _ _ _ i

end Cert.ReferenceIdeal.RefValue

end
-- ==== Proof.lean ====
/- The proof of the certificate's claim. The kernel is a two-launch program (a histogram of gradient-norm bins over all
   entries, then a weighted cross-entropy sum using per-bin weights computed from the histogram); the reference computes
   the same loss by a scatter-add histogram and a gather of the per-bin weights. Over the extended reals both are the
   specification's loss (Proof/Spec.lean): the kernel's ten counts, accumulated tile by tile in a scratch carried across
   the grid, are the reference's scatter-add counts; dividing a bin's weight by the number of nonempty bins before or after
   multiplying by the entry's 0/1 validity is the same; and a sum taken tile by tile is the whole sum.
   The three frames: each kernel program's run is assembled from its two launches (each launch's body run point by point,
   the scratch's contents carried in the launch's invariant) and the host operations between them; the reference's frame is
   its run with the result dropped. -/
import proofs.«130534_j1580547966503_1_alg».proof.Defs
import proofs.«130534_j1580547966503_1_alg».proof.Proof.Gen.Kernel
import proofs.«130534_j1580547966503_1_alg».proof.Proof.Gen.KernelIdeal
import proofs.«130534_j1580547966503_1_alg».proof.Proof.Gen.ReferenceIdeal
import proofs.«130534_j1580547966503_1_alg».proof.Proof.Gen.Pre_finite_inputs
import proofs.«130534_j1580547966503_1_alg».proof.Proof.Whole
import proofs.«130534_j1580547966503_1_alg».proof.Proof.BitsWhole
import proofs.«130534_j1580547966503_1_alg».proof.Proof.KernelValue
import proofs.«130534_j1580547966503_1_alg».proof.Proof.RefRun
import proofs.«130534_j1580547966503_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_k : Cert.frame_Kernel := fun m ρ _ => Cert.Kernel.Whole.frame m ρ

/-- So does the idealized kernel program. -/
theorem frame_ki : Cert.frame_KernelIdeal := fun m ρ _ => Cert.KernelIdeal.Whole.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- From memories agreeing on the three arguments both programs end with the specification's loss of those arguments. -/
theorem algebraic : Cert.algebraic_KernelIdeal_ReferenceIdeal := by
  intro m ρ m' ρ' _ hagree
  refine ⟨fun c => fun _ => Cert.Spec.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Whole.kernel_value m c), (h c).2⟩)
      (Cert.KernelIdeal.Whole.run_value (F := Ideal) m ρ)
  · refine (θ_run Cert.ReferenceIdeal.defs _ _).mono (fun _ h c => ⟨(h c).1.trans ?_, (h c).2⟩)
      (Cert.ReferenceIdeal.RunP.run (F := Ideal) m' ρ')
    rw [Cert.ReferenceIdeal.RefValue.ref_value m' c, (hagree c).1, (hagree c).2.1, (hagree c).2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
